-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S98304x73 : Shape := ⟨2, ![98304, 73]⟩
abbrev S204800x13 : Shape := ⟨2, ![204800, 13]⟩
abbrev S204800 : Shape := ⟨1, ![204800]⟩
abbrev S98304 : Shape := ⟨1, ![98304]⟩
abbrev S300x86 : Shape := ⟨2, ![300, 86]⟩
abbrev S3x300x300 : Shape := ⟨3, ![3, 300, 300]⟩
abbrev S300x373 : Shape := ⟨2, ![300, 373]⟩
abbrev S300 : Shape := ⟨1, ![300]⟩
abbrev S300x300 : Shape := ⟨2, ![300, 300]⟩
abbrev S3x300 : Shape := ⟨2, ![3, 300]⟩
abbrev S3 : Shape := ⟨1, ![3]⟩
abbrev S_ : Shape := ⟨0, ![]⟩

class Facts : Prop where
  bcast_S_S98304x73 : S_.BroadcastsInDim S98304x73 (![] : Fin 0 → Fin S98304x73.rank)
  reducesTo_S98304x73_S_d0_1 : S98304x73.ReducesTo [0, 1] S_
  h_S_ : 0 < S_.numel
  bcast_S_S204800x13 : S_.BroadcastsInDim S204800x13 (![] : Fin 0 → Fin S204800x13.rank)
  reducesTo_S204800x13_S_d0_1 : S204800x13.ReducesTo [0, 1] S_
  bcast_S_S300x86 : S_.BroadcastsInDim S300x86 (![] : Fin 0 → Fin S300x86.rank)
  reducesTo_S300x86_S_d0_1 : S300x86.ReducesTo [0, 1] S_
  bcast_S_S3x300x300 : S_.BroadcastsInDim S3x300x300 (![] : Fin 0 → Fin S3x300x300.rank)
  reducesTo_S3x300x300_S_d0_1_2 : S3x300x300.ReducesTo [0, 1, 2] S_
  bcast_S_S300x373 : S_.BroadcastsInDim S300x373 (![] : Fin 0 → Fin S300x373.rank)
  reducesTo_S300x373_S_d0_1 : S300x373.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S3x300 : S_.BroadcastsInDim S3x300 (![] : Fin 0 → Fin S3x300.rank)
  reducesTo_S3x300_S_d0_1 : S3x300.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg11 : FVec F S300 .f32) (main_arg12 : FVec F S3x300 .f32) (main_arg13 : FVec F S3 .f32) (main_v33 : IVec S_ 1) : IVec S_ 1 :=
  let main_v34 : FVec F S300 .f32 := Host.absf main_arg11
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S3x300 .f32 := Host.absf main_arg12
  let main_cst_14 : FVec F S_ .f32 := constant S_ .f32 0x7F800000#32
  let main_v40 : FVec F S3x300 .f32 := broadcastInDim S3x300 ![] bcast_S_S3x300 main_cst_14
  let main_v41 : IVec S3x300 1 := cmpf .olt main_v39 main_v40
  let main_c_15 : IVec S_ 1 := constantI S_ 1 1#1
  let main_v42 : IVec S_ 1 := (fun x v => Host.reduce IntOp.andi x v reducesTo_S3x300_S_d0_1 h_S_) main_v41 main_c_15
  let main_v43 : IVec S_ 1 := andi main_v38 main_v42
  let main_v44 : FVec F S3 .f32 := Host.absf main_arg13
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg8 : FVec F S300x373 .f32) (main_arg9 : FVec F S300 .f32) (main_arg10 : FVec F S300x300 .f32) (main_arg11 : FVec F S300 .f32) (main_arg12 : FVec F S3x300 .f32) (main_arg13 : FVec F S3 .f32) (main_v13 : IVec S_ 1) (main_v16 : IVec S3x300x300 1) : IVec S_ 1 :=
  let main_c_5 : IVec S_ 1 := constantI S_ 1 1#1
  let main_v17 : IVec S_ 1 := (fun x v => Host.reduce IntOp.andi x v reducesTo_S3x300x300_S_d0_1_2 h_S_) main_v16 main_c_5
  let main_v18 : IVec S_ 1 := andi main_v13 main_v17
  let main_v19 : FVec F S300x373 .f32 := Host.absf main_arg8
  let main_cst_6 : FVec F S_ .f32 := constant S_ .f32 0x7F800000#32
  let main_v20 : FVec F S300x373 .f32 := broadcastInDim S300x373 ![] bcast_S_S300x373 main_cst_6
  let main_v21 : IVec S300x373 1 := cmpf .olt main_v19 main_v20
  let main_c_7 : IVec S_ 1 := constantI S_ 1 1#1
  let main_v22 : IVec S_ 1 := (fun x v => Host.reduce IntOp.andi x v reducesTo_S300x373_S_d0_1 h_S_) main_v21 main_c_7
  let main_v23 : IVec S_ 1 := andi main_v18 main_v22
  let main_v24 : FVec F S300 .f32 := Host.absf main_arg9
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x300 .f32 := Host.absf main_arg10
  let main_cst_10 : FVec F S_ .f32 := constant S_ .f32 0x7F800000#32
  let main_v30 : FVec F S300x300 .f32 := broadcastInDim S300x300 ![] bcast_S_S300x300 main_cst_10
  let main_v31 : IVec S300x300 1 := cmpf .olt main_v29 main_v30
  let main_c_11 : IVec S_ 1 := constantI S_ 1 1#1
  let main_v32 : IVec S_ 1 := (fun x v => Host.reduce IntOp.andi x v reducesTo_S300x300_S_d0_1 h_S_) main_v31 main_c_11
  let main_v33 : IVec S_ 1 := andi main_v28 main_v32
  fn_part2 (F := F) main_arg11 main_arg12 main_arg13 main_v33

def fn {F : FTy → Type} [FloatOps F] (main_arg0 : FVec F S98304x73 .f32) (main_arg1 : FVec F S204800x13 .f32) (main_arg2 : IVec S204800 32) (main_arg3 : IVec S204800 32) (main_arg4 : IVec S204800 32) (main_arg5 : IVec S98304 32) (main_arg6 : FVec F S300x86 .f32) (main_arg7 : FVec F S3x300x300 .f32) (main_arg8 : FVec F S300x373 .f32) (main_arg9 : FVec F S300 .f32) (main_arg10 : FVec F S300x300 .f32) (main_arg11 : FVec F S300 .f32) (main_arg12 : FVec F S3x300 .f32) (main_arg13 : FVec F S3 .f32) : IVec S_ 1 :=
  let main_v0 : FVec F S98304x73 .f32 := Host.absf main_arg0
  let main_cst : FVec F S_ .f32 := constant S_ .f32 0x7F800000#32
  let main_v1 : FVec F S98304x73 .f32 := broadcastInDim S98304x73 ![] bcast_S_S98304x73 main_cst
  let main_v2 : IVec S98304x73 1 := cmpf .olt main_v0 main_v1
  let main_c : IVec S_ 1 := constantI S_ 1 1#1
  let main_v3 : IVec S_ 1 := (fun x v => Host.reduce IntOp.andi x v reducesTo_S98304x73_S_d0_1 h_S_) main_v2 main_c
  let main_v4 : FVec F S204800x13 .f32 := Host.absf main_arg1
  let main_cst_0 : FVec F S_ .f32 := constant S_ .f32 0x7F800000#32
  let main_v5 : FVec F S204800x13 .f32 := broadcastInDim S204800x13 ![] bcast_S_S204800x13 main_cst_0
  let main_v6 : IVec S204800x13 1 := cmpf .olt main_v4 main_v5
  let main_c_1 : IVec S_ 1 := constantI S_ 1 1#1
  let main_v7 : IVec S_ 1 := (fun x v => Host.reduce IntOp.andi x v reducesTo_S204800x13_S_d0_1 h_S_) main_v6 main_c_1
  let main_v8 : IVec S_ 1 := andi main_v3 main_v7
  let main_v9 : FVec F S300x86 .f32 := Host.absf main_arg6
  let main_cst_2 : FVec F S_ .f32 := constant S_ .f32 0x7F800000#32
  let main_v10 : FVec F S300x86 .f32 := broadcastInDim S300x86 ![] bcast_S_S300x86 main_cst_2
  let main_v11 : IVec S300x86 1 := cmpf .olt main_v9 main_v10
  let main_c_3 : IVec S_ 1 := constantI S_ 1 1#1
  let main_v12 : IVec S_ 1 := (fun x v => Host.reduce IntOp.andi x v reducesTo_S300x86_S_d0_1 h_S_) main_v11 main_c_3
  let main_v13 : IVec S_ 1 := andi main_v8 main_v12
  let main_v14 : FVec F S3x300x300 .f32 := Host.absf main_arg7
  let main_cst_4 : FVec F S_ .f32 := constant S_ .f32 0x7F800000#32
  let main_v15 : FVec F S3x300x300 .f32 := broadcastInDim S3x300x300 ![] bcast_S_S3x300x300 main_cst_4
  let main_v16 : IVec S3x300x300 1 := cmpf .olt main_v14 main_v15
  fn_part1 (F := F) main_arg8 main_arg9 main_arg10 main_arg11 main_arg12 main_arg13 main_v13 main_v16
-- ==== Kernel.lean ====
abbrev S98304x73 : Shape := ⟨2, ![98304, 73]⟩
abbrev S204800x13 : Shape := ⟨2, ![204800, 13]⟩
abbrev S204800 : Shape := ⟨1, ![204800]⟩
abbrev S98304 : Shape := ⟨1, ![98304]⟩
abbrev S300x86 : Shape := ⟨2, ![300, 86]⟩
abbrev S3x300x300 : Shape := ⟨3, ![3, 300, 300]⟩
abbrev S300x373 : Shape := ⟨2, ![300, 373]⟩
abbrev S300 : Shape := ⟨1, ![300]⟩
abbrev S300x300 : Shape := ⟨2, ![300, 300]⟩
abbrev S3x300 : Shape := ⟨2, ![3, 300]⟩
abbrev S3 : Shape := ⟨1, ![3]⟩
abbrev S300x73 : Shape := ⟨2, ![300, 73]⟩
abbrev S300x13 : Shape := ⟨2, ![300, 13]⟩
abbrev S73x300 : Shape := ⟨2, ![73, 300]⟩
abbrev S13x300 : Shape := ⟨2, ![13, 300]⟩
abbrev S300x3 : Shape := ⟨2, ![300, 3]⟩
abbrev S_ : Shape := ⟨0, ![]⟩
abbrev S204800x1 : Shape := ⟨2, ![204800, 1]⟩
abbrev S204800x73 : Shape := ⟨2, ![204800, 73]⟩
abbrev S204800x300 : Shape := ⟨2, ![204800, 300]⟩
abbrev S4096x73 : Shape := ⟨2, ![4096, 73]⟩
abbrev S4096x13 : Shape := ⟨2, ![4096, 13]⟩
abbrev S4096x300 : Shape := ⟨2, ![4096, 300]⟩
abbrev S98304x300 : Shape := ⟨2, ![98304, 300]⟩
abbrev S1x300x300 : Shape := ⟨3, ![1, 300, 300]⟩
abbrev S1x300 : Shape := ⟨2, ![1, 300]⟩
abbrev S98304x1 : Shape := ⟨2, ![98304, 1]⟩
abbrev S4096 : Shape := ⟨1, ![4096]⟩
abbrev S4096x1 : Shape := ⟨2, ![4096, 1]⟩
abbrev S1x3 : Shape := ⟨2, ![1, 3]⟩
abbrev S4096x3 : Shape := ⟨2, ![4096, 3]⟩
abbrev S512x300 : Shape := ⟨2, ![512, 300]⟩
abbrev S512x3 : Shape := ⟨2, ![512, 3]⟩

abbrev nBuf : Space → Nat
  | .hbm => 138
  | .vmem => 46
  | .smem => 0
  | _ => 0

abbrev hbmTy0_0 (i : Nat) : BufTy := match i % 128 with
  | 0 => ⟨S98304x73, .f32⟩
  | 1 => ⟨S204800x13, .f32⟩
  | 2 => ⟨S204800, .i32⟩
  | 3 => ⟨S204800, .i32⟩
  | 4 => ⟨S204800, .i32⟩
  | 5 => ⟨S98304, .i32⟩
  | 6 => ⟨S300x86, .f32⟩
  | 7 => ⟨S3x300x300, .f32⟩
  | 8 => ⟨S300x373, .f32⟩
  | 9 => ⟨S300, .f32⟩
  | 10 => ⟨S300x300, .f32⟩
  | 11 => ⟨S300, .f32⟩
  | 12 => ⟨S3x300, .f32⟩
  | 13 => ⟨S3, .f32⟩
  | 14 => ⟨S300x73, .f32⟩
  | 15 => ⟨S300x13, .f32⟩
  | 16 => ⟨S300x73, .f32⟩
  | 17 => ⟨S300x300, .f32⟩
  | 18 => ⟨S73x300, .f32⟩
  | 19 => ⟨S13x300, .f32⟩
  | 20 => ⟨S3x300x300, .f32⟩
  | 21 => ⟨S73x300, .f32⟩
  | 22 => ⟨S300x300, .f32⟩
  | 23 => ⟨S300x300, .f32⟩
  | 24 => ⟨S300x3, .f32⟩
  | 25 => ⟨S_, .i32⟩
  | 26 => ⟨S204800, .i32⟩
  | 27 => ⟨S204800, .i1⟩
  | 28 => ⟨S_, .i32⟩
  | 29 => ⟨S204800, .i32⟩
  | 30 => ⟨S204800, .i32⟩
  | 31 => ⟨S204800, .i32⟩
  | 32 => ⟨S204800x1, .i32⟩
  | 33 => ⟨S204800x73, .f32⟩
  | 34 => ⟨S204800x300, .f32⟩
  | 35 => ⟨S_, .f32⟩
  | 36 => ⟨S98304x300, .f32⟩
  | 37 => ⟨S204800x1, .i32⟩
  | 38 => ⟨S98304x300, .f32⟩
  | 39 => ⟨S_, .i32⟩
  | 40 => ⟨S204800, .i32⟩
  | 41 => ⟨S204800, .i1⟩
  | 42 => ⟨S_, .i32⟩
  | 43 => ⟨S204800, .i32⟩
  | 44 => ⟨S204800, .i32⟩
  | 45 => ⟨S204800, .i32⟩
  | 46 => ⟨S204800x1, .i32⟩
  | 47 => ⟨S204800x300, .f32⟩
  | 48 => ⟨S_, .i32⟩
  | 49 => ⟨S204800, .i32⟩
  | 50 => ⟨S204800, .i1⟩
  | 51 => ⟨S_, .i32⟩
  | 52 => ⟨S204800, .i32⟩
  | 53 => ⟨S204800, .i32⟩
  | 54 => ⟨S204800, .i32⟩
  | 55 => ⟨S204800x1, .i32⟩
  | 56 => ⟨S204800x300, .f32⟩
  | 57 => ⟨S204800x300, .f32⟩
  | 58 => ⟨S1x300x300, .f32⟩
  | 59 => ⟨S300x300, .f32⟩
  | 60 => ⟨S204800x300, .f32⟩
  | 61 => ⟨S_, .f32⟩
  | 62 => ⟨S98304x300, .f32⟩
  | 63 => ⟨S204800x1, .i32⟩
  | 64 => ⟨S98304x300, .f32⟩
  | 65 => ⟨S_, .i32⟩
  | 66 => ⟨S204800, .i32⟩
  | 67 => ⟨S204800, .i1⟩
  | 68 => ⟨S_, .i32⟩
  | 69 => ⟨S204800, .i32⟩
  | 70 => ⟨S204800, .i32⟩
  | 71 => ⟨S204800, .i32⟩
  | 72 => ⟨S204800x1, .i32⟩
  | 73 => ⟨S204800x300, .f32⟩
  | 74 => ⟨S_, .i32⟩
  | 75 => ⟨S204800, .i32⟩
  | 76 => ⟨S204800, .i1⟩
  | 77 => ⟨S_, .i32⟩
  | 78 => ⟨S204800, .i32⟩
  | 79 => ⟨S204800, .i32⟩
  | 80 => ⟨S204800, .i32⟩
  | 81 => ⟨S204800x1, .i32⟩
  | 82 => ⟨S204800x300, .f32⟩
  | 83 => ⟨S204800x300, .f32⟩
  | 84 => ⟨S1x300x300, .f32⟩
  | 85 => ⟨S300x300, .f32⟩
  | 86 => ⟨S204800x300, .f32⟩
  | 87 => ⟨S_, .f32⟩
  | 88 => ⟨S98304x300, .f32⟩
  | 89 => ⟨S204800x1, .i32⟩
  | 90 => ⟨S98304x300, .f32⟩
  | 91 => ⟨S_, .i32⟩
  | 92 => ⟨S204800, .i32⟩
  | 93 => ⟨S204800, .i1⟩
  | 94 => ⟨S_, .i32⟩
  | 95 => ⟨S204800, .i32⟩
  | 96 => ⟨S204800, .i32⟩
  | 97 => ⟨S204800, .i32⟩
  | 98 => ⟨S204800x1, .i32⟩
  | 99 => ⟨S204800x300, .f32⟩
  | 100 => ⟨S_, .i32⟩
  | 101 => ⟨S204800, .i32⟩
  | 102 => ⟨S204800, .i1⟩
  | 103 => ⟨S_, .i32⟩
  | 104 => ⟨S204800, .i32⟩
  | 105 => ⟨S204800, .i32⟩
  | 106 => ⟨S204800, .i32⟩
  | 107 => ⟨S204800x1, .i32⟩
  | 108 => ⟨S204800x300, .f32⟩
  | 109 => ⟨S204800x300, .f32⟩
  | 110 => ⟨S1x300x300, .f32⟩
  | 111 => ⟨S300x300, .f32⟩
  | 112 => ⟨S204800x300, .f32⟩
  | 113 => ⟨S_, .f32⟩
  | 114 => ⟨S98304x300, .f32⟩
  | 115 => ⟨S204800x1, .i32⟩
  | 116 => ⟨S98304x300, .f32⟩
  | 117 => ⟨S1x300, .f32⟩
  | 118 => ⟨S98304x300, .f32⟩
  | 119 => ⟨S_, .f32⟩
  | 120 => ⟨S4096x300, .f32⟩
  | 121 => ⟨S98304x1, .i32⟩
  | 122 => ⟨S4096x300, .f32⟩
  | 123 => ⟨S_, .f32⟩
  | 124 => ⟨S98304, .f32⟩
  | 125 => ⟨S_, .f32⟩
  | 126 => ⟨S4096, .f32⟩
  | 127 => ⟨S98304x1, .i32⟩
  | _ => ⟨S98304x73, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096x1, .f32⟩
  | 5 => ⟨S4096x300, .f32⟩
  | 6 => ⟨S4096x300, .f32⟩
  | 7 => ⟨S1x300, .f32⟩
  | 8 => ⟨S1x3, .f32⟩
  | 9 => ⟨S4096x3, .f32⟩
  | _ => ⟨S98304x73, .f32⟩

abbrev hbmTy (i : Nat) : BufTy := match i / 128 with
  | 0 => hbmTy0_0 i
  | 1 => hbmTy0_1 i
  | _ => ⟨S98304x73, .f32⟩

abbrev bufTy : (tb : Table) → Fin (tcTables nBuf tb) → BufTy
  | .hbm, ⟨i, _⟩ => hbmTy i
  | .local _ .vmem, ⟨0, _⟩ => ⟨S4096x73, .f32⟩
  | .local _ .vmem, ⟨1, _⟩ => ⟨S4096x73, .f32⟩
  | .local _ .vmem, ⟨2, _⟩ => ⟨S4096x13, .f32⟩
  | .local _ .vmem, ⟨3, _⟩ => ⟨S4096x13, .f32⟩
  | .local _ .vmem, ⟨4, _⟩ => ⟨S73x300, .f32⟩
  | .local _ .vmem, ⟨5, _⟩ => ⟨S13x300, .f32⟩
  | .local _ .vmem, ⟨6, _⟩ => ⟨S4096x300, .f32⟩
  | .local _ .vmem, ⟨7, _⟩ => ⟨S4096x300, .f32⟩
  | .local _ .vmem, ⟨8, _⟩ => ⟨S4096x300, .f32⟩
  | .local _ .vmem, ⟨9, _⟩ => ⟨S4096x300, .f32⟩
  | .local _ .vmem, ⟨10, _⟩ => ⟨S4096x300, .f32⟩
  | .local _ .vmem, ⟨11, _⟩ => ⟨S4096x300, .f32⟩
  | .local _ .vmem, ⟨12, _⟩ => ⟨S300x300, .f32⟩
  | .local _ .vmem, ⟨13, _⟩ => ⟨S4096x300, .f32⟩
  | .local _ .vmem, ⟨14, _⟩ => ⟨S4096x300, .f32⟩
  | .local _ .vmem, ⟨15, _⟩ => ⟨S4096x300, .f32⟩
  | .local _ .vmem, ⟨16, _⟩ => ⟨S4096x300, .f32⟩
  | .local _ .vmem, ⟨17, _⟩ => ⟨S4096x300, .f32⟩
  | .local _ .vmem, ⟨18, _⟩ => ⟨S4096x300, .f32⟩
  | .local _ .vmem, ⟨19, _⟩ => ⟨S300x300, .f32⟩
  | .local _ .vmem, ⟨20, _⟩ => ⟨S4096x300, .f32⟩
  | .local _ .vmem, ⟨21, _⟩ => ⟨S4096x300, .f32⟩
  | .local _ .vmem, ⟨22, _⟩ => ⟨S4096x300, .f32⟩
  | .local _ .vmem, ⟨23, _⟩ => ⟨S4096x300, .f32⟩
  | .local _ .vmem, ⟨24, _⟩ => ⟨S4096x300, .f32⟩
  | .local _ .vmem, ⟨25, _⟩ => ⟨S4096x300, .f32⟩
  | .local _ .vmem, ⟨26, _⟩ => ⟨S300x300, .f32⟩
  | .local _ .vmem, ⟨27, _⟩ => ⟨S4096x300, .f32⟩
  | .local _ .vmem, ⟨28, _⟩ => ⟨S4096x300, .f32⟩
  | .local _ .vmem, ⟨29, _⟩ => ⟨S4096x73, .f32⟩
  | .local _ .vmem, ⟨30, _⟩ => ⟨S4096x73, .f32⟩
  | .local _ .vmem, ⟨31, _⟩ => ⟨S4096x300, .f32⟩
  | .local _ .vmem, ⟨32, _⟩ => ⟨S4096x300, .f32⟩
  | .local _ .vmem, ⟨33, _⟩ => ⟨S73x300, .f32⟩
  | .local _ .vmem, ⟨34, _⟩ => ⟨S300x300, .f32⟩
  | .local _ .vmem, ⟨35, _⟩ => ⟨S1x300, .f32⟩
  | .local _ .vmem, ⟨36, _⟩ => ⟨S4096x300, .f32⟩
  | .local _ .vmem, ⟨37, _⟩ => ⟨S4096x300, .f32⟩
  | .local _ .vmem, ⟨38, _⟩ => ⟨S512x300, .f32⟩
  | .local _ .vmem, ⟨39, _⟩ => ⟨S512x300, .f32⟩
  | .local _ .vmem, ⟨40, _⟩ => ⟨S300x300, .f32⟩
  | .local _ .vmem, ⟨41, _⟩ => ⟨S1x300, .f32⟩
  | .local _ .vmem, ⟨42, _⟩ => ⟨S300x3, .f32⟩
  | .local _ .vmem, ⟨43, _⟩ => ⟨S1x3, .f32⟩
  | .local _ .vmem, ⟨44, _⟩ => ⟨S512x3, .f32⟩
  | .local _ .vmem, ⟨45, _⟩ => ⟨S512x3, .f32⟩
  | _, _ => ⟨S98304x73, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_6 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_19 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x73 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S73x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S300x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x300 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![24], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x73 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S73x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S300x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4096x300 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S300x300 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x300 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S300x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x3 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x3 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S300x86_S300x73_0_0 : S300x86.Slices ![0, 0] S300x73
  slices_S300x86_S300x13_0_73 : S300x86.Slices ![0, 73] S300x13
  slices_S300x373_S300x73_0_0 : S300x373.Slices ![0, 0] S300x73
  slices_S300x373_S300x300_0_73 : S300x373.Slices ![0, 73] S300x300
  transposes_S300x73_S73x300_1_0 : S300x73.Transposes [1, 0] S73x300
  transposes_S300x13_S13x300_1_0 : S300x13.Transposes [1, 0] S13x300
  transposes_S3x300x300_S3x300x300_0_2_1 : S3x300x300.Transposes [0, 2, 1] S3x300x300
  transposes_S300x300_S300x300_1_0 : S300x300.Transposes [1, 0] S300x300
  transposes_S3x300_S300x3_1_0 : S3x300.Transposes [1, 0] S300x3
  bcast_S_S204800 : S_.BroadcastsInDim S204800 (![] : Fin 0 → Fin S204800.rank)
  bcast_S204800_S204800x1_0 : S204800.BroadcastsInDim S204800x1 (![0] : Fin 1 → Fin S204800x1.rank)
  inb_S4096x73_S4096x73_0_0 : ∀ a, (![0, 0] : Fin 2 → Nat) a + S4096x73.size a ≤ S4096x73.size a
  h_S4096x73 : 0 < S4096x73.numel
  shapeCasts_S4096x73_S4096x73 : S4096x73.ShapeCasts S4096x73
  inb_S4096x13_S4096x13_0_0 : ∀ a, (![0, 0] : Fin 2 → Nat) a + S4096x13.size a ≤ S4096x13.size a
  h_S4096x13 : 0 < S4096x13.numel
  inb_S73x300_S73x300_0_0 : ∀ a, (![0, 0] : Fin 2 → Nat) a + S73x300.size a ≤ S73x300.size a
  h_S73x300 : 0 < S73x300.numel
  shapeCasts_S73x300_S73x300 : S73x300.ShapeCasts S73x300
  inb_S13x300_S13x300_0_0 : ∀ a, (![0, 0] : Fin 2 → Nat) a + S13x300.size a ≤ S13x300.size a
  h_S13x300 : 0 < S13x300.numel
  shapeCasts_S13x300_S13x300 : S13x300.ShapeCasts S13x300
  inb_S4096x300_S4096x300_0_0 : ∀ a, (![0, 0] : Fin 2 → Nat) a + S4096x300.size a ≤ S4096x300.size a
  h_S4096x300 : 0 < S4096x300.numel
  bcast_S_S98304x300 : S_.BroadcastsInDim S98304x300 (![] : Fin 0 → Fin S98304x300.rank)
  slices_S3x300x300_S1x300x300_0_0_0 : S3x300x300.Slices ![0, 0, 0] S1x300x300
  shapeCasts_S1x300x300_S300x300 : S1x300x300.ShapeCasts S300x300
  shapeCasts_S4096x300_S4096x300 : S4096x300.ShapeCasts S4096x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  slices_S3x300x300_S1x300x300_1_0_0 : S3x300x300.Slices ![1, 0, 0] S1x300x300
  slices_S3x300x300_S1x300x300_2_0_0 : S3x300x300.Slices ![2, 0, 0] S1x300x300
  shapeCasts_S300_S1x300 : S300.ShapeCasts S1x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4096x300 : S1x300.Broadcasts S4096x300
  bcast_S_S4096x300 : S_.BroadcastsInDim S4096x300 (![] : Fin 0 → Fin S4096x300.rank)
  bcast_S98304_S98304x1_0 : S98304.BroadcastsInDim S98304x1 (![0] : Fin 1 → Fin S98304x1.rank)
  bcast_S_S98304 : S_.BroadcastsInDim S98304 (![] : Fin 0 → Fin S98304.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x300_0_1 : S4096x1.BroadcastsInDim S4096x300 (![0, 1] : Fin 2 → Fin S4096x300.rank)
  shapeCasts_S3_S1x3 : S3.ShapeCasts S1x3
  inb_S512x300_S512x300_0_0 : ∀ a, (![0, 0] : Fin 2 → Nat) a + S512x300.size a ≤ S512x300.size a
  h_S512x300 : 0 < S512x300.numel
  shapeCasts_S512x300_S512x300 : S512x300.ShapeCasts S512x300
  bitsLt_bf16_f32 : FTy.bits .bf16 < FTy.bits .f32
  inb_S300x3_S300x3_0_0 : ∀ a, (![0, 0] : Fin 2 → Nat) a + S300x3.size a ≤ S300x3.size a
  h_S300x3 : 0 < S300x3.numel
  shapeCasts_S300x3_S300x3 : S300x3.ShapeCasts S300x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x300_S512x300 : S1x300.Broadcasts S512x300
  broadcasts_S1x3_S512x3 : S1x3.Broadcasts S512x3
  inb_S512x3_S512x3_0_0 : ∀ a, (![0, 0] : Fin 2 → Nat) a + S512x3.size a ≤ S512x3.size a
  h_S512x3 : 0 < S512x3.numel
  gather_S98304x73_S204800x1_S204800x73_1_0_n_n_0_1_173_wf : GatherDims.WF S98304x73 S204800x1 S204800x73 [1] [0] [] [0] [] 1 ![1, 73]
  dot_S4096x73_S73x300_S4096x300_1_0_0_1_n_n_wf : DotDims.WF S4096x73 S73x300 S4096x300 [1] [0] [0] [1] [] []
  dot_S4096x13_S13x300_S4096x300_1_0_0_1_n_n_wf : DotDims.WF S4096x13 S13x300 S4096x300 [1] [0] [0] [1] [] []
  scatter_S98304x300_S204800x1_S204800x300_1_0_0_1_wf : ScatterDims.WF S98304x300 S204800x1 S204800x300 [1] [0] [0] 1
  gather_S98304x300_S204800x1_S204800x300_1_0_n_n_0_1_1300_wf : GatherDims.WF S98304x300 S204800x1 S204800x300 [1] [0] [] [0] [] 1 ![1, 300]
  gather_S204800x300_S204800x1_S204800x300_1_0_n_n_0_1_1300_wf : GatherDims.WF S204800x300 S204800x1 S204800x300 [1] [0] [] [0] [] 1 ![1, 300]
  dot_S4096x300_S300x300_S4096x300_1_0_0_1_n_n_wf : DotDims.WF S4096x300 S300x300 S4096x300 [1] [0] [0] [1] [] []
  scatter_S4096x300_S98304x1_S98304x300_1_0_0_1_wf : ScatterDims.WF S4096x300 S98304x1 S98304x300 [1] [0] [0] 1
  scatter_S4096_S98304x1_S98304_n_0_0_1_wf : ScatterDims.WF S4096 S98304x1 S98304 [] [0] [0] 1
  dot_S512x300_S300x300_S512x300_1_0_0_1_n_n_wf : DotDims.WF S512x300 S300x300 S512x300 [1] [0] [0] [1] [] []
  dot_S512x300_S300x3_S512x3_1_0_0_1_n_n_wf : DotDims.WF S512x300 S300x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x73.size a ≤ S204800x73.size a
  hwx0_0 : ∀ i : grid0.Coords, EltTy.bits .f32 = 32 ∨ (Rect.block (s := S204800x73) S4096x73.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x13.size a ≤ S204800x13.size a
  hwx0_1 : ∀ i : grid0.Coords, EltTy.bits .f32 = 32 ∨ (Rect.block (s := S204800x13) S4096x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S73x300.size a ≤ S73x300.size a
  hwx0_2 : ∀ i : grid0.Coords, EltTy.bits .f32 = 32 ∨ (Rect.block (s := S73x300) S73x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x300.size a ≤ S13x300.size a
  hwx0_3 : ∀ i : grid0.Coords, EltTy.bits .f32 = 32 ∨ (Rect.block (s := S13x300) S13x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x300.size a ≤ S204800x300.size a
  hwx0_4 : ∀ i : grid0.Coords, EltTy.bits .f32 = 32 ∨ (Rect.block (s := S204800x300) S4096x300.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x300.size a ≤ S204800x300.size a
  hwx1_0 : ∀ i : grid1.Coords, EltTy.bits .f32 = 32 ∨ (Rect.block (s := S204800x300) S4096x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x300.size a ≤ S204800x300.size a
  hwx1_1 : ∀ i : grid1.Coords, EltTy.bits .f32 = 32 ∨ (Rect.block (s := S204800x300) S4096x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x300.size a ≤ S204800x300.size a
  hwx1_3 : ∀ i : grid1.Coords, EltTy.bits .f32 = 32 ∨ (Rect.block (s := S204800x300) S4096x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x300.size a ≤ S204800x300.size a
  hwx2_0 : ∀ i : grid2.Coords, EltTy.bits .f32 = 32 ∨ (Rect.block (s := S204800x300) S4096x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x300.size a ≤ S204800x300.size a
  hwx2_1 : ∀ i : grid2.Coords, EltTy.bits .f32 = 32 ∨ (Rect.block (s := S204800x300) S4096x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x300.size a ≤ S204800x300.size a
  hwx2_3 : ∀ i : grid2.Coords, EltTy.bits .f32 = 32 ∨ (Rect.block (s := S204800x300) S4096x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x300.size a ≤ S204800x300.size a
  hwx3_0 : ∀ i : grid3.Coords, EltTy.bits .f32 = 32 ∨ (Rect.block (s := S204800x300) S4096x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x300.size a ≤ S204800x300.size a
  hwx3_1 : ∀ i : grid3.Coords, EltTy.bits .f32 = 32 ∨ (Rect.block (s := S204800x300) S4096x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S300x300.size a ≤ S300x300.size a
  hwx3_2 : ∀ i : grid3.Coords, EltTy.bits .f32 = 32 ∨ (Rect.block (s := S300x300) S300x300.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x300.size a ≤ S204800x300.size a
  hwx3_3 : ∀ i : grid3.Coords, EltTy.bits .f32 = 32 ∨ (Rect.block (s := S204800x300) S4096x300.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x73.size a ≤ S98304x73.size a
  hwx4_0 : ∀ i : grid4.Coords, EltTy.bits .f32 = 32 ∨ (Rect.block (s := S98304x73) S4096x73.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x300.size a ≤ S98304x300.size a
  hwx4_1 : ∀ i : grid4.Coords, EltTy.bits .f32 = 32 ∨ (Rect.block (s := S98304x300) S4096x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S73x300.size a ≤ S73x300.size a
  hwx4_2 : ∀ i : grid4.Coords, EltTy.bits .f32 = 32 ∨ (Rect.block (s := S73x300) S73x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S300x300.size a ≤ S300x300.size a
  hwx4_3 : ∀ i : grid4.Coords, EltTy.bits .f32 = 32 ∨ (Rect.block (s := S300x300) S300x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x300.size a ≤ S1x300.size a
  hwx4_4 : ∀ i : grid4.Coords, EltTy.bits .f32 = 32 ∨ (Rect.block (s := S1x300) S1x300.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4096x300.size a ≤ S98304x300.size a
  hwx4_5 : ∀ i : grid4.Coords, EltTy.bits .f32 = 32 ∨ (Rect.block (s := S98304x300) S4096x300.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x300.size a ≤ S4096x300.size a
  hwx5_0 : ∀ i : grid5.Coords, EltTy.bits .f32 = 32 ∨ (Rect.block (s := S4096x300) S512x300.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S300x300.size a ≤ S300x300.size a
  hwx5_1 : ∀ i : grid5.Coords, EltTy.bits .f32 = 32 ∨ (Rect.block (s := S300x300) S300x300.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x300.size a ≤ S1x300.size a
  hwx5_2 : ∀ i : grid5.Coords, EltTy.bits .f32 = 32 ∨ (Rect.block (s := S1x300) S1x300.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S300x3.size a ≤ S300x3.size a
  hwx5_3 : ∀ i : grid5.Coords, EltTy.bits .f32 = 32 ∨ (Rect.block (s := S300x3) S300x3.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x3.size a ≤ S1x3.size a
  hwx5_4 : ∀ i : grid5.Coords, EltTy.bits .f32 = 32 ∨ (Rect.block (s := S1x3) S1x3.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x3.size a ≤ S4096x3.size a
  hwx5_5 : ∀ i : grid5.Coords, EltTy.bits .f32 = 32 ∨ (Rect.block (s := S4096x3) S512x3.size (cc5_transform_5 i) (hinb5_5 i)).WholeWords (EltTy.packing .f32)

variable [Facts₀]

def gather_S98304x73_S204800x1_S204800x73_1_0_n_n_0_1_173 : GatherDims S98304x73 S204800x1 S204800x73 where
  offsetDims := [1]
  collapsedSliceDims := [0]
  operandBatchingDims := []
  startIndicesBatchingDims := []
  startIndexMap := [0]
  indexVectorDim := 1
  sliceSizes := ![1, 73]
  wf := gather_S98304x73_S204800x1_S204800x73_1_0_n_n_0_1_173_wf
def dot_S4096x73_S73x300_S4096x300_1_0_0_1_n_n : DotDims S4096x73 S73x300 S4096x300 where
  lhsContracting := [1]
  rhsContracting := [0]
  lhsNonContracting := [0]
  rhsNonContracting := [1]
  lhsBatch := []
  rhsBatch := []
  wf := dot_S4096x73_S73x300_S4096x300_1_0_0_1_n_n_wf
def dot_S4096x13_S13x300_S4096x300_1_0_0_1_n_n : DotDims S4096x13 S13x300 S4096x300 where
  lhsContracting := [1]
  rhsContracting := [0]
  lhsNonContracting := [0]
  rhsNonContracting := [1]
  lhsBatch := []
  rhsBatch := []
  wf := dot_S4096x13_S13x300_S4096x300_1_0_0_1_n_n_wf
def scatter_S98304x300_S204800x1_S204800x300_1_0_0_1 : ScatterDims S98304x300 S204800x1 S204800x300 where
  updateWindowDims := [1]
  insertedWindowDims := [0]
  scatterDimsToOperandDims := [0]
  indexVectorDim := 1
  wf := scatter_S98304x300_S204800x1_S204800x300_1_0_0_1_wf
def gather_S98304x300_S204800x1_S204800x300_1_0_n_n_0_1_1300 : GatherDims S98304x300 S204800x1 S204800x300 where
  offsetDims := [1]
  collapsedSliceDims := [0]
  operandBatchingDims := []
  startIndicesBatchingDims := []
  startIndexMap := [0]
  indexVectorDim := 1
  sliceSizes := ![1, 300]
  wf := gather_S98304x300_S204800x1_S204800x300_1_0_n_n_0_1_1300_wf
def gather_S204800x300_S204800x1_S204800x300_1_0_n_n_0_1_1300 : GatherDims S204800x300 S204800x1 S204800x300 where
  offsetDims := [1]
  collapsedSliceDims := [0]
  operandBatchingDims := []
  startIndicesBatchingDims := []
  startIndexMap := [0]
  indexVectorDim := 1
  sliceSizes := ![1, 300]
  wf := gather_S204800x300_S204800x1_S204800x300_1_0_n_n_0_1_1300_wf
def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def scatter_S4096x300_S98304x1_S98304x300_1_0_0_1 : ScatterDims S4096x300 S98304x1 S98304x300 where
  updateWindowDims := [1]
  insertedWindowDims := [0]
  scatterDimsToOperandDims := [0]
  indexVectorDim := 1
  wf := scatter_S4096x300_S98304x1_S98304x300_1_0_0_1_wf
def scatter_S4096_S98304x1_S98304_n_0_0_1 : ScatterDims S4096 S98304x1 S98304 where
  updateWindowDims := []
  insertedWindowDims := [0]
  scatterDimsToOperandDims := [0]
  indexVectorDim := 1
  wf := scatter_S4096_S98304x1_S98304_n_0_0_1_wf
def dot_S512x300_S300x300_S512x300_1_0_0_1_n_n : DotDims S512x300 S300x300 S512x300 where
  lhsContracting := [1]
  rhsContracting := [0]
  lhsNonContracting := [0]
  rhsNonContracting := [1]
  lhsBatch := []
  rhsBatch := []
  wf := dot_S512x300_S300x300_S512x300_1_0_0_1_n_n_wf
def dot_S512x300_S300x3_S512x3_1_0_0_1_n_n : DotDims S512x300 S300x3 S512x3 where
  lhsContracting := [1]
  rhsContracting := [0]
  lhsNonContracting := [0]
  rhsNonContracting := [1]
  lhsBatch := []
  rhsBatch := []
  wf := dot_S512x300_S300x3_S512x3_1_0_0_1_n_n_wf

abbrev win0_0 : Pipeline.Window sig grid0 :=
  Pipeline.Window.ofSpec (Memref.whole main_v17) S4096x73.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S73x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S13x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S4096x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36) S4096x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4096x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S4096x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S4096x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S4096x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S4096x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S4096x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S4096x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S300x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S4096x300.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S4096x73.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S4096x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S73x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S300x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S4096x300.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v98) S512x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S300x300.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x300.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S300x3.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S1x3.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101) S512x3.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S98304x73 : Shape := ⟨2, ![98304, 73]⟩
abbrev S204800x13 : Shape := ⟨2, ![204800, 13]⟩
abbrev S204800 : Shape := ⟨1, ![204800]⟩
abbrev S98304 : Shape := ⟨1, ![98304]⟩
abbrev S300x86 : Shape := ⟨2, ![300, 86]⟩
abbrev S3x300x300 : Shape := ⟨3, ![3, 300, 300]⟩
abbrev S300x373 : Shape := ⟨2, ![300, 373]⟩
abbrev S300 : Shape := ⟨1, ![300]⟩
abbrev S300x300 : Shape := ⟨2, ![300, 300]⟩
abbrev S3x300 : Shape := ⟨2, ![3, 300]⟩
abbrev S3 : Shape := ⟨1, ![3]⟩
abbrev S_ : Shape := ⟨0, ![]⟩
abbrev S204800x1 : Shape := ⟨2, ![204800, 1]⟩
abbrev S204800x73 : Shape := ⟨2, ![204800, 73]⟩
abbrev S204800x86 : Shape := ⟨2, ![204800, 86]⟩
abbrev S86x300 : Shape := ⟨2, ![86, 300]⟩
abbrev S204800x300 : Shape := ⟨2, ![204800, 300]⟩
abbrev S98304x300 : Shape := ⟨2, ![98304, 300]⟩
abbrev S1x300x300 : Shape := ⟨3, ![1, 300, 300]⟩
abbrev S98304x373 : Shape := ⟨2, ![98304, 373]⟩
abbrev S373x300 : Shape := ⟨2, ![373, 300]⟩
abbrev S1x300 : Shape := ⟨2, ![1, 300]⟩
abbrev S4096x300 : Shape := ⟨2, ![4096, 300]⟩
abbrev S98304x1 : Shape := ⟨2, ![98304, 1]⟩
abbrev S4096 : Shape := ⟨1, ![4096]⟩
abbrev S4096x1 : Shape := ⟨2, ![4096, 1]⟩
abbrev S300x3 : Shape := ⟨2, ![300, 3]⟩
abbrev S4096x3 : Shape := ⟨2, ![4096, 3]⟩
abbrev S1x3 : Shape := ⟨2, ![1, 3]⟩

abbrev nBuf : Space → Nat
  | .hbm => 164
  | .vmem => 0
  | .smem => 0
  | _ => 0

abbrev hbmTy0_0 (i : Nat) : BufTy := match i % 128 with
  | 0 => ⟨S98304x73, .f32⟩
  | 1 => ⟨S204800x13, .f32⟩
  | 2 => ⟨S204800, .i32⟩
  | 3 => ⟨S204800, .i32⟩
  | 4 => ⟨S204800, .i32⟩
  | 5 => ⟨S98304, .i32⟩
  | 6 => ⟨S300x86, .f32⟩
  | 7 => ⟨S3x300x300, .f32⟩
  | 8 => ⟨S300x373, .f32⟩
  | 9 => ⟨S300, .f32⟩
  | 10 => ⟨S300x300, .f32⟩
  | 11 => ⟨S300, .f32⟩
  | 12 => ⟨S3x300, .f32⟩
  | 13 => ⟨S3, .f32⟩
  | 14 => ⟨S_, .i32⟩
  | 15 => ⟨S204800, .i32⟩
  | 16 => ⟨S204800, .i1⟩
  | 17 => ⟨S_, .i32⟩
  | 18 => ⟨S204800, .i32⟩
  | 19 => ⟨S204800, .i32⟩
  | 20 => ⟨S204800, .i32⟩
  | 21 => ⟨S204800x1, .i32⟩
  | 22 => ⟨S204800x73, .f32⟩
  | 23 => ⟨S204800x86, .f32⟩
  | 24 => ⟨S86x300, .f32⟩
  | 25 => ⟨S204800x300, .f32⟩
  | 26 => ⟨S_, .f32⟩
  | 27 => ⟨S204800x300, .f32⟩
  | 28 => ⟨S204800x300, .f32⟩
  | 29 => ⟨S_, .f32⟩
  | 30 => ⟨S98304x300, .f32⟩
  | 31 => ⟨S204800x1, .i32⟩
  | 32 => ⟨S98304x300, .f32⟩
  | 33 => ⟨S_, .i32⟩
  | 34 => ⟨S204800, .i32⟩
  | 35 => ⟨S204800, .i1⟩
  | 36 => ⟨S_, .i32⟩
  | 37 => ⟨S204800, .i32⟩
  | 38 => ⟨S204800, .i32⟩
  | 39 => ⟨S204800, .i32⟩
  | 40 => ⟨S204800x1, .i32⟩
  | 41 => ⟨S204800x300, .f32⟩
  | 42 => ⟨S_, .i32⟩
  | 43 => ⟨S204800, .i32⟩
  | 44 => ⟨S204800, .i1⟩
  | 45 => ⟨S_, .i32⟩
  | 46 => ⟨S204800, .i32⟩
  | 47 => ⟨S204800, .i32⟩
  | 48 => ⟨S204800, .i32⟩
  | 49 => ⟨S204800x1, .i32⟩
  | 50 => ⟨S204800x300, .f32⟩
  | 51 => ⟨S204800x300, .f32⟩
  | 52 => ⟨S1x300x300, .f32⟩
  | 53 => ⟨S300x300, .f32⟩
  | 54 => ⟨S300x300, .f32⟩
  | 55 => ⟨S204800x300, .f32⟩
  | 56 => ⟨S204800x300, .f32⟩
  | 57 => ⟨S_, .f32⟩
  | 58 => ⟨S204800x300, .f32⟩
  | 59 => ⟨S204800x300, .f32⟩
  | 60 => ⟨S_, .f32⟩
  | 61 => ⟨S98304x300, .f32⟩
  | 62 => ⟨S204800x1, .i32⟩
  | 63 => ⟨S98304x300, .f32⟩
  | 64 => ⟨S_, .i32⟩
  | 65 => ⟨S204800, .i32⟩
  | 66 => ⟨S204800, .i1⟩
  | 67 => ⟨S_, .i32⟩
  | 68 => ⟨S204800, .i32⟩
  | 69 => ⟨S204800, .i32⟩
  | 70 => ⟨S204800, .i32⟩
  | 71 => ⟨S204800x1, .i32⟩
  | 72 => ⟨S204800x300, .f32⟩
  | 73 => ⟨S_, .i32⟩
  | 74 => ⟨S204800, .i32⟩
  | 75 => ⟨S204800, .i1⟩
  | 76 => ⟨S_, .i32⟩
  | 77 => ⟨S204800, .i32⟩
  | 78 => ⟨S204800, .i32⟩
  | 79 => ⟨S204800, .i32⟩
  | 80 => ⟨S204800x1, .i32⟩
  | 81 => ⟨S204800x300, .f32⟩
  | 82 => ⟨S204800x300, .f32⟩
  | 83 => ⟨S1x300x300, .f32⟩
  | 84 => ⟨S300x300, .f32⟩
  | 85 => ⟨S300x300, .f32⟩
  | 86 => ⟨S204800x300, .f32⟩
  | 87 => ⟨S204800x300, .f32⟩
  | 88 => ⟨S_, .f32⟩
  | 89 => ⟨S204800x300, .f32⟩
  | 90 => ⟨S204800x300, .f32⟩
  | 91 => ⟨S_, .f32⟩
  | 92 => ⟨S98304x300, .f32⟩
  | 93 => ⟨S204800x1, .i32⟩
  | 94 => ⟨S98304x300, .f32⟩
  | 95 => ⟨S_, .i32⟩
  | 96 => ⟨S204800, .i32⟩
  | 97 => ⟨S204800, .i1⟩
  | 98 => ⟨S_, .i32⟩
  | 99 => ⟨S204800, .i32⟩
  | 100 => ⟨S204800, .i32⟩
  | 101 => ⟨S204800, .i32⟩
  | 102 => ⟨S204800x1, .i32⟩
  | 103 => ⟨S204800x300, .f32⟩
  | 104 => ⟨S_, .i32⟩
  | 105 => ⟨S204800, .i32⟩
  | 106 => ⟨S204800, .i1⟩
  | 107 => ⟨S_, .i32⟩
  | 108 => ⟨S204800, .i32⟩
  | 109 => ⟨S204800, .i32⟩
  | 110 => ⟨S204800, .i32⟩
  | 111 => ⟨S204800x1, .i32⟩
  | 112 => ⟨S204800x300, .f32⟩
  | 113 => ⟨S204800x300, .f32⟩
  | 114 => ⟨S1x300x300, .f32⟩
  | 115 => ⟨S300x300, .f32⟩
  | 116 => ⟨S300x300, .f32⟩
  | 117 => ⟨S204800x300, .f32⟩
  | 118 => ⟨S204800x300, .f32⟩
  | 119 => ⟨S_, .f32⟩
  | 120 => ⟨S204800x300, .f32⟩
  | 121 => ⟨S204800x300, .f32⟩
  | 122 => ⟨S_, .f32⟩
  | 123 => ⟨S98304x300, .f32⟩
  | 124 => ⟨S204800x1, .i32⟩
  | 125 => ⟨S98304x300, .f32⟩
  | 126 => ⟨S98304x373, .f32⟩
  | 127 => ⟨S373x300, .f32⟩
  | _ => ⟨S98304x73, .f32⟩

abbrev hbmTy0_1 (i : Nat) : BufTy := match i % 128 with
  | 0 => ⟨S98304x300, .f32⟩
  | 1 => ⟨S1x300, .f32⟩
  | 2 => ⟨S98304x300, .f32⟩
  | 3 => ⟨S98304x300, .f32⟩
  | 4 => ⟨S_, .f32⟩
  | 5 => ⟨S98304x300, .f32⟩
  | 6 => ⟨S98304x300, .f32⟩
  | 7 => ⟨S_, .f32⟩
  | 8 => ⟨S4096x300, .f32⟩
  | 9 => ⟨S98304x1, .i32⟩
  | 10 => ⟨S4096x300, .f32⟩
  | 11 => ⟨S_, .f32⟩
  | 12 => ⟨S98304, .f32⟩
  | 13 => ⟨S_, .f32⟩
  | 14 => ⟨S4096, .f32⟩
  | 15 => ⟨S98304x1, .i32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x300, .f32⟩
  | 22 => ⟨S4096x300, .f32⟩
  | 23 => ⟨S300x300, .f32⟩
  | 24 => ⟨S4096x300, .f32⟩
  | 25 => ⟨S1x300, .f32⟩
  | 26 => ⟨S4096x300, .f32⟩
  | 27 => ⟨S4096x300, .f32⟩
  | 28 => ⟨S_, .f32⟩
  | 29 => ⟨S4096x300, .f32⟩
  | 30 => ⟨S4096x300, .f32⟩
  | 31 => ⟨S300x3, .f32⟩
  | 32 => ⟨S4096x3, .f32⟩
  | 33 => ⟨S1x3, .f32⟩
  | 34 => ⟨S4096x3, .f32⟩
  | 35 => ⟨S4096x3, .f32⟩
  | _ => ⟨S98304x73, .f32⟩

abbrev hbmTy (i : Nat) : BufTy := match i / 128 with
  | 0 => hbmTy0_0 i
  | 1 => hbmTy0_1 i
  | _ => ⟨S98304x73, .f32⟩

abbrev bufTy : (tb : Table) → Fin (tcTables nBuf tb) → BufTy
  | .hbm, ⟨i, _⟩ => hbmTy i
  | _, _ => ⟨S98304x73, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_c_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call2_cst : Ref sig .tc := ⟨.hbm, 88, rfl⟩
abbrev main_call2_v0 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call3_cst : Ref sig .tc := ⟨.hbm, 119, rfl⟩
abbrev main_call3_v0 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call4_cst : Ref sig .tc := ⟨.hbm, 132, rfl⟩
abbrev main_call4_v0 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_17 : Ref sig .tc := ⟨.hbm, 139, rfl⟩
abbrev main_v96 : Ref sig .tc := ⟨.hbm, 140, rfl⟩
abbrev main_cst_18 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_19 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call5_cst : Ref sig .tc := ⟨.hbm, 156, rfl⟩
abbrev main_call5_v0 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩

abbrev nD : Nat := 1
abbrev τ : Topo := Topo.v7x

variable {F : FTy → Type} [FloatOps F]

class Facts₀ : Prop where
  bcast_S_S204800 : S_.BroadcastsInDim S204800 (![] : Fin 0 → Fin S204800.rank)
  bcast_S204800_S204800x1_0 : S204800.BroadcastsInDim S204800x1 (![0] : Fin 1 → Fin S204800x1.rank)
  concatenates_S204800x73_S204800x13_S204800x86_d1 : Shape.Concatenates [S204800x73, S204800x13] S204800x86 1
  transposes_S300x86_S86x300_1_0 : S300x86.Transposes [1, 0] S86x300
  bcast_S_S204800x300 : S_.BroadcastsInDim S204800x300 (![] : Fin 0 → Fin S204800x300.rank)
  bcast_S_S98304x300 : S_.BroadcastsInDim S98304x300 (![] : Fin 0 → Fin S98304x300.rank)
  slices_S3x300x300_S1x300x300_0_0_0 : S3x300x300.Slices ![0, 0, 0] S1x300x300
  shapeCasts_S1x300x300_S300x300 : S1x300x300.ShapeCasts S300x300
  transposes_S300x300_S300x300_1_0 : S300x300.Transposes [1, 0] S300x300
  slices_S3x300x300_S1x300x300_1_0_0 : S3x300x300.Slices ![1, 0, 0] S1x300x300
  slices_S3x300x300_S1x300x300_2_0_0 : S3x300x300.Slices ![2, 0, 0] S1x300x300
  concatenates_S98304x73_S98304x300_S98304x373_d1 : Shape.Concatenates [S98304x73, S98304x300] S98304x373 1
  transposes_S300x373_S373x300_1_0 : S300x373.Transposes [1, 0] S373x300
  bcast_S300_S1x300_1 : S300.BroadcastsInDim S1x300 (![1] : Fin 1 → Fin S1x300.rank)
  bcast_S1x300_S98304x300_0_1 : S1x300.BroadcastsInDim S98304x300 (![0, 1] : Fin 2 → Fin S98304x300.rank)
  bcast_S_S4096x300 : S_.BroadcastsInDim S4096x300 (![] : Fin 0 → Fin S4096x300.rank)
  bcast_S98304_S98304x1_0 : S98304.BroadcastsInDim S98304x1 (![0] : Fin 1 → Fin S98304x1.rank)
  bcast_S_S98304 : S_.BroadcastsInDim S98304 (![] : Fin 0 → Fin S98304.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x300_0_1 : S4096x1.BroadcastsInDim S4096x300 (![0, 1] : Fin 2 → Fin S4096x300.rank)
  bcast_S1x300_S4096x300_0_1 : S1x300.BroadcastsInDim S4096x300 (![0, 1] : Fin 2 → Fin S4096x300.rank)
  transposes_S3x300_S300x3_1_0 : S3x300.Transposes [1, 0] S300x3
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  gather_S98304x73_S204800x1_S204800x73_1_0_n_n_0_1_173_wf : GatherDims.WF S98304x73 S204800x1 S204800x73 [1] [0] [] [0] [] 1 ![1, 73]
  dot_S204800x86_S86x300_S204800x300_1_0_0_1_n_n_wf : DotDims.WF S204800x86 S86x300 S204800x300 [1] [0] [0] [1] [] []
  scatter_S98304x300_S204800x1_S204800x300_1_0_0_1_wf : ScatterDims.WF S98304x300 S204800x1 S204800x300 [1] [0] [0] 1
  gather_S98304x300_S204800x1_S204800x300_1_0_n_n_0_1_1300_wf : GatherDims.WF S98304x300 S204800x1 S204800x300 [1] [0] [] [0] [] 1 ![1, 300]
  gather_S204800x300_S204800x1_S204800x300_1_0_n_n_0_1_1300_wf : GatherDims.WF S204800x300 S204800x1 S204800x300 [1] [0] [] [0] [] 1 ![1, 300]
  dot_S204800x300_S300x300_S204800x300_1_0_0_1_n_n_wf : DotDims.WF S204800x300 S300x300 S204800x300 [1] [0] [0] [1] [] []
  dot_S98304x373_S373x300_S98304x300_1_0_0_1_n_n_wf : DotDims.WF S98304x373 S373x300 S98304x300 [1] [0] [0] [1] [] []
  scatter_S4096x300_S98304x1_S98304x300_1_0_0_1_wf : ScatterDims.WF S4096x300 S98304x1 S98304x300 [1] [0] [0] 1
  scatter_S4096_S98304x1_S98304_n_0_0_1_wf : ScatterDims.WF S4096 S98304x1 S98304 [] [0] [0] 1
  dot_S4096x300_S300x300_S4096x300_1_0_0_1_n_n_wf : DotDims.WF S4096x300 S300x300 S4096x300 [1] [0] [0] [1] [] []
  dot_S4096x300_S300x3_S4096x3_1_0_0_1_n_n_wf : DotDims.WF S4096x300 S300x3 S4096x3 [1] [0] [0] [1] [] []

variable [Facts₀]

def gather_S98304x73_S204800x1_S204800x73_1_0_n_n_0_1_173 : GatherDims S98304x73 S204800x1 S204800x73 where
  offsetDims := [1]
  collapsedSliceDims := [0]
  operandBatchingDims := []
  startIndicesBatchingDims := []
  startIndexMap := [0]
  indexVectorDim := 1
  sliceSizes := ![1, 73]
  wf := gather_S98304x73_S204800x1_S204800x73_1_0_n_n_0_1_173_wf
def dot_S204800x86_S86x300_S204800x300_1_0_0_1_n_n : DotDims S204800x86 S86x300 S204800x300 where
  lhsContracting := [1]
  rhsContracting := [0]
  lhsNonContracting := [0]
  rhsNonContracting := [1]
  lhsBatch := []
  rhsBatch := []
  wf := dot_S204800x86_S86x300_S204800x300_1_0_0_1_n_n_wf
def scatter_S98304x300_S204800x1_S204800x300_1_0_0_1 : ScatterDims S98304x300 S204800x1 S204800x300 where
  updateWindowDims := [1]
  insertedWindowDims := [0]
  scatterDimsToOperandDims := [0]
  indexVectorDim := 1
  wf := scatter_S98304x300_S204800x1_S204800x300_1_0_0_1_wf
def gather_S98304x300_S204800x1_S204800x300_1_0_n_n_0_1_1300 : GatherDims S98304x300 S204800x1 S204800x300 where
  offsetDims := [1]
  collapsedSliceDims := [0]
  operandBatchingDims := []
  startIndicesBatchingDims := []
  startIndexMap := [0]
  indexVectorDim := 1
  sliceSizes := ![1, 300]
  wf := gather_S98304x300_S204800x1_S204800x300_1_0_n_n_0_1_1300_wf
def gather_S204800x300_S204800x1_S204800x300_1_0_n_n_0_1_1300 : GatherDims S204800x300 S204800x1 S204800x300 where
  offsetDims := [1]
  collapsedSliceDims := [0]
  operandBatchingDims := []
  startIndicesBatchingDims := []
  startIndexMap := [0]
  indexVectorDim := 1
  sliceSizes := ![1, 300]
  wf := gather_S204800x300_S204800x1_S204800x300_1_0_n_n_0_1_1300_wf
def dot_S204800x300_S300x300_S204800x300_1_0_0_1_n_n : DotDims S204800x300 S300x300 S204800x300 where
  lhsContracting := [1]
  rhsContracting := [0]
  lhsNonContracting := [0]
  rhsNonContracting := [1]
  lhsBatch := []
  rhsBatch := []
  wf := dot_S204800x300_S300x300_S204800x300_1_0_0_1_n_n_wf
def dot_S98304x373_S373x300_S98304x300_1_0_0_1_n_n : DotDims S98304x373 S373x300 S98304x300 where
  lhsContracting := [1]
  rhsContracting := [0]
  lhsNonContracting := [0]
  rhsNonContracting := [1]
  lhsBatch := []
  rhsBatch := []
  wf := dot_S98304x373_S373x300_S98304x300_1_0_0_1_n_n_wf
def scatter_S4096x300_S98304x1_S98304x300_1_0_0_1 : ScatterDims S4096x300 S98304x1 S98304x300 where
  updateWindowDims := [1]
  insertedWindowDims := [0]
  scatterDimsToOperandDims := [0]
  indexVectorDim := 1
  wf := scatter_S4096x300_S98304x1_S98304x300_1_0_0_1_wf
def scatter_S4096_S98304x1_S98304_n_0_0_1 : ScatterDims S4096 S98304x1 S98304 where
  updateWindowDims := []
  insertedWindowDims := [0]
  scatterDimsToOperandDims := [0]
  indexVectorDim := 1
  wf := scatter_S4096_S98304x1_S98304_n_0_0_1_wf
def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def dot_S4096x300_S300x3_S4096x3_1_0_0_1_n_n : DotDims S4096x300 S300x3 S4096x3 where
  lhsContracting := [1]
  rhsContracting := [0]
  lhsNonContracting := [0]
  rhsNonContracting := [1]
  lhsBatch := []
  rhsBatch := []
  wf := dot_S4096x300_S300x3_S4096x3_1_0_0_1_n_n_wf

class Facts : Prop extends Facts₀ where

variable [Facts]
-- ==== Proof.Spec.lean ====
/-
  What the message-passing network computes, as pure functions of whole arrays over the extended reals.

  Five linear stages, each a matrix product (or two) into a zero accumulator, a bias where there is one, and the
  positive part; between them the irregular steps both programs share word for word: a gather of rows by an index
  array (a negative index counting from the end), a sum of rows into segments, the difference of two gathers, and the
  per-segment mean. The linear stages are written entry by entry, as sums over the contracted axis; the shared steps
  are written as the operations themselves and are never opened.
-/
import proofs.«404745_j46720654246230_3_alg».proof.Proof.Gen.KernelIdeal
import Idealize.ShloMosaic.PureOps.Ideal
import Idealize.ShloMosaic.Lib.ValueIdx

noncomputable section

open scoped BigOperators

namespace Cert.Spec

open Idealize.ShloMosaic Idealize.ShloMosaic.ValueIdx Cert.KernelIdeal Cert.KernelIdeal.Facts₀ Cert.KernelIdeal.Facts

/-- The float zero both programs take the positive part against. -/
abbrev zero : EReal := Ideal.ofBits .f32 0x00000000#32

/-! ## The linear stages, entry by entry -/

/-- Edge initialisation at edge e, feature j: the positive part of
    (sum over k below 73 of A[e,k] Wa[k,j]) + (sum over k below 13 of B[e,k] Wb[k,j]). -/
def edgeInitAt (A : FVec Ideal S204800x73 .f32) (B : FVec Ideal S204800x13 .f32) (Wa : FVec Ideal S73x300 .f32)
    (Wb : FVec Ideal S13x300 .f32) (e : Fin 204800) (j : Fin 300) : EReal :=
  max ((∑ k : Fin 73, A (ix2 e k) * Wa (ix2 k j)) + ∑ k : Fin 13, B (ix2 e k) * Wb (ix2 k j)) zero

def edgeInit (A : FVec Ideal S204800x73 .f32) (B : FVec Ideal S204800x13 .f32) (Wa : FVec Ideal S73x300 .f32)
    (Wb : FVec Ideal S13x300 .f32) : FVec Ideal S204800x300 .f32 :=
  fun i => edgeInitAt A B Wa Wb (i 0) (i 1)

/-- One message update at edge e, feature j: the positive part of H[e,j] + sum over k below 300 of M[e,k] W[k,j]. -/
def msgUpdateAt (M H : FVec Ideal S204800x300 .f32) (W : FVec Ideal S300x300 .f32) (e : Fin 204800) (j : Fin 300) : EReal :=
  max (H (ix2 e j) + ∑ k : Fin 300, M (ix2 e k) * W (ix2 k j)) zero

def msgUpdate (M H : FVec Ideal S204800x300 .f32) (W : FVec Ideal S300x300 .f32) : FVec Ideal S204800x300 .f32 :=
  fun i => msgUpdateAt M H W (i 0) (i 1)

/-- Atom readout at atom n, feature j: the positive part of
    ((sum over k below 73 of Af[n,k] Wa[k,j]) + (sum over k below 300 of Ma[n,k] Wm[k,j])) + b[0,j]. -/
def atomReadoutAt (Af : FVec Ideal S98304x73 .f32) (Ma : FVec Ideal S98304x300 .f32) (Wa : FVec Ideal S73x300 .f32)
    (Wm : FVec Ideal S300x300 .f32) (b : FVec Ideal S1x300 .f32) (n : Fin 98304) (j : Fin 300) : EReal :=
  max (((∑ k : Fin 73, Af (ix2 n k) * Wa (ix2 k j)) + ∑ k : Fin 300, Ma (ix2 n k) * Wm (ix2 k j)) + b (ix2 (0 : Fin 1) j)) zero

def atomReadout (Af : FVec Ideal S98304x73 .f32) (Ma : FVec Ideal S98304x300 .f32) (Wa : FVec Ideal S73x300 .f32)
    (Wm : FVec Ideal S300x300 .f32) (b : FVec Ideal S1x300 .f32) : FVec Ideal S98304x300 .f32 :=
  fun i => atomReadoutAt Af Ma Wa Wm b (i 0) (i 1)

/-- The head's hidden layer at molecule n, unit k: the positive part of (sum over j below 300 of X[n,j] W1[j,k]) + b1[0,k]. -/
def hiddenAt (X : FVec Ideal S4096x300 .f32) (W1 : FVec Ideal S300x300 .f32) (b1 : FVec Ideal S1x300 .f32)
    (n : Fin 4096) (k : Fin 300) : EReal :=
  max ((∑ j : Fin 300, X (ix2 n j) * W1 (ix2 j k)) + b1 (ix2 (0 : Fin 1) k)) zero

/-- The head's output at molecule n, task q: (sum over k below 300 of hidden[n,k] W2[k,q]) + b2[0,q]. -/
def headAt (X : FVec Ideal S4096x300 .f32) (W1 : FVec Ideal S300x300 .f32) (b1 : FVec Ideal S1x300 .f32)
    (W2 : FVec Ideal S300x3 .f32) (b2 : FVec Ideal S1x3 .f32) (n : Fin 4096) (q : Fin 3) : EReal :=
  (∑ k : Fin 300, hiddenAt X W1 b1 n k * W2 (ix2 k q)) + b2 (ix2 (0 : Fin 1) q)

def head (X : FVec Ideal S4096x300 .f32) (W1 : FVec Ideal S300x300 .f32) (b1 : FVec Ideal S1x300 .f32)
    (W2 : FVec Ideal S300x3 .f32) (b2 : FVec Ideal S1x3 .f32) : FVec Ideal S4096x3 .f32 :=
  fun i => headAt X W1 b1 W2 b2 (i 0) (i 1)

/-! ## The steps both programs share, as the operations themselves -/

/-- An index array made ready for a gather: an index below zero has the axis's extent added, then a unit axis. -/
def wrapIdx (extent : BitVec 32) (ix : IVec S204800 32) : IVec S204800x1 32 :=
  broadcastInDim S204800x1 ![0] bcast_S204800_S204800x1_0
    (select (cmpi .slt ix (broadcastInDim S204800 ![] bcast_S_S204800 (constantI S_ 32 0#32)))
      (addi ix (broadcastInDim S204800 ![] bcast_S_S204800 (constantI S_ 32 extent))) ix)

/-- The atom features of each edge's source atom. -/
def atomsOfEdges (a : FVec Ideal S98304x73 .f32) (src : IVec S204800 32) : FVec Ideal S204800x73 .f32 :=
  Host.gather gather_S98304x73_S204800x1_S204800x73_1_0_n_n_0_1_173 a (wrapIdx 98304#32 src)

/-- The sum of the edge rows into one row per atom, by an index array. -/
def sumToAtoms (ix : IVec S204800 32) (h : FVec Ideal S204800x300 .f32) : FVec Ideal S98304x300 .f32 :=
  Host.scatterAdd scatter_S98304x300_S204800x1_S204800x300_1_0_0_1
    (broadcastInDim S98304x300 ![] bcast_S_S98304x300 (constant (F := Ideal) S_ .f32 0x00000000#32))
    (broadcastInDim S204800x1 ![0] bcast_S204800_S204800x1_0 ix) h

/-- The message of each edge: its source atom's summed rows less the reverse edge's row. -/
def message (h : FVec Ideal S204800x300 .f32) (src rev : IVec S204800 32) : FVec Ideal S204800x300 .f32 :=
  subf (Host.gather gather_S98304x300_S204800x1_S204800x300_1_0_n_n_0_1_1300 (sumToAtoms src h) (wrapIdx 98304#32 src))
    (Host.gather gather_S204800x300_S204800x1_S204800x300_1_0_n_n_0_1_1300 h (wrapIdx 204800#32 rev))

/-- The per-molecule mean of the atom rows: the segment sum over the larger of the segment's count and one. -/
def molMean (h : FVec Ideal S98304x300 .f32) (mol : IVec S98304 32) : FVec Ideal S4096x300 .f32 :=
  Host.divf
    (Host.scatterAdd scatter_S4096x300_S98304x1_S98304x300_1_0_0_1
      (broadcastInDim S4096x300 ![] bcast_S_S4096x300 (constant (F := Ideal) S_ .f32 0x00000000#32))
      (broadcastInDim S98304x1 ![0] bcast_S98304_S98304x1_0 mol) h)
    (broadcastInDim S4096x300 ![0, 1] bcast_S4096x1_S4096x300_0_1
      (broadcastInDim S4096x1 ![0] bcast_S4096_S4096x1_0
        (maximumf
          (Host.scatterAdd scatter_S4096_S98304x1_S98304_n_0_0_1
            (broadcastInDim S4096 ![] bcast_S_S4096 (constant (F := Ideal) S_ .f32 0x00000000#32))
            (broadcastInDim S98304x1 ![0] bcast_S98304_S98304x1_0 mol)
            (broadcastInDim S98304 ![] bcast_S_S98304 (constant (F := Ideal) S_ .f32 0x3F800000#32)))
          (broadcastInDim S4096 ![] bcast_S_S4096 (constant (F := Ideal) S_ .f32 0x3F800000#32)))))

/-! ## The weights as the kernels take them: column blocks, transposed -/

def wiAtomT (w : FVec Ideal S300x86 .f32) : FVec Ideal S73x300 .f32 :=
  transpose S73x300 [1, 0] (extractStridedSlice S300x73 ![0, 0] w slices_S300x86_S300x73_0_0) transposes_S300x73_S73x300_1_0
def wiBondT (w : FVec Ideal S300x86 .f32) : FVec Ideal S13x300 .f32 :=
  transpose S13x300 [1, 0] (extractStridedSlice S300x13 ![0, 73] w slices_S300x86_S300x13_0_73) transposes_S300x13_S13x300_1_0
def waAtomT (w : FVec Ideal S300x373 .f32) : FVec Ideal S73x300 .f32 :=
  transpose S73x300 [1, 0] (extractStridedSlice S300x73 ![0, 0] w slices_S300x373_S300x73_0_0) transposes_S300x73_S73x300_1_0
def waMsgT (w : FVec Ideal S300x373 .f32) : FVec Ideal S300x300 .f32 :=
  transpose S300x300 [1, 0] (extractStridedSlice S300x300 ![0, 73] w slices_S300x373_S300x300_0_73) transposes_S300x300_S300x300_1_0
def wmT (w : FVec Ideal S3x300x300 .f32) : FVec Ideal S3x300x300 .f32 :=
  transpose S3x300x300 [0, 2, 1] w transposes_S3x300x300_S3x300x300_0_2_1
def wmT0 (w : FVec Ideal S3x300x300 .f32) : FVec Ideal S300x300 .f32 :=
  shapeCast S300x300 (extractStridedSlice S1x300x300 ![0, 0, 0] (wmT w) slices_S3x300x300_S1x300x300_0_0_0) shapeCasts_S1x300x300_S300x300
def wmT1 (w : FVec Ideal S3x300x300 .f32) : FVec Ideal S300x300 .f32 :=
  shapeCast S300x300 (extractStridedSlice S1x300x300 ![1, 0, 0] (wmT w) slices_S3x300x300_S1x300x300_1_0_0) shapeCasts_S1x300x300_S300x300
def wmT2 (w : FVec Ideal S3x300x300 .f32) : FVec Ideal S300x300 .f32 :=
  shapeCast S300x300 (extractStridedSlice S1x300x300 ![2, 0, 0] (wmT w) slices_S3x300x300_S1x300x300_2_0_0) shapeCasts_S1x300x300_S300x300
def w1T (w : FVec Ideal S300x300 .f32) : FVec Ideal S300x300 .f32 := transpose S300x300 [1, 0] w transposes_S300x300_S300x300_1_0
def w2T (w : FVec Ideal S3x300 .f32) : FVec Ideal S300x3 .f32 := transpose S300x3 [1, 0] w transposes_S3x300_S300x3_1_0
def rowOf300 (b : FVec Ideal S300 .f32) : FVec Ideal S1x300 .f32 := shapeCast S1x300 b shapeCasts_S300_S1x300
def rowOf3 (b : FVec Ideal S3 .f32) : FVec Ideal S1x3 .f32 := shapeCast S1x3 b shapeCasts_S3_S1x3

/-! ## The whole network -/

section Network
variable (a0 : FVec Ideal S98304x73 .f32) (a1 : FVec Ideal S204800x13 .f32) (a2 a3 a4 : IVec S204800 32) (a5 : IVec S98304 32)
  (a6 : FVec Ideal S300x86 .f32) (a7 : FVec Ideal S3x300x300 .f32) (a8 : FVec Ideal S300x373 .f32) (a9 : FVec Ideal S300 .f32)
  (a10 : FVec Ideal S300x300 .f32) (a11 : FVec Ideal S300 .f32) (a12 : FVec Ideal S3x300 .f32) (a13 : FVec Ideal S3 .f32)

def hInit : FVec Ideal S204800x300 .f32 := edgeInit (atomsOfEdges a0 a2) a1 (wiAtomT a6) (wiBondT a6)
def h1 : FVec Ideal S204800x300 .f32 := msgUpdate (message (hInit a0 a1 a2 a6) a2 a4) (hInit a0 a1 a2 a6) (wmT0 a7)
def h2 : FVec Ideal S204800x300 .f32 := msgUpdate (message (h1 a0 a1 a2 a4 a6 a7) a2 a4) (hInit a0 a1 a2 a6) (wmT1 a7)
def h3 : FVec Ideal S204800x300 .f32 := msgUpdate (message (h2 a0 a1 a2 a4 a6 a7) a2 a4) (hInit a0 a1 a2 a6) (wmT2 a7)
def hAtom : FVec Ideal S98304x300 .f32 :=
  atomReadout a0 (sumToAtoms a3 (h3 a0 a1 a2 a4 a6 a7)) (waAtomT a8) (waMsgT a8) (rowOf300 a9)
def network : FVec Ideal S4096x3 .f32 :=
  head (molMean (hAtom a0 a1 a2 a3 a4 a6 a7 a8 a9) a5) (w1T a10) (rowOf300 a11) (w2T a12) (rowOf3 a13)
end Network

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Region0.lean ====
/-
  The edge initialisation, as a whole array: every entry (e, j) of the edge array is the positive part of
  (sum over k below 73 of A[e, k] Wa[k, j]) + (sum over k below 13 of B[e, k] Wb[k, j]).

  A grid point t holds rows 4096 t to 4096 t + 4095 of the gathered atom rows and of the bond rows, and the two whole
  weights; the fifty blocks of the result tile the 204800 rows.
-/
import proofs.«404745_j46720654246230_3_alg».proof.Proof.Gen.KernelIdeal.Frame
import proofs.«404745_j46720654246230_3_alg».proof.Proof.Spec
import proofs.«404745_j46720654246230_3_alg».proof.Proof.LibMatmulAt
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Both products' dimension numbers read their operands at (row, k) and (k, column) -/

theorem a_lhs0 (i : S4096x300.Idx) (q : dot_S4096x73_S73x300_S4096x300_1_0_0_1_n_n.contr.Idx) :
    (dot_S4096x73_S73x300_S4096x300_1_0_0_1_n_n.lhsIdx i q 0).val = (i 0).val := by
  unfold DotDims.lhsIdx
  rw [dif_neg (show ¬(0 : Fin S4096x73.rank) ∈ dot_S4096x73_S73x300_S4096x300_1_0_0_1_n_n.lhsBatch by decide), dif_pos (show (0 : Fin S4096x73.rank) ∈ dot_S4096x73_S73x300_S4096x300_1_0_0_1_n_n.lhsNonContracting by decide)]
  rfl
theorem a_lhs1 (i : S4096x300.Idx) (q : dot_S4096x73_S73x300_S4096x300_1_0_0_1_n_n.contr.Idx) :
    (dot_S4096x73_S73x300_S4096x300_1_0_0_1_n_n.lhsIdx i q 1).val = (q ⟨0, by decide⟩).val :=
  dot_S4096x73_S73x300_S4096x300_1_0_0_1_n_n.lhsIdx_val_of_single rfl i q
theorem a_rhs0 (i : S4096x300.Idx) (q : dot_S4096x73_S73x300_S4096x300_1_0_0_1_n_n.contr.Idx) :
    (dot_S4096x73_S73x300_S4096x300_1_0_0_1_n_n.rhsIdx i q 0).val = (q ⟨0, by decide⟩).val :=
  dot_S4096x73_S73x300_S4096x300_1_0_0_1_n_n.rhsIdx_val_of_single rfl i q
theorem a_rhs1 (i : S4096x300.Idx) (q : dot_S4096x73_S73x300_S4096x300_1_0_0_1_n_n.contr.Idx) :
    (dot_S4096x73_S73x300_S4096x300_1_0_0_1_n_n.rhsIdx i q 1).val = (i 1).val := by
  unfold DotDims.rhsIdx
  rw [dif_neg (show ¬(1 : Fin S73x300.rank) ∈ dot_S4096x73_S73x300_S4096x300_1_0_0_1_n_n.rhsBatch by decide), dif_pos (show (1 : Fin S73x300.rank) ∈ dot_S4096x73_S73x300_S4096x300_1_0_0_1_n_n.rhsNonContracting by decide)]
  rfl

theorem b_lhs0 (i : S4096x300.Idx) (q : dot_S4096x13_S13x300_S4096x300_1_0_0_1_n_n.contr.Idx) :
    (dot_S4096x13_S13x300_S4096x300_1_0_0_1_n_n.lhsIdx i q 0).val = (i 0).val := by
  unfold DotDims.lhsIdx
  rw [dif_neg (show ¬(0 : Fin S4096x13.rank) ∈ dot_S4096x13_S13x300_S4096x300_1_0_0_1_n_n.lhsBatch by decide), dif_pos (show (0 : Fin S4096x13.rank) ∈ dot_S4096x13_S13x300_S4096x300_1_0_0_1_n_n.lhsNonContracting by decide)]
  rfl
theorem b_lhs1 (i : S4096x300.Idx) (q : dot_S4096x13_S13x300_S4096x300_1_0_0_1_n_n.contr.Idx) :
    (dot_S4096x13_S13x300_S4096x300_1_0_0_1_n_n.lhsIdx i q 1).val = (q ⟨0, by decide⟩).val :=
  dot_S4096x13_S13x300_S4096x300_1_0_0_1_n_n.lhsIdx_val_of_single rfl i q
theorem b_rhs0 (i : S4096x300.Idx) (q : dot_S4096x13_S13x300_S4096x300_1_0_0_1_n_n.contr.Idx) :
    (dot_S4096x13_S13x300_S4096x300_1_0_0_1_n_n.rhsIdx i q 0).val = (q ⟨0, by decide⟩).val :=
  dot_S4096x13_S13x300_S4096x300_1_0_0_1_n_n.rhsIdx_val_of_single rfl i q
theorem b_rhs1 (i : S4096x300.Idx) (q : dot_S4096x13_S13x300_S4096x300_1_0_0_1_n_n.contr.Idx) :
    (dot_S4096x13_S13x300_S4096x300_1_0_0_1_n_n.rhsIdx i q 1).val = (i 1).val := by
  unfold DotDims.rhsIdx
  rw [dif_neg (show ¬(1 : Fin S13x300.rank) ∈ dot_S4096x13_S13x300_S4096x300_1_0_0_1_n_n.rhsBatch by decide), dif_pos (show (1 : Fin S13x300.rank) ∈ dot_S4096x13_S13x300_S4096x300_1_0_0_1_n_n.rhsNonContracting by decide)]
  rfl

/-! ## The body's value at one entry of its block -/

/-- Entry (p, q) of what the body stores: the positive part of
    (sum over k of x0[p, k] x2[k, q]) + (sum over k of x1[p, k] x3[k, q]). -/
theorem pay_at (x0 : Vec Ideal S4096x73 .f32) (x1 : Vec Ideal S4096x13 .f32) (x2 : Vec Ideal S73x300 .f32)
    (x3 : Vec Ideal S13x300 .f32) (p : Fin 4096) (q : Fin 300) :
    k0_pay1 (F := Ideal) x0 x1 x2 x3 (ix2 p q)
      = max ((∑ k : Fin 73, x0 (ix2 p k) * x2 (ix2 k q)) + ∑ k : Fin 13, x1 (ix2 p k) * x3 (ix2 k q)) Spec.zero := by
  unfold k0_pay1
  simp only [shapeCast_self, maximumf_apply, addf_apply, broadcast_apply]
  exact congrArg₂ (fun s s' => max (s + s') Spec.zero)
    (MatmulAt.matmul_zero_at dot_S4096x73_S73x300_S4096x300_1_0_0_1_n_n rfl rfl a_lhs0 a_lhs1 a_rhs0 a_rhs1 (some .fp32) x0 x2 p q)
    (MatmulAt.matmul_zero_at dot_S4096x13_S13x300_S4096x300_1_0_0_1_n_n rfl rfl b_lhs0 b_lhs1 b_rhs0 b_rhs1 (some .fp32) x1 x3 p q)

/-! ## From blocks to the array -/

theorem hz : (![0, 0] : Fin 2 → Nat) = fun _ => 0 := funext fun a => by fin_cases a <;> rfl

/-- The printed index maps over the grid: the two row-blocked inputs move with the result along the rows and stay at
    column block 0; the two weight windows stay at block (0, 0). -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (1 : Fin 2) = 0
    ∧ win0_4.index t (0 : Fin 2) ≤ 49 :=
  (by decide +kernel : ∀ t : Fin grid0.N, _)

/-- Every row block is some point's. -/
theorem idx_onto : ∀ q0 : Fin 50, ∃ t : Fin cfg0.N, win0_4.index t = ![q0.val, 0] :=
  (by decide +kernel : ∀ q0 : Fin 50, ∃ t : Fin grid0.N, win0_4.index t = ![q0.val, 0])

/-- The four arrays the region finds, and their blocks at a point, at their literal types. -/
abbrev arrA (c : Dev nD) : FVec Ideal S204800x73 .f32 := V c main_v17
abbrev arrB (c : Dev nD) : FVec Ideal S204800x13 .f32 := V c main_arg1
abbrev arrWa (c : Dev nD) : FVec Ideal S73x300 .f32 := V c main_v4
abbrev arrWb (c : Dev nD) : FVec Ideal S13x300 .f32 := V c main_v5
abbrev blkA (c : Dev nD) (t : Fin cfg0.N) : Vec Ideal S4096x73 .f32 := iblk0 V c 0 t
abbrev blkB (c : Dev nD) (t : Fin cfg0.N) : Vec Ideal S4096x13 .f32 := iblk0 V c 1 t
abbrev blkWa (c : Dev nD) (t : Fin cfg0.N) : Vec Ideal S73x300 .f32 := iblk0 V c 2 t
abbrev blkWb (c : Dev nD) (t : Fin cfg0.N) : Vec Ideal S13x300 .f32 := iblk0 V c 3 t

/-- Row p of point t's block of the first row-blocked input is row (block row) * 4096 + p of its array. -/
theorem read_rowsA (c : Dev nD) (t : Fin cfg0.N) (y : S4096x73.Idx) (i : S204800x73.Idx)
    (h0 : (i 0).val = win0_4.index t (0 : Fin 2) * 4096 + (y 0).val) (h1 : (i 1).val = (y 1).val) :
    blkA V c t y = arrA V c i := by
  show V c main_v17 (((cfg0.win 0).blk t).view.emb y) = V c main_v17 i
  obtain ⟨e0, e1, e2, e3, e4, e5, e6, e7, e8, e9⟩ := idx_facts t
  congr 1
  funext a; apply Fin.ext
  match a with
  | ⟨0, _⟩ => show win0_0.index t (0 : Fin 2) * 4096 + 1 * (y 0).val = (i 0).val; omega
  | ⟨1, _⟩ => show win0_0.index t (1 : Fin 2) * 73 + 1 * (y 1).val = (i 1).val; omega

/-- The same for the second row-blocked input. -/
theorem read_rowsB (c : Dev nD) (t : Fin cfg0.N) (y : S4096x13.Idx) (i : S204800x13.Idx)
    (h0 : (i 0).val = win0_4.index t (0 : Fin 2) * 4096 + (y 0).val) (h1 : (i 1).val = (y 1).val) :
    blkB V c t y = arrB V c i := by
  show V c main_arg1 (((cfg0.win 1).blk t).view.emb y) = V c main_arg1 i
  obtain ⟨e0, e1, e2, e3, e4, e5, e6, e7, e8, e9⟩ := idx_facts t
  congr 1
  funext a; apply Fin.ext
  match a with
  | ⟨0, _⟩ => show win0_1.index t (0 : Fin 2) * 4096 + 1 * (y 0).val = (i 0).val; omega
  | ⟨1, _⟩ => show win0_1.index t (1 : Fin 2) * 13 + 1 * (y 1).val = (i 1).val; omega

/-- Each weight window's one block is the whole weight array. -/
theorem read_wa (c : Dev nD) (t : Fin cfg0.N) (y : S73x300.Idx) : blkWa V c t y = arrWa V c y := by
  show V c main_v4 (((cfg0.win 2).blk t).view.emb y) = V c main_v4 y
  obtain ⟨e0, e1, e2, e3, e4, e5, e6, e7, e8, e9⟩ := idx_facts t
  congr 1
  funext a; apply Fin.ext
  match a with
  | ⟨0, _⟩ => show win0_2.index t (0 : Fin 2) * 73 + 1 * (y 0).val = (y 0).val; omega
  | ⟨1, _⟩ => show win0_2.index t (1 : Fin 2) * 300 + 1 * (y 1).val = (y 1).val; omega

theorem read_wb (c : Dev nD) (t : Fin cfg0.N) (y : S13x300.Idx) : blkWb V c t y = arrWb V c y := by
  show V c main_v5 (((cfg0.win 3).blk t).view.emb y) = V c main_v5 y
  obtain ⟨e0, e1, e2, e3, e4, e5, e6, e7, e8, e9⟩ := idx_facts t
  congr 1
  funext a; apply Fin.ext
  match a with
  | ⟨0, _⟩ => show win0_3.index t (0 : Fin 2) * 13 + 1 * (y 0).val = (y 0).val; omega
  | ⟨1, _⟩ => show win0_3.index t (1 : Fin 2) * 300 + 1 * (y 1).val = (y 1).val; omega

/-- Entry (p, q) of point t's block of the result sits at row (block row) * 4096 + p, column q of the array. -/
theorem emb_out (t : Fin cfg0.N) (p : Fin 4096) (q : Fin 300) :
    ∃ P : Fin 204800, P.val = win0_4.index t (0 : Fin 2) * 4096 + p.val
      ∧ ((cfg0.win 4).blk t).view.emb (ix2 p q) = ix2 P q := by
  obtain ⟨e0, e1, e2, e3, e4, e5, e6, e7, e8, e9⟩ := idx_facts t
  have hp : win0_4.index t (0 : Fin 2) * 4096 + p.val < 204800 := by have := p.isLt; omega
  refine ⟨⟨win0_4.index t (0 : Fin 2) * 4096 + p.val, hp⟩, rfl, ?_⟩
  funext a; apply Fin.ext
  match a with
  | ⟨0, _⟩ => show win0_4.index t (0 : Fin 2) * 4096 + 1 * p.val = win0_4.index t (0 : Fin 2) * 4096 + p.val; omega
  | ⟨1, _⟩ => show win0_4.index t (1 : Fin 2) * 300 + 1 * q.val = q.val; omega

/-- What point t flushes is its block of the whole-array function of the four arrays. -/
theorem flushed_eq (c : Dev nD) (t : Fin cfg0.N) :
    (dat0 V c).flushed 4 t
      = ((cfg0.win 4).blk t).view.read (Elt Ideal) (Spec.edgeInit (arrA V c) (arrB V c) (arrWa V c) (arrWb V c)) := by
  show (cfg0.win 4).cut (grid0.coords t) ((dat0 V c).after 4 t) = _
  rw [after0_4]
  unfold out0_4
  rw [View.canon_unit_zero hz]
  simp only [View.ld_unit_zero (S := S4096x73) hz, View.ld_unit_zero (S := S4096x13) hz,
    View.ld_unit_zero (S := S73x300) hz, View.ld_unit_zero (S := S13x300) hz]
  funext j
  obtain ⟨p, q, rfl⟩ : ∃ (p : Fin 4096) (q : Fin 300), j = ix2 p q := ⟨j 0, j 1, eq_ix2 j⟩
  show k0_pay1 (blkA V c t) (blkB V c t) (blkWa V c t) (blkWb V c t) (ix2 p q)
    = Spec.edgeInit (arrA V c) (arrB V c) (arrWa V c) (arrWb V c) (((cfg0.win 4).blk t).view.emb (ix2 p q))
  obtain ⟨P, hP, hE⟩ := emb_out t p q
  rw [hE]
  refine (pay_at (blkA V c t) (blkB V c t) (blkWa V c t) (blkWb V c t) p q).trans ?_
  show _ = max ((∑ k : Fin 73, arrA V c (ix2 P k) * arrWa V c (ix2 k q))
    + ∑ k : Fin 13, arrB V c (ix2 P k) * arrWb V c (ix2 k q)) Spec.zero
  refine congrArg₂ (fun s s' => max (s + s') Spec.zero)
    (Finset.sum_congr rfl fun k _ => ?_) (Finset.sum_congr rfl fun k _ => ?_)
  · rw [read_rowsA V c t (ix2 p k) (ix2 P k) hP rfl, read_wa V c t (ix2 k q)]
  · rw [read_rowsB V c t (ix2 p k) (ix2 P k) hP rfl, read_wb V c t (ix2 k q)]

/-- An index of the array is in point t's block iff each coordinate is in the block's range on its axis. -/
theorem mem_blk (t : Fin cfg0.N) (i : S204800x300.Idx) :
    i ∈ ((cfg0.win 4).blk t).view.set ↔ ∀ a : Fin 2, win0_4.index t a * S4096x300.size a ≤ (i a).val ∧ (i a).val < win0_4.index t a * S4096x300.size a + S4096x300.size a := by
  show i ∈ ((View.whole main_v18).slice (win0_4.rect t)).set ↔ _
  rw [View.set_slice_whole, Rect.mem_set_unit]
  exact Iff.rfl

/-- The fifty blocks tile the array: row r is in the block of the point at row block r / 4096. -/
theorem cover (i : S204800x300.Idx) : ∃ t : Fin cfg0.N, (cfg0.win 4).flush t = true ∧ i ∈ ((cfg0.win 4).blk t).view.set := by
  have hi0 : (i 0).val < 204800 := (i 0).isLt
  have hi1 : (i 1).val < 300 := (i 1).isLt
  obtain ⟨t, ht⟩ := idx_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 300 ≤ (i 1).val ∧ (i 1).val < win0_4.index t (1 : Fin 2) * 300 + 300; omega

/-- The array the region leaves: one function of the four arrays it finds. -/
theorem value (c : Dev nD) : (dat0 V c).arrAt 4 cfg0.N
    = Spec.edgeInit (V c main_v17) (V c main_arg1) (V c main_v4) (V c main_v5) :=
  (dat0 V c).arrAt_eq_of_cover 4 (Spec.edgeInit (arrA V c) (arrB V c) (arrWa V c) (arrWb V c))
    (fun t _ => flushed_eq V c t) cover

end Cert.KernelIdeal.Region0

end
-- ==== Proof.Region1.lean ====
/-
  A message update, as a whole array: every entry (e, j) of the updated edge array is the positive part of
  h_init[e, j] + sum over k below 300 of msg[e, k] W[k, j].

  A grid point t holds rows 4096 t to 4096 t + 4095 of the message and of h_init, and the whole 300 by 300 weight; its
  block of the result is the body's matrix product, sum and positive part of those. The fifty blocks tile the
  204800 rows, so the array after the region is that one function of the arrays the region finds.
-/
import proofs.«404745_j46720654246230_3_alg».proof.Proof.Gen.KernelIdeal.Frame
import proofs.«404745_j46720654246230_3_alg».proof.Proof.Spec
import proofs.«404745_j46720654246230_3_alg».proof.Proof.LibMatmulAt
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's dimension numbers read their operands at (row, k) and (k, column) -/

theorem lhs0 (i : S4096x300.Idx) (q : dot_S4096x300_S300x300_S4096x300_1_0_0_1_n_n.contr.Idx) :
    (dot_S4096x300_S300x300_S4096x300_1_0_0_1_n_n.lhsIdx i q 0).val = (i 0).val := by
  unfold DotDims.lhsIdx
  rw [dif_neg (show ¬(0 : Fin S4096x300.rank) ∈ dot_S4096x300_S300x300_S4096x300_1_0_0_1_n_n.lhsBatch by decide), dif_pos (show (0 : Fin S4096x300.rank) ∈ dot_S4096x300_S300x300_S4096x300_1_0_0_1_n_n.lhsNonContracting by decide)]
  rfl
theorem lhs1 (i : S4096x300.Idx) (q : dot_S4096x300_S300x300_S4096x300_1_0_0_1_n_n.contr.Idx) :
    (dot_S4096x300_S300x300_S4096x300_1_0_0_1_n_n.lhsIdx i q 1).val = (q ⟨0, by decide⟩).val :=
  dot_S4096x300_S300x300_S4096x300_1_0_0_1_n_n.lhsIdx_val_of_single rfl i q
theorem rhs0 (i : S4096x300.Idx) (q : dot_S4096x300_S300x300_S4096x300_1_0_0_1_n_n.contr.Idx) :
    (dot_S4096x300_S300x300_S4096x300_1_0_0_1_n_n.rhsIdx i q 0).val = (q ⟨0, by decide⟩).val :=
  dot_S4096x300_S300x300_S4096x300_1_0_0_1_n_n.rhsIdx_val_of_single rfl i q
theorem rhs1 (i : S4096x300.Idx) (q : dot_S4096x300_S300x300_S4096x300_1_0_0_1_n_n.contr.Idx) :
    (dot_S4096x300_S300x300_S4096x300_1_0_0_1_n_n.rhsIdx i q 1).val = (i 1).val := by
  unfold DotDims.rhsIdx
  rw [dif_neg (show ¬(1 : Fin S300x300.rank) ∈ dot_S4096x300_S300x300_S4096x300_1_0_0_1_n_n.rhsBatch by decide), dif_pos (show (1 : Fin S300x300.rank) ∈ dot_S4096x300_S300x300_S4096x300_1_0_0_1_n_n.rhsNonContracting by decide)]
  rfl

/-! ## The body's value at one entry of its block -/

/-- Entry (p, q) of what the body stores: the positive part of x1[p, q] + sum over k of x0[p, k] x2[k, q]. -/
theorem pay_at (x0 x1 : Vec Ideal S4096x300 .f32) (x2 : Vec Ideal S300x300 .f32) (p : Fin 4096) (q : Fin 300) :
    k1_pay1 (F := Ideal) x0 x1 x2 (ix2 p q) = max (x1 (ix2 p q) + ∑ k : Fin 300, x0 (ix2 p k) * x2 (ix2 k q)) Spec.zero := by
  unfold k1_pay1
  simp only [shapeCast_self, maximumf_apply, addf_apply, broadcast_apply]
  exact congrArg (fun s => max (x1 (ix2 p q) + s) Spec.zero)
    (MatmulAt.matmul_zero_at dot_S4096x300_S300x300_S4096x300_1_0_0_1_n_n rfl rfl lhs0 lhs1 rhs0 rhs1 (some .fp32) x0 x2 p q)

/-! ## From blocks to the array -/

theorem hz : (![0, 0] : Fin 2 → Nat) = fun _ => 0 := funext fun a => by fin_cases a <;> rfl

/-- The printed index maps over the grid: the three row-blocked windows move together along the rows and stay at
    column block 0; the weight window stays at block (0, 0). -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 49 :=
  (by decide +kernel : ∀ t : Fin grid1.N, _)

/-- Every row block is some point's. -/
theorem idx_onto : ∀ q0 : Fin 50, ∃ t : Fin cfg1.N, win1_3.index t = ![q0.val, 0] :=
  (by decide +kernel : ∀ q0 : Fin 50, ∃ t : Fin grid1.N, win1_3.index t = ![q0.val, 0])

/-- The three arrays the region finds, and their blocks at a point, at their literal types. -/
abbrev arrM (c : Dev nD) : FVec Ideal S204800x300 .f32 := V c main_v36
abbrev arrH (c : Dev nD) : FVec Ideal S204800x300 .f32 := V c main_v18
abbrev arrW (c : Dev nD) : FVec Ideal S300x300 .f32 := V c main_v38
abbrev blkM (c : Dev nD) (t : Fin cfg1.N) : Vec Ideal S4096x300 .f32 := iblk1 V c 0 t
abbrev blkH (c : Dev nD) (t : Fin cfg1.N) : Vec Ideal S4096x300 .f32 := iblk1 V c 1 t
abbrev blkW (c : Dev nD) (t : Fin cfg1.N) : Vec Ideal S300x300 .f32 := iblk1 V c 2 t

/-- Row p of point t's block of a row-blocked window is row (block row) * 4096 + p of its array. -/
theorem read_rows0 (c : Dev nD) (t : Fin cfg1.N) (y : S4096x300.Idx) (i : S204800x300.Idx)
    (h0 : (i 0).val = win1_3.index t (0 : Fin 2) * 4096 + (y 0).val) (h1 : (i 1).val = (y 1).val) :
    blkM V c t y = arrM V c i := by
  show V c main_v36 (((cfg1.win 0).blk t).view.emb y) = V c main_v36 i
  obtain ⟨e0, e1, e2, e3, e4, e5, e6, e7⟩ := idx_facts t
  congr 1
  funext a; apply Fin.ext
  match a with
  | ⟨0, _⟩ => show win1_0.index t (0 : Fin 2) * 4096 + 1 * (y 0).val = (i 0).val; omega
  | ⟨1, _⟩ => show win1_0.index t (1 : Fin 2) * 300 + 1 * (y 1).val = (i 1).val; omega

theorem read_rows1 (c : Dev nD) (t : Fin cfg1.N) (y : S4096x300.Idx) (i : S204800x300.Idx)
    (h0 : (i 0).val = win1_3.index t (0 : Fin 2) * 4096 + (y 0).val) (h1 : (i 1).val = (y 1).val) :
    blkH V c t y = arrH V c i := by
  show V c main_v18 (((cfg1.win 1).blk t).view.emb y) = V c main_v18 i
  obtain ⟨e0, e1, e2, e3, e4, e5, e6, e7⟩ := idx_facts t
  congr 1
  funext a; apply Fin.ext
  match a with
  | ⟨0, _⟩ => show win1_1.index t (0 : Fin 2) * 4096 + 1 * (y 0).val = (i 0).val; omega
  | ⟨1, _⟩ => show win1_1.index t (1 : Fin 2) * 300 + 1 * (y 1).val = (i 1).val; omega

/-- The weight window's one block is the whole weight array. -/
theorem read_w (c : Dev nD) (t : Fin cfg1.N) (y : S300x300.Idx) : blkW V c t y = arrW V c y := by
  show V c main_v38 (((cfg1.win 2).blk t).view.emb y) = V c main_v38 y
  obtain ⟨e0, e1, e2, e3, e4, e5, e6, e7⟩ := idx_facts t
  congr 1
  funext a; apply Fin.ext
  match a with
  | ⟨0, _⟩ => show win1_2.index t (0 : Fin 2) * 300 + 1 * (y 0).val = (y 0).val; omega
  | ⟨1, _⟩ => show win1_2.index t (1 : Fin 2) * 300 + 1 * (y 1).val = (y 1).val; omega

/-- Entry (p, q) of point t's block of the result sits at row (block row) * 4096 + p, column q of the array. -/
theorem emb_out (t : Fin cfg1.N) (p : Fin 4096) (q : Fin 300) :
    ∃ P : Fin 204800, P.val = win1_3.index t (0 : Fin 2) * 4096 + p.val
      ∧ ((cfg1.win 3).blk t).view.emb (ix2 p q) = ix2 P q := by
  obtain ⟨e0, e1, e2, e3, e4, e5, e6, e7⟩ := idx_facts t
  have hp : win1_3.index t (0 : Fin 2) * 4096 + p.val < 204800 := by have := p.isLt; omega
  refine ⟨⟨win1_3.index t (0 : Fin 2) * 4096 + p.val, hp⟩, rfl, ?_⟩
  funext a; apply Fin.ext
  match a with
  | ⟨0, _⟩ => show win1_3.index t (0 : Fin 2) * 4096 + 1 * p.val = win1_3.index t (0 : Fin 2) * 4096 + p.val; omega
  | ⟨1, _⟩ => show win1_3.index t (1 : Fin 2) * 300 + 1 * q.val = q.val; omega

theorem flushed_eq (c : Dev nD) (t : Fin cfg1.N) :
    (dat1 V c).flushed 3 t = ((cfg1.win 3).blk t).view.read (Elt Ideal) (Spec.msgUpdate (arrM V c) (arrH V c) (arrW V c)) := by
  show (cfg1.win 3).cut (grid1.coords t) ((dat1 V c).after 3 t) = _
  rw [after1_3]
  unfold out1_3
  rw [View.canon_unit_zero hz]
  simp only [View.ld_unit_zero (S := S4096x300) hz, View.ld_unit_zero (S := S300x300) hz]
  funext j
  obtain ⟨p, q, rfl⟩ : ∃ (p : Fin 4096) (q : Fin 300), j = ix2 p q := ⟨j 0, j 1, eq_ix2 j⟩
  show k1_pay1 (blkM V c t) (blkH V c t) (blkW V c t) (ix2 p q)
    = Spec.msgUpdate (arrM V c) (arrH V c) (arrW V c) (((cfg1.win 3).blk t).view.emb (ix2 p q))
  obtain ⟨P, hP, hE⟩ := emb_out t p q
  rw [hE]
  refine (pay_at (blkM V c t) (blkH V c t) (blkW V c t) p q).trans ?_
  show _ = max (arrH V c (ix2 P q) + ∑ k : Fin 300, arrM V c (ix2 P k) * arrW V c (ix2 k q)) Spec.zero
  rw [read_rows1 V c t (ix2 p q) (ix2 P q) hP rfl]
  refine congrArg (fun s => max (arrH V c (ix2 P q) + s) Spec.zero) (Finset.sum_congr rfl fun k _ => ?_)
  rw [read_rows0 V c t (ix2 p k) (ix2 P k) hP rfl, read_w V c t (ix2 k q)]

/-- An index of the array is in point t's block iff each coordinate is in the block's range on its axis. -/
theorem mem_blk (t : Fin cfg1.N) (i : S204800x300.Idx) :
    i ∈ ((cfg1.win 3).blk t).view.set ↔ ∀ a : Fin 2, win1_3.index t a * S4096x300.size a ≤ (i a).val ∧ (i a).val < win1_3.index t a * S4096x300.size a + S4096x300.size a := by
  show i ∈ ((View.whole main_v39).slice (win1_3.rect t)).set ↔ _
  rw [View.set_slice_whole, Rect.mem_set_unit]
  exact Iff.rfl

/-- The fifty blocks tile the array: row r is in the block of the point at row block r / 4096. -/
theorem cover (i : S204800x300.Idx) : ∃ t : Fin cfg1.N, (cfg1.win 3).flush t = true ∧ i ∈ ((cfg1.win 3).blk t).view.set := by
  have hi0 : (i 0).val < 204800 := (i 0).isLt
  have hi1 : (i 1).val < 300 := (i 1).isLt
  obtain ⟨t, ht⟩ := idx_onto ⟨(i 0).val / 4096, by omega⟩
  have q0 : win1_3.index t (0 : Fin 2) = (i 0).val / 4096 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 300 ≤ (i 1).val ∧ (i 1).val < win1_3.index t (1 : Fin 2) * 300 + 300; omega

/-- The array the region leaves: one function of the three arrays it finds. -/
theorem value (c : Dev nD) : (dat1 V c).arrAt 3 cfg1.N = Spec.msgUpdate (V c main_v36) (V c main_v18) (V c main_v38) :=
  (dat1 V c).arrAt_eq_of_cover 3 (Spec.msgUpdate (arrM V c) (arrH V c) (arrW V c)) (fun t _ => flushed_eq V c t) cover

end Cert.KernelIdeal.Region1

end
-- ==== Proof.Region2.lean ====
/-
  A message update, as a whole array: every entry (e, j) of the updated edge array is the positive part of
  h_init[e, j] + sum over k below 300 of msg[e, k] W[k, j].

  A grid point t holds rows 4096 t to 4096 t + 4095 of the message and of h_init, and the whole 300 by 300 weight; its
  block of the result is the body's matrix product, sum and positive part of those. The fifty blocks tile the
  204800 rows, so the array after the region is that one function of the arrays the region finds.
-/
import proofs.«404745_j46720654246230_3_alg».proof.Proof.Gen.KernelIdeal.Frame
import proofs.«404745_j46720654246230_3_alg».proof.Proof.Spec
import proofs.«404745_j46720654246230_3_alg».proof.Proof.LibMatmulAt
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's dimension numbers read their operands at (row, k) and (k, column) -/

theorem lhs0 (i : S4096x300.Idx) (q : dot_S4096x300_S300x300_S4096x300_1_0_0_1_n_n.contr.Idx) :
    (dot_S4096x300_S300x300_S4096x300_1_0_0_1_n_n.lhsIdx i q 0).val = (i 0).val := by
  unfold DotDims.lhsIdx
  rw [dif_neg (show ¬(0 : Fin S4096x300.rank) ∈ dot_S4096x300_S300x300_S4096x300_1_0_0_1_n_n.lhsBatch by decide), dif_pos (show (0 : Fin S4096x300.rank) ∈ dot_S4096x300_S300x300_S4096x300_1_0_0_1_n_n.lhsNonContracting by decide)]
  rfl
theorem lhs1 (i : S4096x300.Idx) (q : dot_S4096x300_S300x300_S4096x300_1_0_0_1_n_n.contr.Idx) :
    (dot_S4096x300_S300x300_S4096x300_1_0_0_1_n_n.lhsIdx i q 1).val = (q ⟨0, by decide⟩).val :=
  dot_S4096x300_S300x300_S4096x300_1_0_0_1_n_n.lhsIdx_val_of_single rfl i q
theorem rhs0 (i : S4096x300.Idx) (q : dot_S4096x300_S300x300_S4096x300_1_0_0_1_n_n.contr.Idx) :
    (dot_S4096x300_S300x300_S4096x300_1_0_0_1_n_n.rhsIdx i q 0).val = (q ⟨0, by decide⟩).val :=
  dot_S4096x300_S300x300_S4096x300_1_0_0_1_n_n.rhsIdx_val_of_single rfl i q
theorem rhs1 (i : S4096x300.Idx) (q : dot_S4096x300_S300x300_S4096x300_1_0_0_1_n_n.contr.Idx) :
    (dot_S4096x300_S300x300_S4096x300_1_0_0_1_n_n.rhsIdx i q 1).val = (i 1).val := by
  unfold DotDims.rhsIdx
  rw [dif_neg (show ¬(1 : Fin S300x300.rank) ∈ dot_S4096x300_S300x300_S4096x300_1_0_0_1_n_n.rhsBatch by decide), dif_pos (show (1 : Fin S300x300.rank) ∈ dot_S4096x300_S300x300_S4096x300_1_0_0_1_n_n.rhsNonContracting by decide)]
  rfl

/-! ## The body's value at one entry of its block -/

/-- Entry (p, q) of what the body stores: the positive part of x1[p, q] + sum over k of x0[p, k] x2[k, q]. -/
theorem pay_at (x0 x1 : Vec Ideal S4096x300 .f32) (x2 : Vec Ideal S300x300 .f32) (p : Fin 4096) (q : Fin 300) :
    k2_pay1 (F := Ideal) x0 x1 x2 (ix2 p q) = max (x1 (ix2 p q) + ∑ k : Fin 300, x0 (ix2 p k) * x2 (ix2 k q)) Spec.zero := by
  unfold k2_pay1
  simp only [shapeCast_self, maximumf_apply, addf_apply, broadcast_apply]
  exact congrArg (fun s => max (x1 (ix2 p q) + s) Spec.zero)
    (MatmulAt.matmul_zero_at dot_S4096x300_S300x300_S4096x300_1_0_0_1_n_n rfl rfl lhs0 lhs1 rhs0 rhs1 (some .fp32) x0 x2 p q)

/-! ## From blocks to the array -/

theorem hz : (![0, 0] : Fin 2 → Nat) = fun _ => 0 := funext fun a => by fin_cases a <;> rfl

/-- The printed index maps over the grid: the three row-blocked windows move together along the rows and stay at
    column block 0; the weight window stays at block (0, 0). -/
theorem idx_facts : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 49 :=
  (by decide +kernel : ∀ t : Fin grid2.N, _)

/-- Every row block is some point's. -/
theorem idx_onto : ∀ q0 : Fin 50, ∃ t : Fin cfg2.N, win2_3.index t = ![q0.val, 0] :=
  (by decide +kernel : ∀ q0 : Fin 50, ∃ t : Fin grid2.N, win2_3.index t = ![q0.val, 0])

/-- The three arrays the region finds, and their blocks at a point, at their literal types. -/
abbrev arrM (c : Dev nD) : FVec Ideal S204800x300 .f32 := V c main_v57
abbrev arrH (c : Dev nD) : FVec Ideal S204800x300 .f32 := V c main_v18
abbrev arrW (c : Dev nD) : FVec Ideal S300x300 .f32 := V c main_v59
abbrev blkM (c : Dev nD) (t : Fin cfg2.N) : Vec Ideal S4096x300 .f32 := iblk2 V c 0 t
abbrev blkH (c : Dev nD) (t : Fin cfg2.N) : Vec Ideal S4096x300 .f32 := iblk2 V c 1 t
abbrev blkW (c : Dev nD) (t : Fin cfg2.N) : Vec Ideal S300x300 .f32 := iblk2 V c 2 t

/-- Row p of point t's block of a row-blocked window is row (block row) * 4096 + p of its array. -/
theorem read_rows0 (c : Dev nD) (t : Fin cfg2.N) (y : S4096x300.Idx) (i : S204800x300.Idx)
    (h0 : (i 0).val = win2_3.index t (0 : Fin 2) * 4096 + (y 0).val) (h1 : (i 1).val = (y 1).val) :
    blkM V c t y = arrM V c i := by
  show V c main_v57 (((cfg2.win 0).blk t).view.emb y) = V c main_v57 i
  obtain ⟨e0, e1, e2, e3, e4, e5, e6, e7⟩ := idx_facts t
  congr 1
  funext a; apply Fin.ext
  match a with
  | ⟨0, _⟩ => show win2_0.index t (0 : Fin 2) * 4096 + 1 * (y 0).val = (i 0).val; omega
  | ⟨1, _⟩ => show win2_0.index t (1 : Fin 2) * 300 + 1 * (y 1).val = (i 1).val; omega

theorem read_rows1 (c : Dev nD) (t : Fin cfg2.N) (y : S4096x300.Idx) (i : S204800x300.Idx)
    (h0 : (i 0).val = win2_3.index t (0 : Fin 2) * 4096 + (y 0).val) (h1 : (i 1).val = (y 1).val) :
    blkH V c t y = arrH V c i := by
  show V c main_v18 (((cfg2.win 1).blk t).view.emb y) = V c main_v18 i
  obtain ⟨e0, e1, e2, e3, e4, e5, e6, e7⟩ := idx_facts t
  congr 1
  funext a; apply Fin.ext
  match a with
  | ⟨0, _⟩ => show win2_1.index t (0 : Fin 2) * 4096 + 1 * (y 0).val = (i 0).val; omega
  | ⟨1, _⟩ => show win2_1.index t (1 : Fin 2) * 300 + 1 * (y 1).val = (i 1).val; omega

/-- The weight window's one block is the whole weight array. -/
theorem read_w (c : Dev nD) (t : Fin cfg2.N) (y : S300x300.Idx) : blkW V c t y = arrW V c y := by
  show V c main_v59 (((cfg2.win 2).blk t).view.emb y) = V c main_v59 y
  obtain ⟨e0, e1, e2, e3, e4, e5, e6, e7⟩ := idx_facts t
  congr 1
  funext a; apply Fin.ext
  match a with
  | ⟨0, _⟩ => show win2_2.index t (0 : Fin 2) * 300 + 1 * (y 0).val = (y 0).val; omega
  | ⟨1, _⟩ => show win2_2.index t (1 : Fin 2) * 300 + 1 * (y 1).val = (y 1).val; omega

/-- Entry (p, q) of point t's block of the result sits at row (block row) * 4096 + p, column q of the array. -/
theorem emb_out (t : Fin cfg2.N) (p : Fin 4096) (q : Fin 300) :
    ∃ P : Fin 204800, P.val = win2_3.index t (0 : Fin 2) * 4096 + p.val
      ∧ ((cfg2.win 3).blk t).view.emb (ix2 p q) = ix2 P q := by
  obtain ⟨e0, e1, e2, e3, e4, e5, e6, e7⟩ := idx_facts t
  have hp : win2_3.index t (0 : Fin 2) * 4096 + p.val < 204800 := by have := p.isLt; omega
  refine ⟨⟨win2_3.index t (0 : Fin 2) * 4096 + p.val, hp⟩, rfl, ?_⟩
  funext a; apply Fin.ext
  match a with
  | ⟨0, _⟩ => show win2_3.index t (0 : Fin 2) * 4096 + 1 * p.val = win2_3.index t (0 : Fin 2) * 4096 + p.val; omega
  | ⟨1, _⟩ => show win2_3.index t (1 : Fin 2) * 300 + 1 * q.val = q.val; omega

theorem flushed_eq (c : Dev nD) (t : Fin cfg2.N) :
    (dat2 V c).flushed 3 t = ((cfg2.win 3).blk t).view.read (Elt Ideal) (Spec.msgUpdate (arrM V c) (arrH V c) (arrW V c)) := by
  show (cfg2.win 3).cut (grid2.coords t) ((dat2 V c).after 3 t) = _
  rw [after2_3]
  unfold out2_3
  rw [View.canon_unit_zero hz]
  simp only [View.ld_unit_zero (S := S4096x300) hz, View.ld_unit_zero (S := S300x300) hz]
  funext j
  obtain ⟨p, q, rfl⟩ : ∃ (p : Fin 4096) (q : Fin 300), j = ix2 p q := ⟨j 0, j 1, eq_ix2 j⟩
  show k2_pay1 (blkM V c t) (blkH V c t) (blkW V c t) (ix2 p q)
    = Spec.msgUpdate (arrM V c) (arrH V c) (arrW V c) (((cfg2.win 3).blk t).view.emb (ix2 p q))
  obtain ⟨P, hP, hE⟩ := emb_out t p q
  rw [hE]
  refine (pay_at (blkM V c t) (blkH V c t) (blkW V c t) p q).trans ?_
  show _ = max (arrH V c (ix2 P q) + ∑ k : Fin 300, arrM V c (ix2 P k) * arrW V c (ix2 k q)) Spec.zero
  rw [read_rows1 V c t (ix2 p q) (ix2 P q) hP rfl]
  refine congrArg (fun s => max (arrH V c (ix2 P q) + s) Spec.zero) (Finset.sum_congr rfl fun k _ => ?_)
  rw [read_rows0 V c t (ix2 p k) (ix2 P k) hP rfl, read_w V c t (ix2 k q)]

/-- An index of the array is in point t's block iff each coordinate is in the block's range on its axis. -/
theorem mem_blk (t : Fin cfg2.N) (i : S204800x300.Idx) :
    i ∈ ((cfg2.win 3).blk t).view.set ↔ ∀ a : Fin 2, win2_3.index t a * S4096x300.size a ≤ (i a).val ∧ (i a).val < win2_3.index t a * S4096x300.size a + S4096x300.size a := by
  show i ∈ ((View.whole main_v60).slice (win2_3.rect t)).set ↔ _
  rw [View.set_slice_whole, Rect.mem_set_unit]
  exact Iff.rfl

/-- The fifty blocks tile the array: row r is in the block of the point at row block r / 4096. -/
theorem cover (i : S204800x300.Idx) : ∃ t : Fin cfg2.N, (cfg2.win 3).flush t = true ∧ i ∈ ((cfg2.win 3).blk t).view.set := by
  have hi0 : (i 0).val < 204800 := (i 0).isLt
  have hi1 : (i 1).val < 300 := (i 1).isLt
  obtain ⟨t, ht⟩ := idx_onto ⟨(i 0).val / 4096, by omega⟩
  have q0 : win2_3.index t (0 : Fin 2) = (i 0).val / 4096 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 300 ≤ (i 1).val ∧ (i 1).val < win2_3.index t (1 : Fin 2) * 300 + 300; omega

/-- The array the region leaves: one function of the three arrays it finds. -/
theorem value (c : Dev nD) : (dat2 V c).arrAt 3 cfg2.N = Spec.msgUpdate (V c main_v57) (V c main_v18) (V c main_v59) :=
  (dat2 V c).arrAt_eq_of_cover 3 (Spec.msgUpdate (arrM V c) (arrH V c) (arrW V c)) (fun t _ => flushed_eq V c t) cover

end Cert.KernelIdeal.Region2

end
-- ==== Proof.Region3.lean ====
/-
  A message update, as a whole array: every entry (e, j) of the updated edge array is the positive part of
  h_init[e, j] + sum over k below 300 of msg[e, k] W[k, j].

  A grid point t holds rows 4096 t to 4096 t + 4095 of the message and of h_init, and the whole 300 by 300 weight; its
  block of the result is the body's matrix product, sum and positive part of those. The fifty blocks tile the
  204800 rows, so the array after the region is that one function of the arrays the region finds.
-/
import proofs.«404745_j46720654246230_3_alg».proof.Proof.Gen.KernelIdeal.Frame
import proofs.«404745_j46720654246230_3_alg».proof.Proof.Spec
import proofs.«404745_j46720654246230_3_alg».proof.Proof.LibMatmulAt
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product's dimension numbers read their operands at (row, k) and (k, column) -/

theorem lhs0 (i : S4096x300.Idx) (q : dot_S4096x300_S300x300_S4096x300_1_0_0_1_n_n.contr.Idx) :
    (dot_S4096x300_S300x300_S4096x300_1_0_0_1_n_n.lhsIdx i q 0).val = (i 0).val := by
  unfold DotDims.lhsIdx
  rw [dif_neg (show ¬(0 : Fin S4096x300.rank) ∈ dot_S4096x300_S300x300_S4096x300_1_0_0_1_n_n.lhsBatch by decide), dif_pos (show (0 : Fin S4096x300.rank) ∈ dot_S4096x300_S300x300_S4096x300_1_0_0_1_n_n.lhsNonContracting by decide)]
  rfl
theorem lhs1 (i : S4096x300.Idx) (q : dot_S4096x300_S300x300_S4096x300_1_0_0_1_n_n.contr.Idx) :
    (dot_S4096x300_S300x300_S4096x300_1_0_0_1_n_n.lhsIdx i q 1).val = (q ⟨0, by decide⟩).val :=
  dot_S4096x300_S300x300_S4096x300_1_0_0_1_n_n.lhsIdx_val_of_single rfl i q
theorem rhs0 (i : S4096x300.Idx) (q : dot_S4096x300_S300x300_S4096x300_1_0_0_1_n_n.contr.Idx) :
    (dot_S4096x300_S300x300_S4096x300_1_0_0_1_n_n.rhsIdx i q 0).val = (q ⟨0, by decide⟩).val :=
  dot_S4096x300_S300x300_S4096x300_1_0_0_1_n_n.rhsIdx_val_of_single rfl i q
theorem rhs1 (i : S4096x300.Idx) (q : dot_S4096x300_S300x300_S4096x300_1_0_0_1_n_n.contr.Idx) :
    (dot_S4096x300_S300x300_S4096x300_1_0_0_1_n_n.rhsIdx i q 1).val = (i 1).val := by
  unfold DotDims.rhsIdx
  rw [dif_neg (show ¬(1 : Fin S300x300.rank) ∈ dot_S4096x300_S300x300_S4096x300_1_0_0_1_n_n.rhsBatch by decide), dif_pos (show (1 : Fin S300x300.rank) ∈ dot_S4096x300_S300x300_S4096x300_1_0_0_1_n_n.rhsNonContracting by decide)]
  rfl

/-! ## The body's value at one entry of its block -/

/-- Entry (p, q) of what the body stores: the positive part of x1[p, q] + sum over k of x0[p, k] x2[k, q]. -/
theorem pay_at (x0 x1 : Vec Ideal S4096x300 .f32) (x2 : Vec Ideal S300x300 .f32) (p : Fin 4096) (q : Fin 300) :
    k3_pay1 (F := Ideal) x0 x1 x2 (ix2 p q) = max (x1 (ix2 p q) + ∑ k : Fin 300, x0 (ix2 p k) * x2 (ix2 k q)) Spec.zero := by
  unfold k3_pay1
  simp only [shapeCast_self, maximumf_apply, addf_apply, broadcast_apply]
  exact congrArg (fun s => max (x1 (ix2 p q) + s) Spec.zero)
    (MatmulAt.matmul_zero_at dot_S4096x300_S300x300_S4096x300_1_0_0_1_n_n rfl rfl lhs0 lhs1 rhs0 rhs1 (some .fp32) x0 x2 p q)

/-! ## From blocks to the array -/

theorem hz : (![0, 0] : Fin 2 → Nat) = fun _ => 0 := funext fun a => by fin_cases a <;> rfl

/-- The printed index maps over the grid: the three row-blocked windows move together along the rows and stay at
    column block 0; the weight window stays at block (0, 0). -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 49 :=
  (by decide +kernel : ∀ t : Fin grid3.N, _)

/-- Every row block is some point's. -/
theorem idx_onto : ∀ q0 : Fin 50, ∃ t : Fin cfg3.N, win3_3.index t = ![q0.val, 0] :=
  (by decide +kernel : ∀ q0 : Fin 50, ∃ t : Fin grid3.N, win3_3.index t = ![q0.val, 0])

/-- The three arrays the region finds, and their blocks at a point, at their literal types. -/
abbrev arrM (c : Dev nD) : FVec Ideal S204800x300 .f32 := V c main_v78
abbrev arrH (c : Dev nD) : FVec Ideal S204800x300 .f32 := V c main_v18
abbrev arrW (c : Dev nD) : FVec Ideal S300x300 .f32 := V c main_v80
abbrev blkM (c : Dev nD) (t : Fin cfg3.N) : Vec Ideal S4096x300 .f32 := iblk3 V c 0 t
abbrev blkH (c : Dev nD) (t : Fin cfg3.N) : Vec Ideal S4096x300 .f32 := iblk3 V c 1 t
abbrev blkW (c : Dev nD) (t : Fin cfg3.N) : Vec Ideal S300x300 .f32 := iblk3 V c 2 t

/-- Row p of point t's block of a row-blocked window is row (block row) * 4096 + p of its array. -/
theorem read_rows0 (c : Dev nD) (t : Fin cfg3.N) (y : S4096x300.Idx) (i : S204800x300.Idx)
    (h0 : (i 0).val = win3_3.index t (0 : Fin 2) * 4096 + (y 0).val) (h1 : (i 1).val = (y 1).val) :
    blkM V c t y = arrM V c i := by
  show V c main_v78 (((cfg3.win 0).blk t).view.emb y) = V c main_v78 i
  obtain ⟨e0, e1, e2, e3, e4, e5, e6, e7⟩ := idx_facts t
  congr 1
  funext a; apply Fin.ext
  match a with
  | ⟨0, _⟩ => show win3_0.index t (0 : Fin 2) * 4096 + 1 * (y 0).val = (i 0).val; omega
  | ⟨1, _⟩ => show win3_0.index t (1 : Fin 2) * 300 + 1 * (y 1).val = (i 1).val; omega

theorem read_rows1 (c : Dev nD) (t : Fin cfg3.N) (y : S4096x300.Idx) (i : S204800x300.Idx)
    (h0 : (i 0).val = win3_3.index t (0 : Fin 2) * 4096 + (y 0).val) (h1 : (i 1).val = (y 1).val) :
    blkH V c t y = arrH V c i := by
  show V c main_v18 (((cfg3.win 1).blk t).view.emb y) = V c main_v18 i
  obtain ⟨e0, e1, e2, e3, e4, e5, e6, e7⟩ := idx_facts t
  congr 1
  funext a; apply Fin.ext
  match a with
  | ⟨0, _⟩ => show win3_1.index t (0 : Fin 2) * 4096 + 1 * (y 0).val = (i 0).val; omega
  | ⟨1, _⟩ => show win3_1.index t (1 : Fin 2) * 300 + 1 * (y 1).val = (i 1).val; omega

/-- The weight window's one block is the whole weight array. -/
theorem read_w (c : Dev nD) (t : Fin cfg3.N) (y : S300x300.Idx) : blkW V c t y = arrW V c y := by
  show V c main_v80 (((cfg3.win 2).blk t).view.emb y) = V c main_v80 y
  obtain ⟨e0, e1, e2, e3, e4, e5, e6, e7⟩ := idx_facts t
  congr 1
  funext a; apply Fin.ext
  match a with
  | ⟨0, _⟩ => show win3_2.index t (0 : Fin 2) * 300 + 1 * (y 0).val = (y 0).val; omega
  | ⟨1, _⟩ => show win3_2.index t (1 : Fin 2) * 300 + 1 * (y 1).val = (y 1).val; omega

/-- Entry (p, q) of point t's block of the result sits at row (block row) * 4096 + p, column q of the array. -/
theorem emb_out (t : Fin cfg3.N) (p : Fin 4096) (q : Fin 300) :
    ∃ P : Fin 204800, P.val = win3_3.index t (0 : Fin 2) * 4096 + p.val
      ∧ ((cfg3.win 3).blk t).view.emb (ix2 p q) = ix2 P q := by
  obtain ⟨e0, e1, e2, e3, e4, e5, e6, e7⟩ := idx_facts t
  have hp : win3_3.index t (0 : Fin 2) * 4096 + p.val < 204800 := by have := p.isLt; omega
  refine ⟨⟨win3_3.index t (0 : Fin 2) * 4096 + p.val, hp⟩, rfl, ?_⟩
  funext a; apply Fin.ext
  match a with
  | ⟨0, _⟩ => show win3_3.index t (0 : Fin 2) * 4096 + 1 * p.val = win3_3.index t (0 : Fin 2) * 4096 + p.val; omega
  | ⟨1, _⟩ => show win3_3.index t (1 : Fin 2) * 300 + 1 * q.val = q.val; omega

theorem flushed_eq (c : Dev nD) (t : Fin cfg3.N) :
    (dat3 V c).flushed 3 t = ((cfg3.win 3).blk t).view.read (Elt Ideal) (Spec.msgUpdate (arrM V c) (arrH V c) (arrW V c)) := by
  show (cfg3.win 3).cut (grid3.coords t) ((dat3 V c).after 3 t) = _
  rw [after3_3]
  unfold out3_3
  rw [View.canon_unit_zero hz]
  simp only [View.ld_unit_zero (S := S4096x300) hz, View.ld_unit_zero (S := S300x300) hz]
  funext j
  obtain ⟨p, q, rfl⟩ : ∃ (p : Fin 4096) (q : Fin 300), j = ix2 p q := ⟨j 0, j 1, eq_ix2 j⟩
  show k3_pay1 (blkM V c t) (blkH V c t) (blkW V c t) (ix2 p q)
    = Spec.msgUpdate (arrM V c) (arrH V c) (arrW V c) (((cfg3.win 3).blk t).view.emb (ix2 p q))
  obtain ⟨P, hP, hE⟩ := emb_out t p q
  rw [hE]
  refine (pay_at (blkM V c t) (blkH V c t) (blkW V c t) p q).trans ?_
  show _ = max (arrH V c (ix2 P q) + ∑ k : Fin 300, arrM V c (ix2 P k) * arrW V c (ix2 k q)) Spec.zero
  rw [read_rows1 V c t (ix2 p q) (ix2 P q) hP rfl]
  refine congrArg (fun s => max (arrH V c (ix2 P q) + s) Spec.zero) (Finset.sum_congr rfl fun k _ => ?_)
  rw [read_rows0 V c t (ix2 p k) (ix2 P k) hP rfl, read_w V c t (ix2 k q)]

/-- An index of the array is in point t's block iff each coordinate is in the block's range on its axis. -/
theorem mem_blk (t : Fin cfg3.N) (i : S204800x300.Idx) :
    i ∈ ((cfg3.win 3).blk t).view.set ↔ ∀ a : Fin 2, win3_3.index t a * S4096x300.size a ≤ (i a).val ∧ (i a).val < win3_3.index t a * S4096x300.size a + S4096x300.size a := by
  show i ∈ ((View.whole main_v81).slice (win3_3.rect t)).set ↔ _
  rw [View.set_slice_whole, Rect.mem_set_unit]
  exact Iff.rfl

/-- The fifty blocks tile the array: row r is in the block of the point at row block r / 4096. -/
theorem cover (i : S204800x300.Idx) : ∃ t : Fin cfg3.N, (cfg3.win 3).flush t = true ∧ i ∈ ((cfg3.win 3).blk t).view.set := by
  have hi0 : (i 0).val < 204800 := (i 0).isLt
  have hi1 : (i 1).val < 300 := (i 1).isLt
  obtain ⟨t, ht⟩ := idx_onto ⟨(i 0).val / 4096, by omega⟩
  have q0 : win3_3.index t (0 : Fin 2) = (i 0).val / 4096 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 4096 ≤ (i 0).val ∧ (i 0).val < win3_3.index t (0 : Fin 2) * 4096 + 4096; omega
  | ⟨1, _⟩ => show win3_3.index t (1 : Fin 2) * 300 ≤ (i 1).val ∧ (i 1).val < win3_3.index t (1 : Fin 2) * 300 + 300; omega

/-- The array the region leaves: one function of the three arrays it finds. -/
theorem value (c : Dev nD) : (dat3 V c).arrAt 3 cfg3.N = Spec.msgUpdate (V c main_v78) (V c main_v18) (V c main_v80) :=
  (dat3 V c).arrAt_eq_of_cover 3 (Spec.msgUpdate (arrM V c) (arrH V c) (arrW V c)) (fun t _ => flushed_eq V c t) cover

end Cert.KernelIdeal.Region3

end
-- ==== Proof.Region4.lean ====
/-
  The atom readout, as a whole array: every entry (n, j) of the atom array is the positive part of
  ((sum over k below 73 of Af[n, k] Wa[k, j]) + (sum over k below 300 of Ma[n, k] Wm[k, j])) + b[0, j].

  A grid point t holds rows 4096 t to 4096 t + 4095 of the atom features and of the summed messages, the two whole
  weights and the bias row; the twenty-four blocks of the result tile the 98304 rows.
-/
import proofs.«404745_j46720654246230_3_alg».proof.Proof.Gen.KernelIdeal.Frame
import proofs.«404745_j46720654246230_3_alg».proof.Proof.Spec
import proofs.«404745_j46720654246230_3_alg».proof.Proof.LibMatmulAt
import Idealize.ShloMosaic.Lib.Pipeline.Value
import Idealize.ShloMosaic.Lib.ValueIdx

set_option maxRecDepth 16384

noncomputable section

open scoped BigOperators

namespace Cert.KernelIdeal.Region4

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Both products' dimension numbers read their operands at (row, k) and (k, column) -/

theorem a_lhs0 (i : S4096x300.Idx) (q : dot_S4096x73_S73x300_S4096x300_1_0_0_1_n_n.contr.Idx) :
    (dot_S4096x73_S73x300_S4096x300_1_0_0_1_n_n.lhsIdx i q 0).val = (i 0).val := by
  unfold DotDims.lhsIdx
  rw [dif_neg (show ¬(0 : Fin S4096x73.rank) ∈ dot_S4096x73_S73x300_S4096x300_1_0_0_1_n_n.lhsBatch by decide), dif_pos (show (0 : Fin S4096x73.rank) ∈ dot_S4096x73_S73x300_S4096x300_1_0_0_1_n_n.lhsNonContracting by decide)]
  rfl
theorem a_lhs1 (i : S4096x300.Idx) (q : dot_S4096x73_S73x300_S4096x300_1_0_0_1_n_n.contr.Idx) :
    (dot_S4096x73_S73x300_S4096x300_1_0_0_1_n_n.lhsIdx i q 1).val = (q ⟨0, by decide⟩).val :=
  dot_S4096x73_S73x300_S4096x300_1_0_0_1_n_n.lhsIdx_val_of_single rfl i q
theorem a_rhs0 (i : S4096x300.Idx) (q : dot_S4096x73_S73x300_S4096x300_1_0_0_1_n_n.contr.Idx) :
    (dot_S4096x73_S73x300_S4096x300_1_0_0_1_n_n.rhsIdx i q 0).val = (q ⟨0, by decide⟩).val :=
  dot_S4096x73_S73x300_S4096x300_1_0_0_1_n_n.rhsIdx_val_of_single rfl i q
theorem a_rhs1 (i : S4096x300.Idx) (q : dot_S4096x73_S73x300_S4096x300_1_0_0_1_n_n.contr.Idx) :
    (dot_S4096x73_S73x300_S4096x300_1_0_0_1_n_n.rhsIdx i q 1).val = (i 1).val := by
  unfold DotDims.rhsIdx
  rw [dif_neg (show ¬(1 : Fin S73x300.rank) ∈ dot_S4096x73_S73x300_S4096x300_1_0_0_1_n_n.rhsBatch by decide), dif_pos (show (1 : Fin S73x300.rank) ∈ dot_S4096x73_S73x300_S4096x300_1_0_0_1_n_n.rhsNonContracting by decide)]
  rfl

theorem m_lhs0 (i : S4096x300.Idx) (q : dot_S4096x300_S300x300_S4096x300_1_0_0_1_n_n.contr.Idx) :
    (dot_S4096x300_S300x300_S4096x300_1_0_0_1_n_n.lhsIdx i q 0).val = (i 0).val := by
  unfold DotDims.lhsIdx
  rw [dif_neg (show ¬(0 : Fin S4096x300.rank) ∈ dot_S4096x300_S300x300_S4096x300_1_0_0_1_n_n.lhsBatch by decide), dif_pos (show (0 : Fin S4096x300.rank) ∈ dot_S4096x300_S300x300_S4096x300_1_0_0_1_n_n.lhsNonContracting by decide)]
  rfl
theorem m_lhs1 (i : S4096x300.Idx) (q : dot_S4096x300_S300x300_S4096x300_1_0_0_1_n_n.contr.Idx) :
    (dot_S4096x300_S300x300_S4096x300_1_0_0_1_n_n.lhsIdx i q 1).val = (q ⟨0, by decide⟩).val :=
  dot_S4096x300_S300x300_S4096x300_1_0_0_1_n_n.lhsIdx_val_of_single rfl i q
theorem m_rhs0 (i : S4096x300.Idx) (q : dot_S4096x300_S300x300_S4096x300_1_0_0_1_n_n.contr.Idx) :
    (dot_S4096x300_S300x300_S4096x300_1_0_0_1_n_n.rhsIdx i q 0).val = (q ⟨0, by decide⟩).val :=
  dot_S4096x300_S300x300_S4096x300_1_0_0_1_n_n.rhsIdx_val_of_single rfl i q
theorem m_rhs1 (i : S4096x300.Idx) (q : dot_S4096x300_S300x300_S4096x300_1_0_0_1_n_n.contr.Idx) :
    (dot_S4096x300_S300x300_S4096x300_1_0_0_1_n_n.rhsIdx i q 1).val = (i 1).val := by
  unfold DotDims.rhsIdx
  rw [dif_neg (show ¬(1 : Fin S300x300.rank) ∈ dot_S4096x300_S300x300_S4096x300_1_0_0_1_n_n.rhsBatch by decide), dif_pos (show (1 : Fin S300x300.rank) ∈ dot_S4096x300_S300x300_S4096x300_1_0_0_1_n_n.rhsNonContracting by decide)]
  rfl

/-! ## The body's value at one entry of its block -/

/-- A row broadcast over 4096 rows reads, at (p, q), the row's entry (0, q). -/
theorem bias_at (x : FVec Ideal S1x300 .f32) (h : S1x300.Broadcasts S4096x300) (p : Fin 4096) (q : Fin 300) :
    broadcastTo S4096x300 x h (ix2 p q) = x (ix2 (0 : Fin 1) q) := by
  refine broadcastTo_apply x h (ix2 p q) (ix2 (0 : Fin 1) q) fun a => ?_
  match a with
  | ⟨0, _⟩ => rfl
  | ⟨1, _⟩ => rfl

/-- Entry (p, q) of what the body stores: the positive part of
    ((sum over k of x0[p, k] x2[k, q]) + (sum over k of x1[p, k] x3[k, q])) + x4[0, q]. -/
theorem pay_at (x0 : Vec Ideal S4096x73 .f32) (x1 : Vec Ideal S4096x300 .f32) (x2 : Vec Ideal S73x300 .f32)
    (x3 : Vec Ideal S300x300 .f32) (x4 : Vec Ideal S1x300 .f32) (p : Fin 4096) (q : Fin 300) :
    k4_pay1 (F := Ideal) x0 x1 x2 x3 x4 (ix2 p q)
      = max (((∑ k : Fin 73, x0 (ix2 p k) * x2 (ix2 k q)) + ∑ k : Fin 300, x1 (ix2 p k) * x3 (ix2 k q))
          + x4 (ix2 (0 : Fin 1) q)) Spec.zero := by
  unfold k4_pay1
  simp only [shapeCast_self, maximumf_apply, addf_apply, broadcast_apply]
  exact congrArg₂ (fun s s' => max (s + s') Spec.zero)
    (congrArg₂ (fun s s' => s + s')
      (MatmulAt.matmul_zero_at dot_S4096x73_S73x300_S4096x300_1_0_0_1_n_n rfl rfl a_lhs0 a_lhs1 a_rhs0 a_rhs1 (some .fp32) x0 x2 p q)
      (MatmulAt.matmul_zero_at dot_S4096x300_S300x300_S4096x300_1_0_0_1_n_n rfl rfl m_lhs0 m_lhs1 m_rhs0 m_rhs1 (some .fp32) x1 x3 p q))
    (bias_at x4 _ p q)

/-! ## From blocks to the array -/

theorem hz : (![0, 0] : Fin 2 → Nat) = fun _ => 0 := funext fun a => by fin_cases a <;> rfl

/-- The printed index maps over the grid: the two row-blocked inputs move with the result along the rows and stay at
    column block 0; the two weight windows and the bias row stay at block (0, 0). -/
theorem idx_facts : ∀ t : Fin cfg4.N, win4_0.index t (0 : Fin 2) = win4_5.index t (0 : Fin 2)
    ∧ win4_0.index t (1 : Fin 2) = 0
    ∧ win4_1.index t (0 : Fin 2) = win4_5.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (1 : Fin 2) = 0
    ∧ win4_5.index t (0 : Fin 2) ≤ 23 :=
  (by decide +kernel : ∀ t : Fin grid4.N, _)

/-- Every row block is some point's. -/
theorem idx_onto : ∀ q0 : Fin 24, ∃ t : Fin cfg4.N, win4_5.index t = ![q0.val, 0] :=
  (by decide +kernel : ∀ q0 : Fin 24, ∃ t : Fin grid4.N, win4_5.index t = ![q0.val, 0])

/-- The five arrays the region finds, and their blocks at a point, at their literal types. -/
abbrev arrAf (c : Dev nD) : FVec Ideal S98304x73 .f32 := V c main_arg0
abbrev arrMa (c : Dev nD) : FVec Ideal S98304x300 .f32 := V c main_v84
abbrev arrWa (c : Dev nD) : FVec Ideal S73x300 .f32 := V c main_v7
abbrev arrWm (c : Dev nD) : FVec Ideal S300x300 .f32 := V c main_v8
abbrev arrBias (c : Dev nD) : FVec Ideal S1x300 .f32 := V c main_v85
abbrev blkAf (c : Dev nD) (t : Fin cfg4.N) : Vec Ideal S4096x73 .f32 := iblk4 V c 0 t
abbrev blkMa (c : Dev nD) (t : Fin cfg4.N) : Vec Ideal S4096x300 .f32 := iblk4 V c 1 t
abbrev blkWa (c : Dev nD) (t : Fin cfg4.N) : Vec Ideal S73x300 .f32 := iblk4 V c 2 t
abbrev blkWm (c : Dev nD) (t : Fin cfg4.N) : Vec Ideal S300x300 .f32 := iblk4 V c 3 t
abbrev blkBias (c : Dev nD) (t : Fin cfg4.N) : Vec Ideal S1x300 .f32 := iblk4 V c 4 t

/-- Row p of point t's block of the atom features is row (block row) * 4096 + p of their array. -/
theorem read_rowsAf (c : Dev nD) (t : Fin cfg4.N) (y : S4096x73.Idx) (i : S98304x73.Idx)
    (h0 : (i 0).val = win4_5.index t (0 : Fin 2) * 4096 + (y 0).val) (h1 : (i 1).val = (y 1).val) :
    blkAf V c t y = arrAf V c i := by
  show V c main_arg0 (((cfg4.win 0).blk t).view.emb y) = V c main_arg0 i
  obtain ⟨e0, e1, e2, e3, e4, e5, e6, e7, e8, e9, e10, e11⟩ := idx_facts t
  congr 1
  funext a; apply Fin.ext
  match a with
  | ⟨0, _⟩ => show win4_0.index t (0 : Fin 2) * 4096 + 1 * (y 0).val = (i 0).val; omega
  | ⟨1, _⟩ => show win4_0.index t (1 : Fin 2) * 73 + 1 * (y 1).val = (i 1).val; omega

/-- The same for the summed messages. -/
theorem read_rowsMa (c : Dev nD) (t : Fin cfg4.N) (y : S4096x300.Idx) (i : S98304x300.Idx)
    (h0 : (i 0).val = win4_5.index t (0 : Fin 2) * 4096 + (y 0).val) (h1 : (i 1).val = (y 1).val) :
    blkMa V c t y = arrMa V c i := by
  show V c main_v84 (((cfg4.win 1).blk t).view.emb y) = V c main_v84 i
  obtain ⟨e0, e1, e2, e3, e4, e5, e6, e7, e8, e9, e10, e11⟩ := idx_facts t
  congr 1
  funext a; apply Fin.ext
  match a with
  | ⟨0, _⟩ => show win4_1.index t (0 : Fin 2) * 4096 + 1 * (y 0).val = (i 0).val; omega
  | ⟨1, _⟩ => show win4_1.index t (1 : Fin 2) * 300 + 1 * (y 1).val = (i 1).val; omega

/-- Each weight window's one block is the whole weight array, and the bias window's the whole bias row. -/
theorem read_wa (c : Dev nD) (t : Fin cfg4.N) (y : S73x300.Idx) : blkWa V c t y = arrWa V c y := by
  show V c main_v7 (((cfg4.win 2).blk t).view.emb y) = V c main_v7 y
  obtain ⟨e0, e1, e2, e3, e4, e5, e6, e7, e8, e9, e10, e11⟩ := idx_facts t
  congr 1
  funext a; apply Fin.ext
  match a with
  | ⟨0, _⟩ => show win4_2.index t (0 : Fin 2) * 73 + 1 * (y 0).val = (y 0).val; omega
  | ⟨1, _⟩ => show win4_2.index t (1 : Fin 2) * 300 + 1 * (y 1).val = (y 1).val; omega

theorem read_wm (c : Dev nD) (t : Fin cfg4.N) (y : S300x300.Idx) : blkWm V c t y = arrWm V c y := by
  show V c main_v8 (((cfg4.win 3).blk t).view.emb y) = V c main_v8 y
  obtain ⟨e0, e1, e2, e3, e4, e5, e6, e7, e8, e9, e10, e11⟩ := idx_facts t
  congr 1
  funext a; apply Fin.ext
  match a with
  | ⟨0, _⟩ => show win4_3.index t (0 : Fin 2) * 300 + 1 * (y 0).val = (y 0).val; omega
  | ⟨1, _⟩ => show win4_3.index t (1 : Fin 2) * 300 + 1 * (y 1).val = (y 1).val; omega

theorem read_bias (c : Dev nD) (t : Fin cfg4.N) (y : S1x300.Idx) : blkBias V c t y = arrBias V c y := by
  show V c main_v85 (((cfg4.win 4).blk t).view.emb y) = V c main_v85 y
  obtain ⟨e0, e1, e2, e3, e4, e5, e6, e7, e8, e9, e10, e11⟩ := idx_facts t
  congr 1
  funext a; apply Fin.ext
  match a with
  | ⟨0, _⟩ => show win4_4.index t (0 : Fin 2) * 1 + 1 * (y 0).val = (y 0).val; omega
  | ⟨1, _⟩ => show win4_4.index t (1 : Fin 2) * 300 + 1 * (y 1).val = (y 1).val; omega

/-- Entry (p, q) of point t's block of the result sits at row (block row) * 4096 + p, column q of the array. -/
theorem emb_out (t : Fin cfg4.N) (p : Fin 4096) (q : Fin 300) :
    ∃ P : Fin 98304, P.val = win4_5.index t (0 : Fin 2) * 4096 + p.val
      ∧ ((cfg4.win 5).blk t).view.emb (ix2 p q) = ix2 P q := by
  obtain ⟨e0, e1, e2, e3, e4, e5, e6, e7, e8, e9, e10, e11⟩ := idx_facts t
  have hp : win4_5.index t (0 : Fin 2) * 4096 + p.val < 98304 := by have := p.isLt; omega
  refine ⟨⟨win4_5.index t (0 : Fin 2) * 4096 + p.val, hp⟩, rfl, ?_⟩
  funext a; apply Fin.ext
  match a with
  | ⟨0, _⟩ => show win4_5.index t (0 : Fin 2) * 4096 + 1 * p.val = win4_5.index t (0 : Fin 2) * 4096 + p.val; omega
  | ⟨1, _⟩ => show win4_5.index t (1 : Fin 2) * 300 + 1 * q.val = q.val; omega

/-- What point t flushes is its block of the whole-array function of the five arrays. -/
theorem flushed_eq (c : Dev nD) (t : Fin cfg4.N) :
    (dat4 V c).flushed 5 t
      = ((cfg4.win 5).blk t).view.read (Elt Ideal)
          (Spec.atomReadout (arrAf V c) (arrMa V c) (arrWa V c) (arrWm V c) (arrBias V c)) := by
  show (cfg4.win 5).cut (grid4.coords t) ((dat4 V c).after 5 t) = _
  rw [after4_5]
  unfold out4_5
  rw [View.canon_unit_zero hz]
  simp only [View.ld_unit_zero (S := S4096x73) hz, View.ld_unit_zero (S := S4096x300) hz,
    View.ld_unit_zero (S := S73x300) hz, View.ld_unit_zero (S := S300x300) hz, View.ld_unit_zero (S := S1x300) hz]
  funext j
  obtain ⟨p, q, rfl⟩ : ∃ (p : Fin 4096) (q : Fin 300), j = ix2 p q := ⟨j 0, j 1, eq_ix2 j⟩
  show k4_pay1 (blkAf V c t) (blkMa V c t) (blkWa V c t) (blkWm V c t) (blkBias V c t) (ix2 p q)
    = Spec.atomReadout (arrAf V c) (arrMa V c) (arrWa V c) (arrWm V c) (arrBias V c)
        (((cfg4.win 5).blk t).view.emb (ix2 p q))
  obtain ⟨P, hP, hE⟩ := emb_out t p q
  rw [hE]
  refine (pay_at (blkAf V c t) (blkMa V c t) (blkWa V c t) (blkWm V c t) (blkBias V c t) p q).trans ?_
  show _ = max (((∑ k : Fin 73, arrAf V c (ix2 P k) * arrWa V c (ix2 k q))
    + ∑ k : Fin 300, arrMa V c (ix2 P k) * arrWm V c (ix2 k q)) + arrBias V c (ix2 (0 : Fin 1) q)) Spec.zero
  rw [read_bias V c t (ix2 (0 : Fin 1) q)]
  refine congrArg₂ (fun s s' => max ((s + s') + arrBias V c (ix2 (0 : Fin 1) q)) Spec.zero)
    (Finset.sum_congr rfl fun k _ => ?_) (Finset.sum_congr rfl fun k _ => ?_)
  · rw [read_rowsAf V c t (ix2 p k) (ix2 P k) hP rfl, read_wa V c t (ix2 k q)]
  · rw [read_rowsMa V c t (ix2 p k) (ix2 P k) hP rfl, read_wm V c t (ix2 k q)]

/-- An index of the array is in point t's block iff each coordinate is in the block's range on its axis. -/
theorem mem_blk (t : Fin cfg4.N) (i : S98304x300.Idx) :
    i ∈ ((cfg4.win 5).blk t).view.set ↔ ∀ a : Fin 2, win4_5.index t a * S4096x300.size a ≤ (i a).val ∧ (i a).val < win4_5.index t a * S4096x300.size a + S4096x300.size a := by
  show i ∈ ((View.whole main_v86).slice (win4_5.rect t)).set ↔ _
  rw [View.set_slice_whole, Rect.mem_set_unit]
  exact Iff.rfl

/-- The twenty-four blocks tile the array: row r is in the block of the point at row block r / 4096. -/
theorem cover (i : S98304x300.Idx) : ∃ t : Fin cfg4.N, (cfg4.win 5).flush t = true ∧ i ∈ ((cfg4.win 5).blk t).view.set := by
  have hi0 : (i 0).val < 98304 := (i 0).isLt
  have hi1 : (i 1).val < 300 := (i 1).isLt
  obtain ⟨t, ht⟩ := idx_onto ⟨(i 0).val / 4096, by omega⟩
  have q0 : win4_5.index t (0 : Fin 2) = (i 0).val / 4096 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 4096 ≤ (i 0).val ∧ (i 0).val < win4_5.index t (0 : Fin 2) * 4096 + 4096; omega
  | ⟨1, _⟩ => show win4_5.index t (1 : Fin 2) * 300 ≤ (i 1).val ∧ (i 1).val < win4_5.index t (1 : Fin 2) * 300 + 300; omega

/-- The array the region leaves: one function of the five arrays it finds. -/
theorem value (c : Dev nD) : (dat4 V c).arrAt 5 cfg4.N
    = Spec.atomReadout (V c main_arg0) (V c main_v84) (V c main_v7) (V c main_v8) (V c main_v85) :=
  (dat4 V c).arrAt_eq_of_cover 5 (Spec.atomReadout (arrAf V c) (arrMa V c) (arrWa V c) (arrWm V c) (arrBias V c))
    (fun t _ => flushed_eq V c t) cover

end Cert.KernelIdeal.Region4

end
-- ==== Proof.Region5.lean ====
/-
  The head, as a whole array: entry (n, q) of the result is (sum over k below 300 of hidden[n, k] W2[k, q]) + b2[0, q],
  with hidden[n, k] the positive part of (sum over j below 300 of X[n, j] W1[j, k]) + b1[0, k]. A change of float format
  is the identity on the extended reals, so the body's narrowings of its operands drop out.

  A grid point t holds rows 512 t to 512 t + 511 of the per-molecule means, the two whole weights and the two bias rows;
  the eight blocks of the result tile the 4096 rows.
-/
import proofs.«404745_j46720654246230_3_alg».proof.Proof.Gen.KernelIdeal.Frame
import proofs.«404745_j46720654246230_3_alg».proof.Proof.Spec
import proofs.«404745_j46720654246230_3_alg».proof.Proof.LibMatmulAt
import Idealize.ShloMosaic.Lib.Pipeline.Value
import Idealize.ShloMosaic.Lib.ValueIdx

set_option maxRecDepth 16384

noncomputable section

open scoped BigOperators

namespace Cert.KernelIdeal.Region5

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two products' dimension numbers read their operands at (row, k) and (k, column) -/

theorem lhs0a (i : S512x300.Idx) (q : dot_S512x300_S300x300_S512x300_1_0_0_1_n_n.contr.Idx) :
    (dot_S512x300_S300x300_S512x300_1_0_0_1_n_n.lhsIdx i q 0).val = (i 0).val := by
  unfold DotDims.lhsIdx
  rw [dif_neg (show ¬(0 : Fin S512x300.rank) ∈ dot_S512x300_S300x300_S512x300_1_0_0_1_n_n.lhsBatch by decide), dif_pos (show (0 : Fin S512x300.rank) ∈ dot_S512x300_S300x300_S512x300_1_0_0_1_n_n.lhsNonContracting by decide)]
  rfl
theorem lhs1a (i : S512x300.Idx) (q : dot_S512x300_S300x300_S512x300_1_0_0_1_n_n.contr.Idx) :
    (dot_S512x300_S300x300_S512x300_1_0_0_1_n_n.lhsIdx i q 1).val = (q ⟨0, by decide⟩).val :=
  dot_S512x300_S300x300_S512x300_1_0_0_1_n_n.lhsIdx_val_of_single rfl i q
theorem rhs0a (i : S512x300.Idx) (q : dot_S512x300_S300x300_S512x300_1_0_0_1_n_n.contr.Idx) :
    (dot_S512x300_S300x300_S512x300_1_0_0_1_n_n.rhsIdx i q 0).val = (q ⟨0, by decide⟩).val :=
  dot_S512x300_S300x300_S512x300_1_0_0_1_n_n.rhsIdx_val_of_single rfl i q
theorem rhs1a (i : S512x300.Idx) (q : dot_S512x300_S300x300_S512x300_1_0_0_1_n_n.contr.Idx) :
    (dot_S512x300_S300x300_S512x300_1_0_0_1_n_n.rhsIdx i q 1).val = (i 1).val := by
  unfold DotDims.rhsIdx
  rw [dif_neg (show ¬(1 : Fin S300x300.rank) ∈ dot_S512x300_S300x300_S512x300_1_0_0_1_n_n.rhsBatch by decide), dif_pos (show (1 : Fin S300x300.rank) ∈ dot_S512x300_S300x300_S512x300_1_0_0_1_n_n.rhsNonContracting by decide)]
  rfl

theorem lhs0b (i : S512x3.Idx) (q : dot_S512x300_S300x3_S512x3_1_0_0_1_n_n.contr.Idx) :
    (dot_S512x300_S300x3_S512x3_1_0_0_1_n_n.lhsIdx i q 0).val = (i 0).val := by
  unfold DotDims.lhsIdx
  rw [dif_neg (show ¬(0 : Fin S512x300.rank) ∈ dot_S512x300_S300x3_S512x3_1_0_0_1_n_n.lhsBatch by decide), dif_pos (show (0 : Fin S512x300.rank) ∈ dot_S512x300_S300x3_S512x3_1_0_0_1_n_n.lhsNonContracting by decide)]
  rfl
theorem lhs1b (i : S512x3.Idx) (q : dot_S512x300_S300x3_S512x3_1_0_0_1_n_n.contr.Idx) :
    (dot_S512x300_S300x3_S512x3_1_0_0_1_n_n.lhsIdx i q 1).val = (q ⟨0, by decide⟩).val :=
  dot_S512x300_S300x3_S512x3_1_0_0_1_n_n.lhsIdx_val_of_single rfl i q
theorem rhs0b (i : S512x3.Idx) (q : dot_S512x300_S300x3_S512x3_1_0_0_1_n_n.contr.Idx) :
    (dot_S512x300_S300x3_S512x3_1_0_0_1_n_n.rhsIdx i q 0).val = (q ⟨0, by decide⟩).val :=
  dot_S512x300_S300x3_S512x3_1_0_0_1_n_n.rhsIdx_val_of_single rfl i q
theorem rhs1b (i : S512x3.Idx) (q : dot_S512x300_S300x3_S512x3_1_0_0_1_n_n.contr.Idx) :
    (dot_S512x300_S300x3_S512x3_1_0_0_1_n_n.rhsIdx i q 1).val = (i 1).val := by
  unfold DotDims.rhsIdx
  rw [dif_neg (show ¬(1 : Fin S300x3.rank) ∈ dot_S512x300_S300x3_S512x3_1_0_0_1_n_n.rhsBatch by decide), dif_pos (show (1 : Fin S300x3.rank) ∈ dot_S512x300_S300x3_S512x3_1_0_0_1_n_n.rhsNonContracting by decide)]
  rfl

/-! ## A one-row array spread over the rows, read at one entry -/

/-- Entry (p, k) of a 1 by 300 row spread over 512 rows is the row's entry (0, k). -/
theorem row300_at (b : FVec Ideal S1x300 .f32) (p : Fin 512) (k : Fin 300) :
    broadcastTo S512x300 b Gen.broadcasts_S1x300_S512x300 (ix2 p k) = b (ix2 (0 : Fin 1) k) :=
  broadcastTo_apply b Gen.broadcasts_S1x300_S512x300 (ix2 p k) (ix2 (0 : Fin 1) k) (fun a => by
    match a with
    | ⟨0, _⟩ => rfl
    | ⟨1, _⟩ => rfl)

/-- Entry (p, q) of a 1 by 3 row spread over 512 rows is the row's entry (0, q). -/
theorem row3_at (b : FVec Ideal S1x3 .f32) (p : Fin 512) (q : Fin 3) :
    broadcastTo S512x3 b Gen.broadcasts_S1x3_S512x3 (ix2 p q) = b (ix2 (0 : Fin 1) q) :=
  broadcastTo_apply b Gen.broadcasts_S1x3_S512x3 (ix2 p q) (ix2 (0 : Fin 1) q) (fun a => by
    match a with
    | ⟨0, _⟩ => rfl
    | ⟨1, _⟩ => rfl)

/-! ## The body's value at one entry of its block -/

/-- The hidden layer as the body forms it: the positive part of the first product plus the spread bias row. -/
def hid (x0 : Vec Ideal S512x300 .f32) (x1 : Vec Ideal S300x300 .f32) (x2 : Vec Ideal S1x300 .f32) : FVec Ideal S512x300 .f32 :=
  maximumf
    (addf
      (matmul dot_S512x300_S300x300_S512x300_1_0_0_1_n_n none (truncf .bf16 x0 Gen.bitsLt_bf16_f32) (truncf .bf16 x1 Gen.bitsLt_bf16_f32)
        (constant S512x300 .f32 0x00000000#32))
      (broadcastTo S512x300 x2 Gen.broadcasts_S1x300_S512x300))
    (broadcast S512x300 (Scalar.ofBits .f32 0x00000000#32))

/-- Entry (p, k) of the hidden layer: the positive part of (sum over j of x0[p, j] x1[j, k]) + x2[0, k]. -/
theorem hid_at (x0 : Vec Ideal S512x300 .f32) (x1 : Vec Ideal S300x300 .f32) (x2 : Vec Ideal S1x300 .f32) (p : Fin 512) (k : Fin 300) :
    hid x0 x1 x2 (ix2 p k) = max ((∑ j : Fin 300, x0 (ix2 p j) * x1 (ix2 j k)) + x2 (ix2 (0 : Fin 1) k)) Spec.zero := by
  unfold hid
  simp only [maximumf_apply, addf_apply, broadcast_apply]
  rw [row300_at x2 p k]
  exact congrArg (fun s => max (s + x2 (ix2 (0 : Fin 1) k)) Spec.zero)
    (MatmulAt.matmul_zero_at dot_S512x300_S300x300_S512x300_1_0_0_1_n_n rfl rfl lhs0a lhs1a rhs0a rhs1a none
      (truncf .bf16 x0 Gen.bitsLt_bf16_f32) (truncf .bf16 x1 Gen.bitsLt_bf16_f32) p k)

/-- The body's payload is the second product of the hidden layer, plus the second spread bias row. -/
theorem pay_eq (x0 : Vec Ideal S512x300 .f32) (x1 : Vec Ideal S300x300 .f32) (x2 : Vec Ideal S1x300 .f32)
    (x3 : Vec Ideal S300x3 .f32) (x4 : Vec Ideal S1x3 .f32) :
    k5_pay1 (F := Ideal) x0 x1 x2 x3 x4
      = addf (matmul dot_S512x300_S300x3_S512x3_1_0_0_1_n_n none (truncf .bf16 (hid x0 x1 x2) Gen.bitsLt_bf16_f32)
          (truncf .bf16 x3 Gen.bitsLt_bf16_f32) (constant S512x3 .f32 0x00000000#32))
        (broadcastTo S512x3 x4 Gen.broadcasts_S1x3_S512x3) := by
  unfold k5_pay1 hid
  simp only [shapeCast_self]

/-- Entry (p, q) of what the body stores: (sum over k of hidden[p, k] x3[k, q]) + x4[0, q]. -/
theorem pay_at (x0 : Vec Ideal S512x300 .f32) (x1 : Vec Ideal S300x300 .f32) (x2 : Vec Ideal S1x300 .f32)
    (x3 : Vec Ideal S300x3 .f32) (x4 : Vec Ideal S1x3 .f32) (p : Fin 512) (q : Fin 3) :
    k5_pay1 (F := Ideal) x0 x1 x2 x3 x4 (ix2 p q)
      = (∑ k : Fin 300, max ((∑ j : Fin 300, x0 (ix2 p j) * x1 (ix2 j k)) + x2 (ix2 (0 : Fin 1) k)) Spec.zero * x3 (ix2 k q))
        + x4 (ix2 (0 : Fin 1) q) := by
  rw [pay_eq]
  simp only [addf_apply]
  rw [row3_at x4 p q]
  refine congrArg (fun s => s + x4 (ix2 (0 : Fin 1) q)) ?_
  refine (MatmulAt.matmul_zero_at dot_S512x300_S300x3_S512x3_1_0_0_1_n_n rfl rfl lhs0b lhs1b rhs0b rhs1b none
      (truncf .bf16 (hid x0 x1 x2) Gen.bitsLt_bf16_f32) (truncf .bf16 x3 Gen.bitsLt_bf16_f32) p q).trans ?_
  refine Finset.sum_congr rfl fun k _ => ?_
  show hid x0 x1 x2 (ix2 p k) * x3 (ix2 k q) = _
  rw [hid_at]

/-! ## From blocks to the array -/

theorem hz : (![0, 0] : Fin 2 → Nat) = fun _ => 0 := funext fun a => by fin_cases a <;> rfl

/-- The printed index maps over the grid: the row-blocked input and the result move together along the rows and stay
    at column block 0; the two weights and the two bias rows stay at block (0, 0). -/
theorem idx_facts : ∀ t : Fin cfg5.N, win5_0.index t (0 : Fin 2) = win5_5.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (1 : Fin 2) = 0
    ∧ win5_5.index t (0 : Fin 2) ≤ 7 :=
  (by decide +kernel : ∀ t : Fin grid5.N, _)

/-- Every row block is some point's. -/
theorem idx_onto : ∀ q0 : Fin 8, ∃ t : Fin cfg5.N, win5_5.index t = ![q0.val, 0] :=
  (by decide +kernel : ∀ q0 : Fin 8, ∃ t : Fin grid5.N, win5_5.index t = ![q0.val, 0])

/-- The five arrays the region finds, and their blocks at a point, at their literal types. -/
abbrev arrX (c : Dev nD) : FVec Ideal S4096x300 .f32 := V c main_v98
abbrev arrW1 (c : Dev nD) : FVec Ideal S300x300 .f32 := V c main_v9
abbrev arrB1 (c : Dev nD) : FVec Ideal S1x300 .f32 := V c main_v99
abbrev arrW2 (c : Dev nD) : FVec Ideal S300x3 .f32 := V c main_v10
abbrev arrB2 (c : Dev nD) : FVec Ideal S1x3 .f32 := V c main_v100
abbrev blkX (c : Dev nD) (t : Fin cfg5.N) : Vec Ideal S512x300 .f32 := iblk5 V c 0 t
abbrev blkW1 (c : Dev nD) (t : Fin cfg5.N) : Vec Ideal S300x300 .f32 := iblk5 V c 1 t
abbrev blkB1 (c : Dev nD) (t : Fin cfg5.N) : Vec Ideal S1x300 .f32 := iblk5 V c 2 t
abbrev blkW2 (c : Dev nD) (t : Fin cfg5.N) : Vec Ideal S300x3 .f32 := iblk5 V c 3 t
abbrev blkB2 (c : Dev nD) (t : Fin cfg5.N) : Vec Ideal S1x3 .f32 := iblk5 V c 4 t

/-- Row p of point t's block of the row-blocked input is row (block row) * 512 + p of its array. -/
theorem read_x (c : Dev nD) (t : Fin cfg5.N) (y : S512x300.Idx) (i : S4096x300.Idx)
    (h0 : (i 0).val = win5_5.index t (0 : Fin 2) * 512 + (y 0).val) (h1 : (i 1).val = (y 1).val) :
    blkX V c t y = arrX V c i := by
  show V c main_v98 (((cfg5.win 0).blk t).view.emb y) = V c main_v98 i
  obtain ⟨e0, e1, e2, e3, e4, e5, e6, e7, e8, e9, e10, e11⟩ := idx_facts t
  congr 1
  funext a; apply Fin.ext
  match a with
  | ⟨0, _⟩ => show win5_0.index t (0 : Fin 2) * 512 + 1 * (y 0).val = (i 0).val; omega
  | ⟨1, _⟩ => show win5_0.index t (1 : Fin 2) * 300 + 1 * (y 1).val = (i 1).val; omega

/-- The first weight window's one block is the whole weight array. -/
theorem read_w1 (c : Dev nD) (t : Fin cfg5.N) (y : S300x300.Idx) : blkW1 V c t y = arrW1 V c y := by
  show V c main_v9 (((cfg5.win 1).blk t).view.emb y) = V c main_v9 y
  obtain ⟨e0, e1, e2, e3, e4, e5, e6, e7, e8, e9, e10, e11⟩ := idx_facts t
  congr 1
  funext a; apply Fin.ext
  match a with
  | ⟨0, _⟩ => show win5_1.index t (0 : Fin 2) * 300 + 1 * (y 0).val = (y 0).val; omega
  | ⟨1, _⟩ => show win5_1.index t (1 : Fin 2) * 300 + 1 * (y 1).val = (y 1).val; omega

/-- The first bias window's one block is the whole bias row. -/
theorem read_b1 (c : Dev nD) (t : Fin cfg5.N) (y : S1x300.Idx) : blkB1 V c t y = arrB1 V c y := by
  show V c main_v99 (((cfg5.win 2).blk t).view.emb y) = V c main_v99 y
  obtain ⟨e0, e1, e2, e3, e4, e5, e6, e7, e8, e9, e10, e11⟩ := idx_facts t
  congr 1
  funext a; apply Fin.ext
  match a with
  | ⟨0, _⟩ => show win5_2.index t (0 : Fin 2) * 1 + 1 * (y 0).val = (y 0).val; omega
  | ⟨1, _⟩ => show win5_2.index t (1 : Fin 2) * 300 + 1 * (y 1).val = (y 1).val; omega

/-- The second weight window's one block is the whole weight array. -/
theorem read_w2 (c : Dev nD) (t : Fin cfg5.N) (y : S300x3.Idx) : blkW2 V c t y = arrW2 V c y := by
  show V c main_v10 (((cfg5.win 3).blk t).view.emb y) = V c main_v10 y
  obtain ⟨e0, e1, e2, e3, e4, e5, e6, e7, e8, e9, e10, e11⟩ := idx_facts t
  congr 1
  funext a; apply Fin.ext
  match a with
  | ⟨0, _⟩ => show win5_3.index t (0 : Fin 2) * 300 + 1 * (y 0).val = (y 0).val; omega
  | ⟨1, _⟩ => show win5_3.index t (1 : Fin 2) * 3 + 1 * (y 1).val = (y 1).val; omega

/-- The second bias window's one block is the whole bias row. -/
theorem read_b2 (c : Dev nD) (t : Fin cfg5.N) (y : S1x3.Idx) : blkB2 V c t y = arrB2 V c y := by
  show V c main_v100 (((cfg5.win 4).blk t).view.emb y) = V c main_v100 y
  obtain ⟨e0, e1, e2, e3, e4, e5, e6, e7, e8, e9, e10, e11⟩ := idx_facts t
  congr 1
  funext a; apply Fin.ext
  match a with
  | ⟨0, _⟩ => show win5_4.index t (0 : Fin 2) * 1 + 1 * (y 0).val = (y 0).val; omega
  | ⟨1, _⟩ => show win5_4.index t (1 : Fin 2) * 3 + 1 * (y 1).val = (y 1).val; omega

/-- Entry (p, q) of point t's block of the result sits at row (block row) * 512 + p, column q of the array. -/
theorem emb_out (t : Fin cfg5.N) (p : Fin 512) (q : Fin 3) :
    ∃ P : Fin 4096, P.val = win5_5.index t (0 : Fin 2) * 512 + p.val
      ∧ ((cfg5.win 5).blk t).view.emb (ix2 p q) = ix2 P q := by
  obtain ⟨e0, e1, e2, e3, e4, e5, e6, e7, e8, e9, e10, e11⟩ := idx_facts t
  have hp : win5_5.index t (0 : Fin 2) * 512 + p.val < 4096 := by have := p.isLt; omega
  refine ⟨⟨win5_5.index t (0 : Fin 2) * 512 + p.val, hp⟩, rfl, ?_⟩
  funext a; apply Fin.ext
  match a with
  | ⟨0, _⟩ => show win5_5.index t (0 : Fin 2) * 512 + 1 * p.val = win5_5.index t (0 : Fin 2) * 512 + p.val; omega
  | ⟨1, _⟩ => show win5_5.index t (1 : Fin 2) * 3 + 1 * q.val = q.val; omega

theorem flushed_eq (c : Dev nD) (t : Fin cfg5.N) :
    (dat5 V c).flushed 5 t = ((cfg5.win 5).blk t).view.read (Elt Ideal)
      (Spec.head (arrX V c) (arrW1 V c) (arrB1 V c) (arrW2 V c) (arrB2 V c)) := by
  show (cfg5.win 5).cut (grid5.coords t) ((dat5 V c).after 5 t) = _
  rw [after5_5]
  unfold out5_5
  rw [View.canon_unit_zero hz]
  simp only [View.ld_unit_zero (S := S512x300) hz, View.ld_unit_zero (S := S300x300) hz, View.ld_unit_zero (S := S1x300) hz,
    View.ld_unit_zero (S := S300x3) hz, View.ld_unit_zero (S := S1x3) hz]
  funext j
  obtain ⟨p, q, rfl⟩ : ∃ (p : Fin 512) (q : Fin 3), j = ix2 p q := ⟨j 0, j 1, eq_ix2 j⟩
  show k5_pay1 (blkX V c t) (blkW1 V c t) (blkB1 V c t) (blkW2 V c t) (blkB2 V c t) (ix2 p q)
    = Spec.head (arrX V c) (arrW1 V c) (arrB1 V c) (arrW2 V c) (arrB2 V c) (((cfg5.win 5).blk t).view.emb (ix2 p q))
  obtain ⟨P, hP, hE⟩ := emb_out t p q
  rw [hE]
  refine (pay_at (blkX V c t) (blkW1 V c t) (blkB1 V c t) (blkW2 V c t) (blkB2 V c t) p q).trans ?_
  show _ = (∑ k : Fin 300, max ((∑ j : Fin 300, arrX V c (ix2 P j) * arrW1 V c (ix2 j k)) + arrB1 V c (ix2 (0 : Fin 1) k)) Spec.zero
      * arrW2 V c (ix2 k q)) + arrB2 V c (ix2 (0 : Fin 1) q)
  rw [read_b2 V c t (ix2 (0 : Fin 1) q)]
  refine congrArg (fun s => s + arrB2 V c (ix2 (0 : Fin 1) q)) (Finset.sum_congr rfl fun k _ => ?_)
  rw [read_w2 V c t (ix2 k q), read_b1 V c t (ix2 (0 : Fin 1) k)]
  refine congrArg (fun s => max (s + arrB1 V c (ix2 (0 : Fin 1) k)) Spec.zero * arrW2 V c (ix2 k q))
    (Finset.sum_congr rfl fun j _ => ?_)
  rw [read_x V c t (ix2 p j) (ix2 P j) hP rfl, read_w1 V c t (ix2 j k)]

/-- An index of the array is in point t's block iff each coordinate is in the block's range on its axis. -/
theorem mem_blk (t : Fin cfg5.N) (i : S4096x3.Idx) :
    i ∈ ((cfg5.win 5).blk t).view.set ↔ ∀ a : Fin 2, win5_5.index t a * S512x3.size a ≤ (i a).val ∧ (i a).val < win5_5.index t a * S512x3.size a + S512x3.size a := by
  show i ∈ ((View.whole main_v101).slice (win5_5.rect t)).set ↔ _
  rw [View.set_slice_whole, Rect.mem_set_unit]
  exact Iff.rfl

/-- The eight blocks tile the array: row r is in the block of the point at row block r / 512. -/
theorem cover (i : S4096x3.Idx) : ∃ t : Fin cfg5.N, (cfg5.win 5).flush t = true ∧ i ∈ ((cfg5.win 5).blk t).view.set := by
  have hi0 : (i 0).val < 4096 := (i 0).isLt
  have hi1 : (i 1).val < 3 := (i 1).isLt
  obtain ⟨t, ht⟩ := idx_onto ⟨(i 0).val / 512, by omega⟩
  have q0 : win5_5.index t (0 : Fin 2) = (i 0).val / 512 := congrFun ht 0
  have q1 : win5_5.index t (1 : Fin 2) = 0 := congrFun ht 1
  refine ⟨t, flush5_5 t, ?_⟩
  rw [mem_blk]
  intro a
  match a with
  | ⟨0, _⟩ => show win5_5.index t (0 : Fin 2) * 512 ≤ (i 0).val ∧ (i 0).val < win5_5.index t (0 : Fin 2) * 512 + 512; omega
  | ⟨1, _⟩ => show win5_5.index t (1 : Fin 2) * 3 ≤ (i 1).val ∧ (i 1).val < win5_5.index t (1 : Fin 2) * 3 + 3; omega

/-- The array the region leaves: one function of the five arrays it finds. -/
theorem value (c : Dev nD) : (dat5 V c).arrAt 5 cfg5.N
    = Spec.head (V c main_v98) (V c main_v9) (V c main_v99) (V c main_v10) (V c main_v100) :=
  (dat5 V c).arrAt_eq_of_cover 5 (Spec.head (arrX V c) (arrW1 V c) (arrB1 V c) (arrW2 V c) (arrB2 V c))
    (fun t _ => flushed_eq V c t) cover

end Cert.KernelIdeal.Region5

end
-- ==== Proof.KernelValue.lean ====
/-
  The kernel program's result array, as the specification's network of its fourteen argument arrays.

  The run's buffer contents at its twelve boundaries are a fold: a host stretch applies its operations to the
  contents before it, a kernel region replaces its output array by what its blocks leave and keeps the rest. Reading
  the fold back from the result: the head of the per-molecule mean of the atom readout of the atom sums of the third
  message update, each update over the message of the one before and the edge initialisation. A buffer that a
  stretch or region does not write is carried back unchanged to where it was written.
-/
import proofs.«404745_j46720654246230_3_alg».proof.Proof.Gen.KernelIdeal.Frame
import proofs.«404745_j46720654246230_3_alg».proof.Proof.Spec
import proofs.«404745_j46720654246230_3_alg».proof.Proof.Region0
import proofs.«404745_j46720654246230_3_alg».proof.Proof.Region1
import proofs.«404745_j46720654246230_3_alg».proof.Proof.Region2
import proofs.«404745_j46720654246230_3_alg».proof.Proof.Region3
import proofs.«404745_j46720654246230_3_alg».proof.Proof.Region4
import proofs.«404745_j46720654246230_3_alg».proof.Proof.Region5

set_option maxRecDepth 16384
-- a stretch of twenty-five operations is read back in one pass over its fold
set_option maxHeartbeats 4000000

noncomputable section

namespace Cert.KernelIdeal.KernelValue

open Cert.KernelIdeal Cert.KernelIdeal.Gen Cert.KernelIdeal.Facts₀ Cert.KernelIdeal.Facts
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- A buffer the region does not touch is as the region found it. -/
macro "past_region" : tactic => `(tactic| first
  | (rw [W12_of_ne]; rotate_left; decide) | (rw [W10_of_ne]; rotate_left; decide) | (rw [W8_of_ne]; rotate_left; decide)
  | (rw [W6_of_ne]; rotate_left; decide) | (rw [W4_of_ne]; rotate_left; decide) | (rw [W2_of_ne]; rotate_left; decide))

/-- A buffer's contents after a host stretch, from the contents before it. -/
macro "past_stretch" : tactic => `(tactic| (show StableHlo.after _ _ _ = _; after_results_simp))

/-! ## After the first host stretch: the gathered atom rows and the weights as the kernels take them -/

theorem w1_v17 : W1 m ρ c (Proc.devRef .tc main_v17) = Spec.atomsOfEdges (arg m c main_arg0) (arg m c main_arg2) := by
  past_stretch <;> rfl
theorem w1_arg1 : W1 m ρ c (Proc.devRef .tc main_arg1) = arg m c main_arg1 := by past_stretch <;> rfl
theorem w1_v4 : W1 m ρ c (Proc.devRef .tc main_v4) = Spec.wiAtomT (arg m c main_arg6) := by past_stretch <;> rfl
theorem w1_v5 : W1 m ρ c (Proc.devRef .tc main_v5) = Spec.wiBondT (arg m c main_arg6) := by past_stretch <;> rfl
theorem w1_v6 : W1 m ρ c (Proc.devRef .tc main_v6) = Spec.wmT (arg m c main_arg7) := by past_stretch <;> rfl
theorem w1_v7 : W1 m ρ c (Proc.devRef .tc main_v7) = Spec.waAtomT (arg m c main_arg8) := by past_stretch <;> rfl
theorem w1_v8 : W1 m ρ c (Proc.devRef .tc main_v8) = Spec.waMsgT (arg m c main_arg8) := by past_stretch <;> rfl
theorem w1_v9 : W1 m ρ c (Proc.devRef .tc main_v9) = Spec.w1T (arg m c main_arg10) := by past_stretch <;> rfl
theorem w1_v10 : W1 m ρ c (Proc.devRef .tc main_v10) = Spec.w2T (arg m c main_arg12) := by past_stretch <;> rfl
theorem w1_arg0 : W1 m ρ c (Proc.devRef .tc main_arg0) = arg m c main_arg0 := by past_stretch <;> rfl
theorem w1_arg2 : W1 m ρ c (Proc.devRef .tc main_arg2) = arg m c main_arg2 := by past_stretch <;> rfl
theorem w1_arg3 : W1 m ρ c (Proc.devRef .tc main_arg3) = arg m c main_arg3 := by past_stretch <;> rfl
theorem w1_arg4 : W1 m ρ c (Proc.devRef .tc main_arg4) = arg m c main_arg4 := by past_stretch <;> rfl
theorem w1_arg5 : W1 m ρ c (Proc.devRef .tc main_arg5) = arg m c main_arg5 := by past_stretch <;> rfl
theorem w1_arg9 : W1 m ρ c (Proc.devRef .tc main_arg9) = arg m c main_arg9 := by past_stretch <;> rfl
theorem w1_arg11 : W1 m ρ c (Proc.devRef .tc main_arg11) = arg m c main_arg11 := by past_stretch <;> rfl
theorem w1_arg13 : W1 m ρ c (Proc.devRef .tc main_arg13) = arg m c main_arg13 := by past_stretch <;> rfl

/-! ## The edge initialisation -/

/-- The network's edge initialisation of the arguments. -/
abbrev hInit : FVec Ideal S204800x300 .f32 :=
  Spec.hInit (arg m c main_arg0) (arg m c main_arg1) (arg m c main_arg2) (arg m c main_arg6)

theorem w2_v18 : W2 m ρ c (Proc.devRef .tc main_v18) = hInit m c := by
  refine (W2_arr m ρ c 4).trans ((Region0.value (V1 m ρ) c).trans ?_)
  show Spec.edgeInit (W1 m ρ c (Proc.devRef .tc main_v17)) (W1 m ρ c (Proc.devRef .tc main_arg1))
    (W1 m ρ c (Proc.devRef .tc main_v4)) (W1 m ρ c (Proc.devRef .tc main_v5)) = _
  rw [w1_v17, w1_arg1, w1_v4, w1_v5]; rfl

theorem w2_arg2 : W2 m ρ c (Proc.devRef .tc main_arg2) = arg m c main_arg2 := by past_region; exact w1_arg2 m ρ c
theorem w2_arg4 : W2 m ρ c (Proc.devRef .tc main_arg4) = arg m c main_arg4 := by past_region; exact w1_arg4 m ρ c
theorem w2_v6 : W2 m ρ c (Proc.devRef .tc main_v6) = Spec.wmT (arg m c main_arg7) := by past_region; exact w1_v6 m ρ c

/-! ## The three message updates -/

theorem w3_v36 : W3 m ρ c (Proc.devRef .tc main_v36) = Spec.message (hInit m c) (arg m c main_arg2) (arg m c main_arg4) := by
  past_stretch <;> rw [w2_v18, w2_arg2, w2_arg4] <;> rfl
theorem w3_v38 : W3 m ρ c (Proc.devRef .tc main_v38) = Spec.wmT0 (arg m c main_arg7) := by past_stretch <;> rw [w2_v6] <;> rfl
theorem w3_v18 : W3 m ρ c (Proc.devRef .tc main_v18) = hInit m c := by past_stretch <;> exact w2_v18 m ρ c

/-- The network's first message update of the arguments. -/
abbrev h1 : FVec Ideal S204800x300 .f32 :=
  Spec.h1 (arg m c main_arg0) (arg m c main_arg1) (arg m c main_arg2) (arg m c main_arg4) (arg m c main_arg6) (arg m c main_arg7)

theorem w4_v39 : W4 m ρ c (Proc.devRef .tc main_v39) = h1 m c := by
  refine (W4_arr m ρ c 3).trans ((Region1.value (V3 m ρ) c).trans ?_)
  show Spec.msgUpdate (W3 m ρ c (Proc.devRef .tc main_v36)) (W3 m ρ c (Proc.devRef .tc main_v18))
    (W3 m ρ c (Proc.devRef .tc main_v38)) = _
  rw [w3_v36, w3_v18, w3_v38]; rfl

theorem w4_arg2 : W4 m ρ c (Proc.devRef .tc main_arg2) = (arg m c main_arg2) := by past_region; past_stretch <;> exact w2_arg2 m ρ c
theorem w4_arg4 : W4 m ρ c (Proc.devRef .tc main_arg4) = (arg m c main_arg4) := by past_region; past_stretch <;> exact w2_arg4 m ρ c
theorem w4_v6 : W4 m ρ c (Proc.devRef .tc main_v6) = Spec.wmT (arg m c main_arg7) := by past_region; past_stretch <;> exact w2_v6 m ρ c
/-- The edge initialisation is an input of the update region: the region leaves it as it found it. -/
theorem w4_v18 : W4 m ρ c (Proc.devRef .tc main_v18) = hInit m c :=
  ((W4_arr m ρ c 1).trans (((dat1 (V3 m ρ) c).arrAt_in 1 rfl _).trans (A_eq1 (V3 m ρ) c 1))).trans (w3_v18 m ρ c)

theorem w5_v57 : W5 m ρ c (Proc.devRef .tc main_v57) = Spec.message (h1 m c) (arg m c main_arg2) (arg m c main_arg4) := by
  past_stretch <;> rw [w4_v39, w4_arg2, w4_arg4] <;> rfl
theorem w5_v59 : W5 m ρ c (Proc.devRef .tc main_v59) = Spec.wmT1 (arg m c main_arg7) := by past_stretch <;> rw [w4_v6] <;> rfl
theorem w5_v18 : W5 m ρ c (Proc.devRef .tc main_v18) = hInit m c := by past_stretch <;> exact w4_v18 m ρ c

/-- The network's second message update of the arguments. -/
abbrev h2 : FVec Ideal S204800x300 .f32 :=
  Spec.h2 (arg m c main_arg0) (arg m c main_arg1) (arg m c main_arg2) (arg m c main_arg4) (arg m c main_arg6) (arg m c main_arg7)

theorem w6_v60 : W6 m ρ c (Proc.devRef .tc main_v60) = h2 m c := by
  refine (W6_arr m ρ c 3).trans ((Region2.value (V5 m ρ) c).trans ?_)
  show Spec.msgUpdate (W5 m ρ c (Proc.devRef .tc main_v57)) (W5 m ρ c (Proc.devRef .tc main_v18))
    (W5 m ρ c (Proc.devRef .tc main_v59)) = _
  rw [w5_v57, w5_v18, w5_v59]; rfl

theorem w6_arg2 : W6 m ρ c (Proc.devRef .tc main_arg2) = (arg m c main_arg2) := by past_region; past_stretch <;> exact w4_arg2 m ρ c
theorem w6_arg4 : W6 m ρ c (Proc.devRef .tc main_arg4) = (arg m c main_arg4) := by past_region; past_stretch <;> exact w4_arg4 m ρ c
theorem w6_v6 : W6 m ρ c (Proc.devRef .tc main_v6) = Spec.wmT (arg m c main_arg7) := by past_region; past_stretch <;> exact w4_v6 m ρ c
theorem w6_v18 : W6 m ρ c (Proc.devRef .tc main_v18) = hInit m c :=
  ((W6_arr m ρ c 1).trans (((dat2 (V5 m ρ) c).arrAt_in 1 rfl _).trans (A_eq2 (V5 m ρ) c 1))).trans (w5_v18 m ρ c)

theorem w7_v78 : W7 m ρ c (Proc.devRef .tc main_v78) = Spec.message (h2 m c) (arg m c main_arg2) (arg m c main_arg4) := by
  past_stretch <;> rw [w6_v60, w6_arg2, w6_arg4] <;> rfl
theorem w7_v80 : W7 m ρ c (Proc.devRef .tc main_v80) = Spec.wmT2 (arg m c main_arg7) := by past_stretch <;> rw [w6_v6] <;> rfl
theorem w7_v18 : W7 m ρ c (Proc.devRef .tc main_v18) = hInit m c := by past_stretch <;> exact w6_v18 m ρ c

/-- The network's third message update of the arguments. -/
abbrev h3 : FVec Ideal S204800x300 .f32 :=
  Spec.h3 (arg m c main_arg0) (arg m c main_arg1) (arg m c main_arg2) (arg m c main_arg4) (arg m c main_arg6) (arg m c main_arg7)

theorem w8_v81 : W8 m ρ c (Proc.devRef .tc main_v81) = h3 m c := by
  refine (W8_arr m ρ c 3).trans ((Region3.value (V7 m ρ) c).trans ?_)
  show Spec.msgUpdate (W7 m ρ c (Proc.devRef .tc main_v78)) (W7 m ρ c (Proc.devRef .tc main_v18))
    (W7 m ρ c (Proc.devRef .tc main_v80)) = _
  rw [w7_v78, w7_v18, w7_v80]; rfl

/-! ## Buffers carried from the first stretch to the readout and the head: no region or stretch between writes them -/

/-- From the exit of the third update region back to the first boundary. -/
macro "back_from_8" : tactic => `(tactic|
  (past_region; past_stretch; past_region; past_stretch; past_region; past_stretch; past_region))

theorem w8_arg3 : W8 m ρ c (Proc.devRef .tc main_arg3) = (arg m c main_arg3) := by back_from_8; exact w1_arg3 m ρ c
theorem w8_arg9 : W8 m ρ c (Proc.devRef .tc main_arg9) = (arg m c main_arg9) := by back_from_8; exact w1_arg9 m ρ c
theorem w8_arg0 : W8 m ρ c (Proc.devRef .tc main_arg0) = (arg m c main_arg0) := by back_from_8; exact w1_arg0 m ρ c
theorem w8_arg5 : W8 m ρ c (Proc.devRef .tc main_arg5) = (arg m c main_arg5) := by back_from_8; exact w1_arg5 m ρ c
theorem w8_arg11 : W8 m ρ c (Proc.devRef .tc main_arg11) = (arg m c main_arg11) := by back_from_8; exact w1_arg11 m ρ c
theorem w8_arg13 : W8 m ρ c (Proc.devRef .tc main_arg13) = (arg m c main_arg13) := by back_from_8; exact w1_arg13 m ρ c
theorem w8_v7 : W8 m ρ c (Proc.devRef .tc main_v7) = Spec.waAtomT (arg m c main_arg8) := by back_from_8; exact w1_v7 m ρ c
theorem w8_v8 : W8 m ρ c (Proc.devRef .tc main_v8) = Spec.waMsgT (arg m c main_arg8) := by back_from_8; exact w1_v8 m ρ c
theorem w8_v9 : W8 m ρ c (Proc.devRef .tc main_v9) = Spec.w1T (arg m c main_arg10) := by back_from_8; exact w1_v9 m ρ c
theorem w8_v10 : W8 m ρ c (Proc.devRef .tc main_v10) = Spec.w2T (arg m c main_arg12) := by back_from_8; exact w1_v10 m ρ c

/-! ## The atom readout -/

theorem w9_v84 : W9 m ρ c (Proc.devRef .tc main_v84) = Spec.sumToAtoms (arg m c main_arg3) (h3 m c) := by
  past_stretch <;> rw [w8_v81, w8_arg3] <;> rfl
theorem w9_v85 : W9 m ρ c (Proc.devRef .tc main_v85) = Spec.rowOf300 (arg m c main_arg9) := by past_stretch <;> rw [w8_arg9] <;> rfl
theorem w9_arg0 : W9 m ρ c (Proc.devRef .tc main_arg0) = (arg m c main_arg0) := by past_stretch <;> exact w8_arg0 m ρ c
theorem w9_v7 : W9 m ρ c (Proc.devRef .tc main_v7) = Spec.waAtomT (arg m c main_arg8) := by past_stretch <;> exact w8_v7 m ρ c
theorem w9_v8 : W9 m ρ c (Proc.devRef .tc main_v8) = Spec.waMsgT (arg m c main_arg8) := by past_stretch <;> exact w8_v8 m ρ c

/-- The network's atom readout of the arguments. -/
abbrev hAtom : FVec Ideal S98304x300 .f32 :=
  Spec.hAtom (arg m c main_arg0) (arg m c main_arg1) (arg m c main_arg2) (arg m c main_arg3) (arg m c main_arg4) (arg m c main_arg6) (arg m c main_arg7) (arg m c main_arg8) (arg m c main_arg9)

theorem w10_v86 : W10 m ρ c (Proc.devRef .tc main_v86) = hAtom m c := by
  refine (W10_arr m ρ c 5).trans ((Region4.value (V9 m ρ) c).trans ?_)
  show Spec.atomReadout (W9 m ρ c (Proc.devRef .tc main_arg0)) (W9 m ρ c (Proc.devRef .tc main_v84))
    (W9 m ρ c (Proc.devRef .tc main_v7)) (W9 m ρ c (Proc.devRef .tc main_v8)) (W9 m ρ c (Proc.devRef .tc main_v85)) = _
  rw [w9_arg0, w9_v84, w9_v7, w9_v8, w9_v85]; rfl

theorem w10_arg5 : W10 m ρ c (Proc.devRef .tc main_arg5) = (arg m c main_arg5) := by past_region; past_stretch <;> exact w8_arg5 m ρ c
theorem w10_arg11 : W10 m ρ c (Proc.devRef .tc main_arg11) = (arg m c main_arg11) := by past_region; past_stretch <;> exact w8_arg11 m ρ c
theorem w10_arg13 : W10 m ρ c (Proc.devRef .tc main_arg13) = (arg m c main_arg13) := by past_region; past_stretch <;> exact w8_arg13 m ρ c
theorem w10_v9 : W10 m ρ c (Proc.devRef .tc main_v9) = Spec.w1T (arg m c main_arg10) := by past_region; past_stretch <;> exact w8_v9 m ρ c
theorem w10_v10 : W10 m ρ c (Proc.devRef .tc main_v10) = Spec.w2T (arg m c main_arg12) := by past_region; past_stretch <;> exact w8_v10 m ρ c

/-! ## The per-molecule mean and the head -/

theorem w11_v98 : W11 m ρ c (Proc.devRef .tc main_v98) = Spec.molMean (hAtom m c) (arg m c main_arg5) := by
  past_stretch <;> rw [w10_v86, w10_arg5] <;> rfl
theorem w11_v99 : W11 m ρ c (Proc.devRef .tc main_v99) = Spec.rowOf300 (arg m c main_arg11) := by past_stretch <;> rw [w10_arg11] <;> rfl
theorem w11_v100 : W11 m ρ c (Proc.devRef .tc main_v100) = Spec.rowOf3 (arg m c main_arg13) := by past_stretch <;> rw [w10_arg13] <;> rfl
theorem w11_v9 : W11 m ρ c (Proc.devRef .tc main_v9) = Spec.w1T (arg m c main_arg10) := by past_stretch <;> exact w10_v9 m ρ c
theorem w11_v10 : W11 m ρ c (Proc.devRef .tc main_v10) = Spec.w2T (arg m c main_arg12) := by past_stretch <;> exact w10_v10 m ρ c

/-- THE RESULT ARRAY at the last boundary is the network of the fourteen argument arrays as launched. -/
theorem result_eq : W12 m ρ c (Proc.devRef .tc main_v101)
    = Spec.network (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) := by
  refine (W12_arr m ρ c 5).trans ((Region5.value (V11 m ρ) c).trans ?_)
  show Spec.head (W11 m ρ c (Proc.devRef .tc main_v98)) (W11 m ρ c (Proc.devRef .tc main_v9))
    (W11 m ρ c (Proc.devRef .tc main_v99)) (W11 m ρ c (Proc.devRef .tc main_v10)) (W11 m ρ c (Proc.devRef .tc main_v100)) = _
  rw [w11_v98, w11_v9, w11_v99, w11_v10, w11_v100]; rfl

end Cert.KernelIdeal.KernelValue

end
-- ==== Proof.RefEdge.lean ====
/-
  The reference's edge initialisation is the specification's: the product of the joined [atom ; bond] rows with the
  transposed weight, summed over the 86 joined columns, is the sum over the 73 atom columns plus the sum over the 13
  bond columns, each against its own block of the weight's columns.
-/
import proofs.«404745_j46720654246230_3_alg».proof.Proof.Gen.ReferenceIdeal.Read
import proofs.«404745_j46720654246230_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefEdge

open Cert.ReferenceIdeal Cert.ReferenceIdeal.Read Cert.ReferenceIdeal.Facts₀ Cert.ReferenceIdeal.Facts
open Idealize.ShloMosaic Idealize.ShloMosaic.ValueIdx

variable (x0 : FVec Ideal S98304x73 .f32) (x1 : FVec Ideal S204800x13 .f32) (x2 x3 x4 : IVec S204800 32) (x5 : IVec S98304 32)
  (x6 : FVec Ideal S300x86 .f32) (x7 : FVec Ideal S3x300x300 .f32) (x8 : FVec Ideal S300x373 .f32) (x9 : FVec Ideal S300 .f32)
  (x10 : FVec Ideal S300x300 .f32) (x11 : FVec Ideal S300 .f32) (x12 : FVec Ideal S3x300 .f32) (x13 : FVec Ideal S3 .f32)

/-! ## The 86 joined columns are the 73 atom columns followed by the 13 bond columns -/

/-- An atom column as a joined column: the same position. -/
abbrev atomCol (k : Fin 73) : Fin 86 := ⟨k.val, by omega⟩
/-- A bond column as a joined column: 73 further along. -/
abbrev bondCol (k : Fin 13) : Fin 86 := ⟨73 + k.val, by omega⟩

/-- A sum over the joined columns is the sum over the atom columns plus the sum over the bond columns. -/
theorem sum_joined (f : Fin 86 → EReal) :
    ∑ k : Fin 86, f k = (∑ k : Fin 73, f (atomCol k)) + ∑ k : Fin 13, f (bondCol k) :=
  Fin.sum_univ_add (a := 73) (b := 13) f

/-! ## The index functions of the product, as coordinates -/

theorem lidx_eq (e : Fin 204800) (j : Fin 300) (k : Fin 86) : lidx_main_v9 (ix2 e j) k = ix2 e k :=
  funext fun a => Fin.ext (by match a with | ⟨0, _⟩ => rfl | ⟨1, _⟩ => rfl)

theorem ridx_eq (e : Fin 204800) (j : Fin 300) (k : Fin 86) : ridx_main_v9 (ix2 e j) k = ix2 k j :=
  funext fun a => Fin.ext (by match a with | ⟨0, _⟩ => rfl | ⟨1, _⟩ => rfl)

theorem tidx_eq (k : Fin 86) (j : Fin 300) : idx_main_v8 (ix2 k j) = ix2 j k :=
  funext fun a => Fin.ext (by match a with | ⟨0, _⟩ => rfl | ⟨1, _⟩ => rfl)

/-! ## The operands of the product, entry by entry -/

/-- The transposed weight at row k, column j is the weight at row j, column k. -/
theorem weightT_at (k : Fin 86) (j : Fin 300) : val_main_v8 (F := Ideal) x6 (ix2 k j) = x6 (ix2 j k) := by
  rw [val_main_v8_apply, tidx_eq]

/-- The joined rows at an atom column are the gathered atom rows there. -/
theorem joined_atom (e : Fin 204800) (k : Fin 73) :
    val_main_v7 (F := Ideal) x0 x1 x2 (ix2 e (atomCol k)) = val_main_v6 (F := Ideal) x0 x2 (ix2 e k) := by
  unfold val_main_v7
  generalize val_main_v6 (F := Ideal) x0 x2 = y
  exact concatenate_pair_apply_left (t := S204800x86) (s₁ := S204800x73) (s₂ := S204800x13) 1 y x1
    concatenates_S204800x73_S204800x13_S204800x86_d1 (ix2 e (atomCol k)) rfl (ix2 e k)
    (fun b => match b with | ⟨0, _⟩ => rfl | ⟨1, _⟩ => rfl)

/-- The joined rows at a bond column are the bond rows, 73 columns back. -/
theorem joined_bond (e : Fin 204800) (k : Fin 13) :
    val_main_v7 (F := Ideal) x0 x1 x2 (ix2 e (bondCol k)) = x1 (ix2 e k) := by
  unfold val_main_v7
  generalize val_main_v6 (F := Ideal) x0 x2 = y
  exact concatenate_pair_apply_right (t := S204800x86) (s₁ := S204800x73) (s₂ := S204800x13) 1 y x1
    concatenates_S204800x73_S204800x13_S204800x86_d1 (ix2 e (bondCol k)) rfl rfl (ix2 e k)
    (fun b hb => match b, hb with
      | ⟨0, _⟩, _ => rfl
      | ⟨1, _⟩, hb => absurd rfl hb)
    (by show k.val + 73 = 73 + k.val; omega)

/-- The gather of atom rows is the specification's, the two programs' records differing in name only. -/
theorem atoms_eq : val_main_v6 (F := Ideal) x0 x2 = Spec.atomsOfEdges x0 x2 := rfl

/-- The float zero the positive part is taken against. -/
theorem zero_at (i : S204800x300.Idx) : val_main_call0_v0 (F := Ideal) i = Spec.zero := by
  rw [val_main_call0_v0_apply, val_main_call0_cst_apply]
  rfl

/-! ## The specification's two column blocks of the weight, entry by entry -/

/-- The atom block, transposed: row k, column j is the weight at row j, atom column k. -/
theorem wiAtomT_at (k : Fin 73) (j : Fin 300) : Spec.wiAtomT x6 (ix2 k j) = x6 (ix2 j (atomCol k)) := by
  unfold Spec.wiAtomT
  refine Eq.trans (transpose_apply (s := Cert.KernelIdeal.S300x73) (t := Cert.KernelIdeal.S73x300) [1, 0] _ _
    (ix2 k j) (ix2 j k) (fun b => match b with | ⟨0, _⟩ => rfl | ⟨1, _⟩ => rfl)) ?_
  exact extractStridedSlice_apply (s := Cert.KernelIdeal.S300x86) (t := Cert.KernelIdeal.S300x73) ![0, 0] x6 _
    (ix2 j k) (ix2 j (atomCol k)) (fun a => match a with
      | ⟨0, _⟩ => by show j.val = 0 + j.val; omega
      | ⟨1, _⟩ => by show k.val = 0 + k.val; omega)

/-- The bond block, transposed: row k, column j is the weight at row j, bond column k. -/
theorem wiBondT_at (k : Fin 13) (j : Fin 300) : Spec.wiBondT x6 (ix2 k j) = x6 (ix2 j (bondCol k)) := by
  unfold Spec.wiBondT
  refine Eq.trans (transpose_apply (s := Cert.KernelIdeal.S300x13) (t := Cert.KernelIdeal.S13x300) [1, 0] _ _
    (ix2 k j) (ix2 j k) (fun b => match b with | ⟨0, _⟩ => rfl | ⟨1, _⟩ => rfl)) ?_
  exact extractStridedSlice_apply (s := Cert.KernelIdeal.S300x86) (t := Cert.KernelIdeal.S300x13) ![0, 73] x6 _
    (ix2 j k) (ix2 j (bondCol k)) (fun a => match a with
      | ⟨0, _⟩ => by show j.val = 0 + j.val; omega
      | ⟨1, _⟩ => by show 73 + k.val = 73 + k.val; rfl)

/-! ## The product, entry by entry -/

/-- The joined product at edge e, feature j, split over the two column blocks. -/
theorem product_at (e : Fin 204800) (j : Fin 300) :
    val_main_v9 (F := Ideal) x0 x1 x2 x6 (ix2 e j)
      = (∑ k : Fin 73, val_main_v6 (F := Ideal) x0 x2 (ix2 e k) * x6 (ix2 j (atomCol k)))
        + ∑ k : Fin 13, x1 (ix2 e k) * x6 (ix2 j (bondCol k)) := by
  rw [val_main_v9_apply, sum_joined]
  refine congrArg₂ (· + ·) (Finset.sum_congr rfl fun k _ => ?_) (Finset.sum_congr rfl fun k _ => ?_)
  · rw [lidx_eq, ridx_eq, joined_atom, weightT_at]
  · rw [lidx_eq, ridx_eq, joined_bond, weightT_at]

/-- The specification's edge initialisation read at an index is its entry. -/
theorem edgeInit_at (A : FVec Ideal Cert.KernelIdeal.S204800x73 .f32) (B : FVec Ideal Cert.KernelIdeal.S204800x13 .f32)
    (Wa : FVec Ideal Cert.KernelIdeal.S73x300 .f32) (Wb : FVec Ideal Cert.KernelIdeal.S13x300 .f32) (e : Fin 204800) (j : Fin 300) :
    Spec.edgeInit A B Wa Wb (ix2 e j) = Spec.edgeInitAt A B Wa Wb e j := rfl

/-- The reference's h_init (its positive part of the joined product) is the specification's edge initialisation of the
    gathered atom rows, the bond rows and the two transposed column blocks of the weight. -/
theorem stage0 : val_main_v10 (F := Ideal) x0 x1 x2 x6
    = Spec.edgeInit (Spec.atomsOfEdges x0 x2) x1 (Spec.wiAtomT x6) (Spec.wiBondT x6) := by
  funext i
  obtain ⟨e, j, rfl⟩ : ∃ (e : Fin 204800) (j : Fin 300), i = ix2 e j := ⟨i 0, i 1, eq_ix2 i⟩
  rw [val_main_v10_apply, product_at, zero_at, edgeInit_at, Ideal.maximumf_def, atoms_eq]
  unfold Spec.edgeInitAt
  simp only [wiAtomT_at, wiBondT_at]

end Cert.ReferenceIdeal.RefEdge

end
-- ==== Proof.RefMsg.lean ====
/-
  The reference's three message updates are the specification's: each is the positive part of h_init plus the product
  of the message with one transposed slice of the stacked weight, and the message is the same gathers and segment sum
  of the previous edge array.
-/
import proofs.«404745_j46720654246230_3_alg».proof.Proof.Gen.ReferenceIdeal.Read
import proofs.«404745_j46720654246230_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefMsg

open Cert.ReferenceIdeal Cert.ReferenceIdeal.Read Cert.ReferenceIdeal.Facts₀ Cert.ReferenceIdeal.Facts
open Idealize.ShloMosaic Idealize.ShloMosaic.ValueIdx

variable (x0 : FVec Ideal S98304x73 .f32) (x1 : FVec Ideal S204800x13 .f32) (x2 x3 x4 : IVec S204800 32) (x5 : IVec S98304 32)
  (x6 : FVec Ideal S300x86 .f32) (x7 : FVec Ideal S3x300x300 .f32) (x8 : FVec Ideal S300x373 .f32) (x9 : FVec Ideal S300 .f32)
  (x10 : FVec Ideal S300x300 .f32) (x11 : FVec Ideal S300 .f32) (x12 : FVec Ideal S3x300 .f32) (x13 : FVec Ideal S3 .f32)

/-! ## The specification's weight slices, entry by entry

The stacked weight with its last two axes exchanged, then one slab of it with the unit axis dropped: entry (k, j) of
slab s is the stacked weight's entry (s, j, k). -/

/-- The stack with its last two axes exchanged, at (s, k, j), is the stack at (s, j, k). -/
theorem wmT_apply (w : FVec Ideal S3x300x300 .f32) (s : Fin 3) (k j : Fin 300) :
    Spec.wmT w (ix3 s k j) = w (ix3 s j k) := by
  unfold Spec.wmT
  exact transpose_apply [0, 2, 1] w _ (ix3 s k j) (ix3 s j k) (fun b => match b with
    | ⟨0, _⟩ => rfl
    | ⟨1, _⟩ => rfl
    | ⟨2, _⟩ => rfl)

/-- Slab 0 at (k, j) is the stacked weight at (0, j, k). -/
theorem wmT0_apply (w : FVec Ideal S3x300x300 .f32) (k j : Fin 300) :
    Spec.wmT0 w (ix2 k j) = w (ix3 (0 : Fin 3) j k) := by
  unfold Spec.wmT0
  refine (shapeCast_apply _ _ (ix2 k j) (ix3 (0 : Fin 1) k j) ?_).trans ?_
  · rewrite [Shape.rowMajor_val_three, Shape.rowMajor_val_two]
    show (0 * 300 + k.val) * 300 + j.val = k.val * 300 + j.val
    omega
  refine (extractStridedSlice_apply ![0, 0, 0] _ _ (ix3 (0 : Fin 1) k j) (ix3 (0 : Fin 3) k j) (fun a => match a with
    | ⟨0, _⟩ => by show (0 : Nat) = 0 + 0; omega
    | ⟨1, _⟩ => by show k.val = 0 + k.val; omega
    | ⟨2, _⟩ => by show j.val = 0 + j.val; omega)).trans ?_
  exact wmT_apply w 0 k j

/-- Slab 1 at (k, j) is the stacked weight at (1, j, k). -/
theorem wmT1_apply (w : FVec Ideal S3x300x300 .f32) (k j : Fin 300) :
    Spec.wmT1 w (ix2 k j) = w (ix3 (1 : Fin 3) j k) := by
  unfold Spec.wmT1
  refine (shapeCast_apply _ _ (ix2 k j) (ix3 (0 : Fin 1) k j) ?_).trans ?_
  · rewrite [Shape.rowMajor_val_three, Shape.rowMajor_val_two]
    show (0 * 300 + k.val) * 300 + j.val = k.val * 300 + j.val
    omega
  refine (extractStridedSlice_apply ![1, 0, 0] _ _ (ix3 (0 : Fin 1) k j) (ix3 (1 : Fin 3) k j) (fun a => match a with
    | ⟨0, _⟩ => by show (1 : Nat) = 1 + 0; omega
    | ⟨1, _⟩ => by show k.val = 0 + k.val; omega
    | ⟨2, _⟩ => by show j.val = 0 + j.val; omega)).trans ?_
  exact wmT_apply w 1 k j

/-- Slab 2 at (k, j) is the stacked weight at (2, j, k). -/
theorem wmT2_apply (w : FVec Ideal S3x300x300 .f32) (k j : Fin 300) :
    Spec.wmT2 w (ix2 k j) = w (ix3 (2 : Fin 3) j k) := by
  unfold Spec.wmT2
  refine (shapeCast_apply _ _ (ix2 k j) (ix3 (0 : Fin 1) k j) ?_).trans ?_
  · rewrite [Shape.rowMajor_val_three, Shape.rowMajor_val_two]
    show (0 * 300 + k.val) * 300 + j.val = k.val * 300 + j.val
    omega
  refine (extractStridedSlice_apply ![2, 0, 0] _ _ (ix3 (0 : Fin 1) k j) (ix3 (2 : Fin 3) k j) (fun a => match a with
    | ⟨0, _⟩ => by show (2 : Nat) = 2 + 0; omega
    | ⟨1, _⟩ => by show k.val = 0 + k.val; omega
    | ⟨2, _⟩ => by show j.val = 0 + j.val; omega)).trans ?_
  exact wmT_apply w 2 k j

/-! ## Depth step 1 -/

/-- The product's left index at result entry (e, j), term k, is (e, k). -/
theorem lidx1 (e : Fin 204800) (j k : Fin 300) : lidx_main_v32 (ix2 e j) k = ix2 e k :=
  funext fun a => Fin.ext (by match a with | ⟨0, _⟩ => rfl | ⟨1, _⟩ => rfl)

/-- The product's right index at result entry (e, j), term k, is (k, j). -/
theorem ridx1 (e : Fin 204800) (j k : Fin 300) : ridx_main_v32 (ix2 e j) k = ix2 k j :=
  funext fun a => Fin.ext (by match a with | ⟨0, _⟩ => rfl | ⟨1, _⟩ => rfl)

/-- The reference's weight operand at (k, j): slab 0 of the stacked weight, unit axis dropped, transposed, is the
    stacked weight at (0, j, k). -/
theorem refW1 (k j : Fin 300) : val_main_v31 (F := Ideal) x7 (ix2 k j) = x7 (ix3 (0 : Fin 3) j k) := by
  rw [val_main_v31_apply, val_main_v30_apply, val_main_v29_apply]
  refine congrArg x7 (funext fun a => Fin.ext ?_)
  have hj := j.isLt
  have hk := k.isLt
  match a with
  | ⟨0, _⟩ => rfl
  | ⟨1, _⟩ => show (j.val * 300 + k.val) / 300 % 300 = j.val; omega
  | ⟨2, _⟩ => show (j.val * 300 + k.val) % 300 = k.val; omega

/-- The positive part is taken against the float zero. -/
theorem zero1 (i : S204800x300.Idx) : val_main_call1_v0 (F := Ideal) i = Spec.zero := by
  rw [val_main_call1_v0_apply, val_main_call1_cst_apply]
  rfl

/-- The reference's message of step 1 is the specification's message of h_init: the same two gathers at the wrapped
    indices and the same segment sum, operation for operation. -/
theorem msg1 : val_main_v28 (F := Ideal) x0 x1 x2 x4 x6
    = Spec.message (val_main_v10 (F := Ideal) x0 x1 x2 x6) x2 x4 := by
  unfold val_main_v28 val_main_v20 val_main_v27 val_main_v13
  generalize val_main_v10 (F := Ideal) x0 x1 x2 x6 = h
  unfold val_main_v19 val_main_v18 val_main_v17 val_main_v16 val_main_c_2 val_main_v15 val_main_v14 val_main_c_1
    val_main_v26 val_main_v25 val_main_v24 val_main_v23 val_main_c_4 val_main_v22 val_main_v21 val_main_c_3
    val_main_v12 val_main_v11 val_main_cst
    Spec.message Spec.sumToAtoms Spec.wrapIdx
  rfl

/-- Depth step 1, over the reference's own h_init. -/
theorem stage1 : val_main_v34 (F := Ideal) x0 x1 x2 x4 x6 x7
    = Spec.msgUpdate (Spec.message (val_main_v10 (F := Ideal) x0 x1 x2 x6) x2 x4) (val_main_v10 (F := Ideal) x0 x1 x2 x6) (Spec.wmT0 x7) := by
  funext i
  obtain ⟨e, j, rfl⟩ : ∃ (e : Fin 204800) (j : Fin 300), i = ix2 e j := ⟨i 0, i 1, eq_ix2 i⟩
  rw [val_main_v34_apply, val_main_v33_apply, val_main_v32_apply, zero1]
  show max (val_main_v10 (F := Ideal) x0 x1 x2 x6 (ix2 e j)
        + ∑ k : Fin 300, val_main_v28 (F := Ideal) x0 x1 x2 x4 x6 (lidx_main_v32 (ix2 e j) k)
            * val_main_v31 (F := Ideal) x7 (ridx_main_v32 (ix2 e j) k)) Spec.zero
      = max (val_main_v10 (F := Ideal) x0 x1 x2 x6 (ix2 e j)
        + ∑ k : Fin 300, Spec.message (val_main_v10 (F := Ideal) x0 x1 x2 x6) x2 x4 (ix2 e k) * Spec.wmT0 x7 (ix2 k j)) Spec.zero
  refine congrArg (fun s => max (val_main_v10 (F := Ideal) x0 x1 x2 x6 (ix2 e j) + s) Spec.zero)
    (Finset.sum_congr rfl fun k _ => ?_)
  rw [lidx1, ridx1, msg1, refW1, wmT0_apply]

/-! ## Depth step 2 -/

/-- The product's left index at result entry (e, j), term k, is (e, k). -/
theorem lidx2 (e : Fin 204800) (j k : Fin 300) : lidx_main_v56 (ix2 e j) k = ix2 e k :=
  funext fun a => Fin.ext (by match a with | ⟨0, _⟩ => rfl | ⟨1, _⟩ => rfl)

/-- The product's right index at result entry (e, j), term k, is (k, j). -/
theorem ridx2 (e : Fin 204800) (j k : Fin 300) : ridx_main_v56 (ix2 e j) k = ix2 k j :=
  funext fun a => Fin.ext (by match a with | ⟨0, _⟩ => rfl | ⟨1, _⟩ => rfl)

/-- The reference's weight operand at (k, j): slab 1 of the stacked weight, unit axis dropped, transposed, is the
    stacked weight at (1, j, k). -/
theorem refW2 (k j : Fin 300) : val_main_v55 (F := Ideal) x7 (ix2 k j) = x7 (ix3 (1 : Fin 3) j k) := by
  rw [val_main_v55_apply, val_main_v54_apply, val_main_v53_apply]
  refine congrArg x7 (funext fun a => Fin.ext ?_)
  have hj := j.isLt
  have hk := k.isLt
  match a with
  | ⟨0, _⟩ => rfl
  | ⟨1, _⟩ => show (j.val * 300 + k.val) / 300 % 300 = j.val; omega
  | ⟨2, _⟩ => show (j.val * 300 + k.val) % 300 = k.val; omega

/-- The positive part is taken against the float zero. -/
theorem zero2 (i : S204800x300.Idx) : val_main_call2_v0 (F := Ideal) i = Spec.zero := by
  rw [val_main_call2_v0_apply, val_main_call2_cst_apply]
  rfl

/-- The reference's message of step 2 is the specification's message of the step-1 edge array: the same two gathers
    at the wrapped indices and the same segment sum, operation for operation. -/
theorem msg2 : val_main_v52 (F := Ideal) x0 x1 x2 x4 x6 x7
    = Spec.message (val_main_v34 (F := Ideal) x0 x1 x2 x4 x6 x7) x2 x4 := by
  unfold val_main_v52 val_main_v44 val_main_v51 val_main_v37
  generalize val_main_v34 (F := Ideal) x0 x1 x2 x4 x6 x7 = h
  unfold val_main_v43 val_main_v42 val_main_v41 val_main_v40 val_main_c_7 val_main_v39 val_main_v38 val_main_c_6
    val_main_v50 val_main_v49 val_main_v48 val_main_v47 val_main_c_9 val_main_v46 val_main_v45 val_main_c_8
    val_main_v36 val_main_v35 val_main_cst_5
    Spec.message Spec.sumToAtoms Spec.wrapIdx
  rfl

/-- Depth step 2, over the reference's step 1. -/
theorem stage2 : val_main_v58 (F := Ideal) x0 x1 x2 x4 x6 x7
    = Spec.msgUpdate (Spec.message (val_main_v34 (F := Ideal) x0 x1 x2 x4 x6 x7) x2 x4) (val_main_v10 (F := Ideal) x0 x1 x2 x6) (Spec.wmT1 x7) := by
  funext i
  obtain ⟨e, j, rfl⟩ : ∃ (e : Fin 204800) (j : Fin 300), i = ix2 e j := ⟨i 0, i 1, eq_ix2 i⟩
  rw [val_main_v58_apply, val_main_v57_apply, val_main_v56_apply, zero2]
  show max (val_main_v10 (F := Ideal) x0 x1 x2 x6 (ix2 e j)
        + ∑ k : Fin 300, val_main_v52 (F := Ideal) x0 x1 x2 x4 x6 x7 (lidx_main_v56 (ix2 e j) k)
            * val_main_v55 (F := Ideal) x7 (ridx_main_v56 (ix2 e j) k)) Spec.zero
      = max (val_main_v10 (F := Ideal) x0 x1 x2 x6 (ix2 e j)
        + ∑ k : Fin 300, Spec.message (val_main_v34 (F := Ideal) x0 x1 x2 x4 x6 x7) x2 x4 (ix2 e k) * Spec.wmT1 x7 (ix2 k j)) Spec.zero
  refine congrArg (fun s => max (val_main_v10 (F := Ideal) x0 x1 x2 x6 (ix2 e j) + s) Spec.zero)
    (Finset.sum_congr rfl fun k _ => ?_)
  rw [lidx2, ridx2, msg2, refW2, wmT1_apply]

/-! ## Depth step 3 -/

/-- The product's left index at result entry (e, j), term k, is (e, k). -/
theorem lidx3 (e : Fin 204800) (j k : Fin 300) : lidx_main_v80 (ix2 e j) k = ix2 e k :=
  funext fun a => Fin.ext (by match a with | ⟨0, _⟩ => rfl | ⟨1, _⟩ => rfl)

/-- The product's right index at result entry (e, j), term k, is (k, j). -/
theorem ridx3 (e : Fin 204800) (j k : Fin 300) : ridx_main_v80 (ix2 e j) k = ix2 k j :=
  funext fun a => Fin.ext (by match a with | ⟨0, _⟩ => rfl | ⟨1, _⟩ => rfl)

/-- The reference's weight operand at (k, j): slab 2 of the stacked weight, unit axis dropped, transposed, is the
    stacked weight at (2, j, k). -/
theorem refW3 (k j : Fin 300) : val_main_v79 (F := Ideal) x7 (ix2 k j) = x7 (ix3 (2 : Fin 3) j k) := by
  rw [val_main_v79_apply, val_main_v78_apply, val_main_v77_apply]
  refine congrArg x7 (funext fun a => Fin.ext ?_)
  have hj := j.isLt
  have hk := k.isLt
  match a with
  | ⟨0, _⟩ => rfl
  | ⟨1, _⟩ => show (j.val * 300 + k.val) / 300 % 300 = j.val; omega
  | ⟨2, _⟩ => show (j.val * 300 + k.val) % 300 = k.val; omega

/-- The positive part is taken against the float zero. -/
theorem zero3 (i : S204800x300.Idx) : val_main_call3_v0 (F := Ideal) i = Spec.zero := by
  rw [val_main_call3_v0_apply, val_main_call3_cst_apply]
  rfl

/-- The reference's message of step 3 is the specification's message of the step-2 edge array: the same two gathers
    at the wrapped indices and the same segment sum, operation for operation. -/
theorem msg3 : val_main_v76 (F := Ideal) x0 x1 x2 x4 x6 x7
    = Spec.message (val_main_v58 (F := Ideal) x0 x1 x2 x4 x6 x7) x2 x4 := by
  unfold val_main_v76 val_main_v68 val_main_v75 val_main_v61
  generalize val_main_v58 (F := Ideal) x0 x1 x2 x4 x6 x7 = h
  unfold val_main_v67 val_main_v66 val_main_v65 val_main_v64 val_main_c_12 val_main_v63 val_main_v62 val_main_c_11
    val_main_v74 val_main_v73 val_main_v72 val_main_v71 val_main_c_14 val_main_v70 val_main_v69 val_main_c_13
    val_main_v60 val_main_v59 val_main_cst_10
    Spec.message Spec.sumToAtoms Spec.wrapIdx
  rfl

/-- Depth step 3, over the reference's step 2. -/
theorem stage3 : val_main_v82 (F := Ideal) x0 x1 x2 x4 x6 x7
    = Spec.msgUpdate (Spec.message (val_main_v58 (F := Ideal) x0 x1 x2 x4 x6 x7) x2 x4) (val_main_v10 (F := Ideal) x0 x1 x2 x6) (Spec.wmT2 x7) := by
  funext i
  obtain ⟨e, j, rfl⟩ : ∃ (e : Fin 204800) (j : Fin 300), i = ix2 e j := ⟨i 0, i 1, eq_ix2 i⟩
  rw [val_main_v82_apply, val_main_v81_apply, val_main_v80_apply, zero3]
  show max (val_main_v10 (F := Ideal) x0 x1 x2 x6 (ix2 e j)
        + ∑ k : Fin 300, val_main_v76 (F := Ideal) x0 x1 x2 x4 x6 x7 (lidx_main_v80 (ix2 e j) k)
            * val_main_v79 (F := Ideal) x7 (ridx_main_v80 (ix2 e j) k)) Spec.zero
      = max (val_main_v10 (F := Ideal) x0 x1 x2 x6 (ix2 e j)
        + ∑ k : Fin 300, Spec.message (val_main_v58 (F := Ideal) x0 x1 x2 x4 x6 x7) x2 x4 (ix2 e k) * Spec.wmT2 x7 (ix2 k j)) Spec.zero
  refine congrArg (fun s => max (val_main_v10 (F := Ideal) x0 x1 x2 x6 (ix2 e j) + s) Spec.zero)
    (Finset.sum_congr rfl fun k _ => ?_)
  rw [lidx3, ridx3, msg3, refW3, wmT2_apply]

end Cert.ReferenceIdeal.RefMsg

end
-- ==== Proof.RefAtom.lean ====
/-
  The reference's atom readout is the specification's: the product of the joined [atom features ; summed messages] rows
  with the transposed weight, over the 373 joined columns, is the sum over the 73 atom columns plus the sum over the 300
  message columns; then the bias and the positive part.
-/
import proofs.«404745_j46720654246230_3_alg».proof.Proof.Gen.ReferenceIdeal.Read
import proofs.«404745_j46720654246230_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefAtom

open Cert.ReferenceIdeal Cert.ReferenceIdeal.Read Cert.ReferenceIdeal.Facts₀ Cert.ReferenceIdeal.Facts
open Idealize.ShloMosaic Idealize.ShloMosaic.ValueIdx

variable (x0 : FVec Ideal S98304x73 .f32) (x1 : FVec Ideal S204800x13 .f32) (x2 x3 x4 : IVec S204800 32) (x5 : IVec S98304 32)
  (x6 : FVec Ideal S300x86 .f32) (x7 : FVec Ideal S3x300x300 .f32) (x8 : FVec Ideal S300x373 .f32) (x9 : FVec Ideal S300 .f32)
  (x10 : FVec Ideal S300x300 .f32) (x11 : FVec Ideal S300 .f32) (x12 : FVec Ideal S3x300 .f32) (x13 : FVec Ideal S3 .f32)

/-! ## The 373 joined columns are the 73 atom-feature columns followed by the 300 message columns -/

/-- An atom-feature column as a joined column: the same position. -/
abbrev atomCol (k : Fin 73) : Fin 373 := ⟨k.val, by omega⟩
/-- A message column as a joined column: 73 further along. -/
abbrev msgCol (k : Fin 300) : Fin 373 := ⟨73 + k.val, by omega⟩

/-- A sum over the joined columns is the sum over the atom-feature columns plus the sum over the message columns. -/
theorem sum_joined (f : Fin 373 → EReal) :
    ∑ k : Fin 373, f k = (∑ k : Fin 73, f (atomCol k)) + ∑ k : Fin 300, f (msgCol k) :=
  Fin.sum_univ_add (a := 73) (b := 300) f

/-! ## The index functions of the product, the transpose and the bias, as coordinates -/

theorem lidx_eq (n : Fin 98304) (j : Fin 300) (k : Fin 373) : lidx_main_v88 (ix2 n j) k = ix2 n k :=
  funext fun a => Fin.ext (by match a with | ⟨0, _⟩ => rfl | ⟨1, _⟩ => rfl)

theorem ridx_eq (n : Fin 98304) (j : Fin 300) (k : Fin 373) : ridx_main_v88 (ix2 n j) k = ix2 k j :=
  funext fun a => Fin.ext (by match a with | ⟨0, _⟩ => rfl | ⟨1, _⟩ => rfl)

theorem tidx_eq (k : Fin 373) (j : Fin 300) : idx_main_v87 (ix2 k j) = ix2 j k :=
  funext fun a => Fin.ext (by match a with | ⟨0, _⟩ => rfl | ⟨1, _⟩ => rfl)

theorem bidx_eq (n : Fin 98304) (j : Fin 300) : idx_main_v89 (idx_main_v90 (ix2 n j)) = ix1 j :=
  funext fun a => Fin.ext (by match a with | ⟨0, _⟩ => rfl)

/-! ## The operands, entry by entry -/

/-- The transposed weight at row k, column j is the weight at row j, column k. -/
theorem weightT_at (k : Fin 373) (j : Fin 300) : val_main_v87 (F := Ideal) x8 (ix2 k j) = x8 (ix2 j k) := by
  rw [val_main_v87_apply, tidx_eq]

/-- The joined rows at an atom-feature column are the atom features there. -/
theorem joined_atom (n : Fin 98304) (k : Fin 73) :
    val_main_v86 (F := Ideal) x0 x1 x2 x3 x4 x6 x7 (ix2 n (atomCol k)) = x0 (ix2 n k) := by
  unfold val_main_v86
  generalize val_main_v85 (F := Ideal) x0 x1 x2 x3 x4 x6 x7 = y
  exact concatenate_pair_apply_left (t := S98304x373) (s₁ := S98304x73) (s₂ := S98304x300) 1 x0 y
    concatenates_S98304x73_S98304x300_S98304x373_d1 (ix2 n (atomCol k)) rfl (ix2 n k)
    (fun b => match b with | ⟨0, _⟩ => rfl | ⟨1, _⟩ => rfl)

/-- The joined rows at a message column are the summed messages, 73 columns back. -/
theorem joined_msg (n : Fin 98304) (k : Fin 300) :
    val_main_v86 (F := Ideal) x0 x1 x2 x3 x4 x6 x7 (ix2 n (msgCol k))
      = val_main_v85 (F := Ideal) x0 x1 x2 x3 x4 x6 x7 (ix2 n k) := by
  unfold val_main_v86
  generalize val_main_v85 (F := Ideal) x0 x1 x2 x3 x4 x6 x7 = y
  exact concatenate_pair_apply_right (t := S98304x373) (s₁ := S98304x73) (s₂ := S98304x300) 1 x0 y
    concatenates_S98304x73_S98304x300_S98304x373_d1 (ix2 n (msgCol k)) rfl rfl (ix2 n k)
    (fun b hb => match b, hb with
      | ⟨0, _⟩, _ => rfl
      | ⟨1, _⟩, hb => absurd rfl hb)
    (by show k.val + 73 = 73 + k.val; omega)

/-- The sum of the last edge array's rows into atoms is the specification's, the two programs' records differing in
    name only. -/
theorem sums_eq : val_main_v85 (F := Ideal) x0 x1 x2 x3 x4 x6 x7
    = Spec.sumToAtoms x3 (val_main_v82 (F := Ideal) x0 x1 x2 x4 x6 x7) := rfl

/-- The broadcast bias at atom n, feature j is the bias at j. -/
theorem bias_at (n : Fin 98304) (j : Fin 300) : val_main_v90 (F := Ideal) x9 (ix2 n j) = x9 (ix1 j) := by
  rw [val_main_v90_apply, val_main_v89_apply, bidx_eq]

/-- The float zero the positive part is taken against. -/
theorem zero_at (i : S98304x300.Idx) : val_main_call4_v0 (F := Ideal) i = Spec.zero := by
  rw [val_main_call4_v0_apply, val_main_call4_cst_apply]
  rfl

/-! ## The specification's two column blocks of the weight and its bias row, entry by entry -/

/-- The atom-feature block, transposed: row k, column j is the weight at row j, atom-feature column k. -/
theorem waAtomT_at (k : Fin 73) (j : Fin 300) : Spec.waAtomT x8 (ix2 k j) = x8 (ix2 j (atomCol k)) := by
  unfold Spec.waAtomT
  refine Eq.trans (transpose_apply (s := Cert.KernelIdeal.S300x73) (t := Cert.KernelIdeal.S73x300) [1, 0] _ _
    (ix2 k j) (ix2 j k) (fun b => match b with | ⟨0, _⟩ => rfl | ⟨1, _⟩ => rfl)) ?_
  exact extractStridedSlice_apply (s := Cert.KernelIdeal.S300x373) (t := Cert.KernelIdeal.S300x73) ![0, 0] x8 _
    (ix2 j k) (ix2 j (atomCol k)) (fun a => match a with
      | ⟨0, _⟩ => by show j.val = 0 + j.val; omega
      | ⟨1, _⟩ => by show k.val = 0 + k.val; omega)

/-- The message block, transposed: row k, column j is the weight at row j, message column k. -/
theorem waMsgT_at (k : Fin 300) (j : Fin 300) : Spec.waMsgT x8 (ix2 k j) = x8 (ix2 j (msgCol k)) := by
  unfold Spec.waMsgT
  refine Eq.trans (transpose_apply (s := Cert.KernelIdeal.S300x300) (t := Cert.KernelIdeal.S300x300) [1, 0] _ _
    (ix2 k j) (ix2 j k) (fun b => match b with | ⟨0, _⟩ => rfl | ⟨1, _⟩ => rfl)) ?_
  exact extractStridedSlice_apply (s := Cert.KernelIdeal.S300x373) (t := Cert.KernelIdeal.S300x300) ![0, 73] x8 _
    (ix2 j k) (ix2 j (msgCol k)) (fun a => match a with
      | ⟨0, _⟩ => by show j.val = 0 + j.val; omega
      | ⟨1, _⟩ => by show 73 + k.val = 73 + k.val; rfl)

/-- The bias as a one-row array: row 0, column j is the bias at j. -/
theorem rowOf300_at (j : Fin 300) : Spec.rowOf300 x9 (ix2 (0 : Fin 1) j) = x9 (ix1 j) := by
  unfold Spec.rowOf300
  exact shapeCast_apply (s := Cert.KernelIdeal.S300) (t := Cert.KernelIdeal.S1x300) x9 _ (ix2 (0 : Fin 1) j) (ix1 j)
    (by rewrite [Shape.rowMajor_val_one, Shape.rowMajor_val_two]; show j.val = 0 * 300 + j.val; omega)

/-! ## The product, entry by entry -/

/-- The joined product at atom n, feature j, split over the two column blocks. -/
theorem product_at (n : Fin 98304) (j : Fin 300) :
    val_main_v88 (F := Ideal) x0 x1 x2 x3 x4 x6 x7 x8 (ix2 n j)
      = (∑ k : Fin 73, x0 (ix2 n k) * x8 (ix2 j (atomCol k)))
        + ∑ k : Fin 300, val_main_v85 (F := Ideal) x0 x1 x2 x3 x4 x6 x7 (ix2 n k) * x8 (ix2 j (msgCol k)) := by
  rw [val_main_v88_apply, sum_joined]
  refine congrArg₂ (· + ·) (Finset.sum_congr rfl fun k _ => ?_) (Finset.sum_congr rfl fun k _ => ?_)
  · rw [lidx_eq, ridx_eq, joined_atom, weightT_at]
  · rw [lidx_eq, ridx_eq, joined_msg, weightT_at]

/-- The specification's atom readout read at an index is its entry. -/
theorem atomReadout_at (Af : FVec Ideal Cert.KernelIdeal.S98304x73 .f32) (Ma : FVec Ideal Cert.KernelIdeal.S98304x300 .f32)
    (Wa : FVec Ideal Cert.KernelIdeal.S73x300 .f32) (Wm : FVec Ideal Cert.KernelIdeal.S300x300 .f32)
    (b : FVec Ideal Cert.KernelIdeal.S1x300 .f32) (n : Fin 98304) (j : Fin 300) :
    Spec.atomReadout Af Ma Wa Wm b (ix2 n j) = Spec.atomReadoutAt Af Ma Wa Wm b n j := rfl

/-- The reference's h_atom, over its own last edge array. -/
theorem stage4 : val_main_v92 (F := Ideal) x0 x1 x2 x3 x4 x6 x7 x8 x9
    = Spec.atomReadout x0 (Spec.sumToAtoms x3 (val_main_v82 (F := Ideal) x0 x1 x2 x4 x6 x7)) (Spec.waAtomT x8) (Spec.waMsgT x8) (Spec.rowOf300 x9) := by
  funext i
  obtain ⟨n, j, rfl⟩ : ∃ (n : Fin 98304) (j : Fin 300), i = ix2 n j := ⟨i 0, i 1, eq_ix2 i⟩
  rw [val_main_v92_apply, val_main_v91_apply, product_at, bias_at, zero_at, atomReadout_at, Ideal.maximumf_def,
    Ideal.addf_def, sums_eq]
  unfold Spec.atomReadoutAt
  simp only [waAtomT_at, waMsgT_at, rowOf300_at]

end Cert.ReferenceIdeal.RefAtom

end
-- ==== Proof.RefHead.lean ====
/-
  The reference's head is the specification's: the per-molecule mean is the same segment sums and quotient; the hidden
  layer is the product with the transposed first weight plus its bias, positive part; the output the product with the
  transposed second weight plus its bias.
-/
import proofs.«404745_j46720654246230_3_alg».proof.Proof.Gen.ReferenceIdeal.Read
import proofs.«404745_j46720654246230_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefHead

open Cert.ReferenceIdeal Cert.ReferenceIdeal.Read Cert.ReferenceIdeal.Facts₀ Cert.ReferenceIdeal.Facts
open Idealize.ShloMosaic Idealize.ShloMosaic.ValueIdx

variable (x0 : FVec Ideal S98304x73 .f32) (x1 : FVec Ideal S204800x13 .f32) (x2 x3 x4 : IVec S204800 32) (x5 : IVec S98304 32)
  (x6 : FVec Ideal S300x86 .f32) (x7 : FVec Ideal S3x300x300 .f32) (x8 : FVec Ideal S300x373 .f32) (x9 : FVec Ideal S300 .f32)
  (x10 : FVec Ideal S300x300 .f32) (x11 : FVec Ideal S300 .f32) (x12 : FVec Ideal S3x300 .f32) (x13 : FVec Ideal S3 .f32)

/-! ## The composed index functions, as coordinates -/

/-- The output product reads its left operand at (n, k) … -/
theorem lidx112 (n : Fin 4096) (q : Fin 3) (k : Fin 300) : lidx_main_v112 (ix2 n q) k = ix2 n k :=
  funext fun a => Fin.ext (by match a with | ⟨0, _⟩ => rfl | ⟨1, _⟩ => rfl)

/-- … and the second weight, through its transpose, at (q, k). -/
theorem ridx112 (n : Fin 4096) (q : Fin 3) (k : Fin 300) : idx_main_v111 (ridx_main_v112 (ix2 n q) k) = ix2 q k :=
  funext fun a => Fin.ext (by match a with | ⟨0, _⟩ => rfl | ⟨1, _⟩ => rfl)

/-- The hidden product reads its left operand at (n, j) … -/
theorem lidx106 (n : Fin 4096) (k j : Fin 300) : lidx_main_v106 (ix2 n k) j = ix2 n j :=
  funext fun a => Fin.ext (by match a with | ⟨0, _⟩ => rfl | ⟨1, _⟩ => rfl)

/-- … and the first weight, through its transpose, at (k, j). -/
theorem ridx106 (n : Fin 4096) (k j : Fin 300) : idx_main_v105 (ridx_main_v106 (ix2 n k) j) = ix2 k j :=
  funext fun a => Fin.ext (by match a with | ⟨0, _⟩ => rfl | ⟨1, _⟩ => rfl)

/-- The first bias, broadcast twice, is read at k whatever the row. -/
theorem bidx108 (n : Fin 4096) (k : Fin 300) : idx_main_v107 (idx_main_v108 (ix2 n k)) = ix1 k :=
  funext fun a => Fin.ext (by match a with | ⟨0, _⟩ => rfl)

/-- The second bias, broadcast twice, is read at q whatever the row. -/
theorem bidx114 (n : Fin 4096) (q : Fin 3) : idx_main_v113 (idx_main_v114 (ix2 n q)) = ix1 q :=
  funext fun a => Fin.ext (by match a with | ⟨0, _⟩ => rfl)

/-! ## The specification's weights and biases at an index -/

/-- Entry (j, k) of the transposed first weight is entry (k, j) of the weight. -/
theorem w1T_apply (w : FVec Ideal S300x300 .f32) (j k : Fin 300) : Spec.w1T w (ix2 j k) = w (ix2 k j) := by
  unfold Spec.w1T
  exact transpose_apply [1, 0] w _ (ix2 j k) (ix2 k j) (fun b => match b with
    | ⟨0, _⟩ => rfl
    | ⟨1, _⟩ => rfl)

/-- Entry (k, q) of the transposed second weight is entry (q, k) of the weight. -/
theorem w2T_apply (w : FVec Ideal S3x300 .f32) (k : Fin 300) (q : Fin 3) : Spec.w2T w (ix2 k q) = w (ix2 q k) := by
  unfold Spec.w2T
  exact transpose_apply [1, 0] w _ (ix2 k q) (ix2 q k) (fun b => match b with
    | ⟨0, _⟩ => rfl
    | ⟨1, _⟩ => rfl)

/-- Entry (0, k) of the first bias laid out as a row is its entry k: both sit at row-major position k. -/
theorem rowOf300_apply (b : FVec Ideal S300 .f32) (k : Fin 300) : Spec.rowOf300 b (ix2 (0 : Fin 1) k) = b (ix1 k) := by
  unfold Spec.rowOf300
  exact shapeCast_apply b _ (ix2 (0 : Fin 1) k) (ix1 k)
    (by rewrite [Shape.rowMajor_val_one, Shape.rowMajor_val_two]; show k.val = 0 * 300 + k.val; omega)

/-- Entry (0, q) of the second bias laid out as a row is its entry q. -/
theorem rowOf3_apply (b : FVec Ideal S3 .f32) (q : Fin 3) : Spec.rowOf3 b (ix2 (0 : Fin 1) q) = b (ix1 q) := by
  unfold Spec.rowOf3
  exact shapeCast_apply b _ (ix2 (0 : Fin 1) q) (ix1 q)
    (by rewrite [Shape.rowMajor_val_one, Shape.rowMajor_val_two]; show q.val = 0 * 3 + q.val; omega)

/-! ## The per-molecule mean -/

/-- The reference's mean is the specification's: the same segment sum of the atom rows, divided by the same broadcast
    of the larger of the segment's count and one. Only names are unfolded; the atom rows stay an unknown. -/
theorem molMean_eq : val_main_v104 (F := Ideal) x0 x1 x2 x3 x4 x5 x6 x7 x8 x9
    = Spec.molMean (val_main_v92 (F := Ideal) x0 x1 x2 x3 x4 x6 x7 x8 x9) x5 := by
  unfold val_main_v104 val_main_v95
  generalize val_main_v92 (F := Ideal) x0 x1 x2 x3 x4 x6 x7 x8 x9 = h
  unfold val_main_v103 val_main_v102 val_main_v101 val_main_v100 val_main_v99 val_main_v98 val_main_v97 val_main_v96
    val_main_v94 val_main_v93 val_main_cst_19 val_main_cst_18 val_main_cst_17 val_main_cst_16 Spec.molMean
  rfl

/-! ## The two products, entry by entry -/

/-- The hidden product at (n, k): the sum over j of mean[n, j] W1ᵀ[j, k]. -/
theorem hidden_sum (n : Fin 4096) (k : Fin 300) :
    val_main_v106 (F := Ideal) x0 x1 x2 x3 x4 x5 x6 x7 x8 x9 x10 (ix2 n k)
      = ∑ j : Fin 300, Spec.molMean (val_main_v92 (F := Ideal) x0 x1 x2 x3 x4 x6 x7 x8 x9) x5 (ix2 n j) * Spec.w1T x10 (ix2 j k) := by
  rw [val_main_v106_apply]
  refine Finset.sum_congr rfl fun j _ => ?_
  rw [lidx106, val_main_v105_apply, ridx106, w1T_apply, molMean_eq]

/-- The hidden layer at (n, k): the positive part of the hidden product plus the bias. -/
theorem hidden_entry (n : Fin 4096) (k : Fin 300) :
    val_main_v110 (F := Ideal) x0 x1 x2 x3 x4 x5 x6 x7 x8 x9 x10 x11 (ix2 n k)
      = Spec.hiddenAt (Spec.molMean (val_main_v92 (F := Ideal) x0 x1 x2 x3 x4 x6 x7 x8 x9) x5) (Spec.w1T x10) (Spec.rowOf300 x11) n k := by
  rw [val_main_v110_apply, val_main_v109_apply, hidden_sum, val_main_v108_apply, val_main_v107_apply, bidx108,
    val_main_call5_v0_apply, val_main_call5_cst_apply, Spec.hiddenAt, rowOf300_apply]
  rfl

/-- The output product at (n, q): the sum over k of hidden[n, k] W2ᵀ[k, q]. -/
theorem out_sum (n : Fin 4096) (q : Fin 3) :
    val_main_v112 (F := Ideal) x0 x1 x2 x3 x4 x5 x6 x7 x8 x9 x10 x11 x12 (ix2 n q)
      = ∑ k : Fin 300, Spec.hiddenAt (Spec.molMean (val_main_v92 (F := Ideal) x0 x1 x2 x3 x4 x6 x7 x8 x9) x5) (Spec.w1T x10) (Spec.rowOf300 x11) n k
          * Spec.w2T x12 (ix2 k q) := by
  rw [val_main_v112_apply]
  refine Finset.sum_congr rfl fun k _ => ?_
  rw [lidx112, hidden_entry, val_main_v111_apply, ridx112, w2T_apply]

/-- The reference's result, over its own h_atom. -/
theorem stage5 : val_main_v115 (F := Ideal) x0 x1 x2 x3 x4 x5 x6 x7 x8 x9 x10 x11 x12 x13
    = Spec.head (Spec.molMean (val_main_v92 (F := Ideal) x0 x1 x2 x3 x4 x6 x7 x8 x9) x5) (Spec.w1T x10) (Spec.rowOf300 x11) (Spec.w2T x12) (Spec.rowOf3 x13) := by
  funext i
  obtain ⟨n, q, rfl⟩ : ∃ (n : Fin 4096) (q : Fin 3), i = ix2 n q := ⟨i 0, i 1, eq_ix2 i⟩
  show _ = Spec.headAt _ _ _ _ _ n q
  rw [val_main_v115_apply, out_sum, val_main_v114_apply, val_main_v113_apply, bidx114, Spec.headAt, rowOf3_apply]
  rfl

end Cert.ReferenceIdeal.RefHead

end
-- ==== Proof.RefValue.lean ====
/-
  The reference program's result, as the specification's network of its fourteen arguments: its stages rewritten one
  after the other — the head over the per-molecule mean of the atom readout, the readout over the atom sums of the third
  message update, each update over the one before, the first over the edge initialisation — leave the network's own term.
-/
import proofs.«404745_j46720654246230_3_alg».proof.Proof.Gen.ReferenceIdeal.Read
import proofs.«404745_j46720654246230_3_alg».proof.Proof.Spec
import proofs.«404745_j46720654246230_3_alg».proof.Proof.RefEdge
import proofs.«404745_j46720654246230_3_alg».proof.Proof.RefMsg
import proofs.«404745_j46720654246230_3_alg».proof.Proof.RefAtom
import proofs.«404745_j46720654246230_3_alg».proof.Proof.RefHead

set_option maxRecDepth 16384

noncomputable section

namespace Cert.ReferenceIdeal.RefValue

open Cert.ReferenceIdeal Cert.ReferenceIdeal.Read
open Idealize.ShloMosaic

variable (x0 : FVec Ideal S98304x73 .f32) (x1 : FVec Ideal S204800x13 .f32) (x2 x3 x4 : IVec S204800 32) (x5 : IVec S98304 32)
  (x6 : FVec Ideal S300x86 .f32) (x7 : FVec Ideal S3x300x300 .f32) (x8 : FVec Ideal S300x373 .f32) (x9 : FVec Ideal S300 .f32)
  (x10 : FVec Ideal S300x300 .f32) (x11 : FVec Ideal S300 .f32) (x12 : FVec Ideal S3x300 .f32) (x13 : FVec Ideal S3 .f32)

/-- The reference's last stage is the network of the arguments. -/
theorem ref_value : val_main_v115 (F := Ideal) x0 x1 x2 x3 x4 x5 x6 x7 x8 x9 x10 x11 x12 x13 = Spec.network x0 x1 x2 x3 x4 x5 x6 x7 x8 x9 x10 x11 x12 x13 := by
  rw [RefHead.stage5, RefAtom.stage4, RefMsg.stage3, RefMsg.stage2, RefMsg.stage1, RefEdge.stage0]
  rfl

end Cert.ReferenceIdeal.RefValue

end
-- ==== Proof.lean ====
/-
  The certificate of a message-passing network kernel against its plain reference, over the extended reals.

  Both programs compute one function of the fourteen argument arrays: an edge initialisation (a product of the joined
  [gathered atom row ; bond row] with a weight, positive part), three message updates (each edge's message is its source
  atom's summed rows less the reverse edge's row; the update is the positive part of the initialisation plus the
  message's product with a weight), an atom readout (product of the joined [atom features ; summed messages] with a
  weight, bias, positive part), the per-molecule mean, and a two-layer head. The kernel runs the five linear stages as
  six blocked regions, splitting each joined product into two products over the weight's column blocks and narrowing
  the head's operands' float format; the gathers, segment sums and the mean are the same host operations in both
  programs. Over the extended reals a sum over the joined columns is the sum over the first block plus the sum over the
  second (no finiteness is needed: only commutativity and associativity of the sum), and a change of float format is the
  identity, so the two results are equal entry by entry; the precondition is never opened.

  The kernel's run ends with its result array at the last boundary's contents (the generated launch, called once more
  with that conjunct), those contents are the network of the arguments (read back through the run's boundaries), and
  the reference's generated run ends at a term whose stages, rewritten one by one, are the same network.
-/
import proofs.«404745_j46720654246230_3_alg».proof.Defs
import proofs.«404745_j46720654246230_3_alg».proof.Proof.Gen.Kernel
import proofs.«404745_j46720654246230_3_alg».proof.Proof.Gen.Kernel.Skeleton
import proofs.«404745_j46720654246230_3_alg».proof.Proof.Gen.Kernel.Launch
import proofs.«404745_j46720654246230_3_alg».proof.Proof.Gen.Kernel.Points
import proofs.«404745_j46720654246230_3_alg».proof.Proof.Gen.Kernel.Frame
import proofs.«404745_j46720654246230_3_alg».proof.Proof.Gen.KernelIdeal
import proofs.«404745_j46720654246230_3_alg».proof.Proof.Gen.KernelIdeal.Skeleton
import proofs.«404745_j46720654246230_3_alg».proof.Proof.Gen.KernelIdeal.Launch
import proofs.«404745_j46720654246230_3_alg».proof.Proof.Gen.KernelIdeal.Points
import proofs.«404745_j46720654246230_3_alg».proof.Proof.Gen.KernelIdeal.Frame
import proofs.«404745_j46720654246230_3_alg».proof.Proof.Gen.ReferenceIdeal
import proofs.«404745_j46720654246230_3_alg».proof.Proof.Gen.Pre_finite_inputs
import proofs.«404745_j46720654246230_3_alg».proof.Proof.Gen.ReferenceIdeal.Run
import proofs.«404745_j46720654246230_3_alg».proof.Proof.Gen.ReferenceIdeal.Read
import proofs.«404745_j46720654246230_3_alg».proof.Proof.RunNamed
import proofs.«404745_j46720654246230_3_alg».proof.Proof.KernelValue
import proofs.«404745_j46720654246230_3_alg».proof.Proof.RefValue
import Idealize.ShloMosaic.Adequacy
import Idealize.ShloMosaic.Init

noncomputable section

namespace Cert.Proof

open Idealize.ShloMosaic Idealize.SL.Sem

/-- The word-level kernel runs and leaves its arguments: the generated frame. -/
theorem frame_kernel : Cert.frame_Kernel := fun m ρ _ => Cert.Kernel.Gen.frame m ρ

/-- The idealized kernel runs and leaves its arguments: the generated frame. -/
theorem frame_kernel_ideal : Cert.frame_KernelIdeal := fun m ρ _ => Cert.KernelIdeal.Gen.frame m ρ

/-- The reference runs and leaves its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of the arguments as their result. -/
theorem algebraic : Cert.algebraic_KernelIdeal_ReferenceIdeal := by
  intro m ρ m' ρ' _ hagree
  refine ⟨fun c => Cert.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KernelValue.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v115_eq, Cert.ReferenceIdeal.RefValue.ref_value,
      e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
